-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) (main_arg5 : FVec F S1024 .f32) (main_arg6 : FVec F S1024x1024 .f32) (main_arg7 : FVec F S1024 .f32) (main_arg8 : FVec F S1024 .f32) (main_arg9 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S512x1024 : Shape := ⟨2, ![512, 1024]⟩
abbrev S512x3072 : Shape := ⟨2, ![512, 3072]⟩
abbrev S1x512x1024 : Shape := ⟨3, ![1, 512, 1024]⟩
abbrev S1x256x1024 : Shape := ⟨3, ![1, 256, 1024]⟩
abbrev S512x1 : Shape := ⟨2, ![512, 1]⟩
abbrev S256x1024 : Shape := ⟨2, ![256, 1024]⟩
abbrev S512x256 : Shape := ⟨2, ![512, 256]⟩
abbrev S512 : Shape := ⟨1, ![512]⟩
abbrev S1x1024 : Shape := ⟨2, ![1, 1024]⟩

abbrev nBuf : Space → Nat
  | .hbm => 32
  | .vmem => 32
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S8192x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x3072, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S4x2048x1024, .bf16⟩
  | .hbm, ⟨26, _⟩ => ⟨S4x2048x1024, .bf16⟩
  | .hbm, ⟨27, _⟩ => ⟨S4x2048x1024, .bf16⟩
  | .hbm, ⟨28, _⟩ => ⟨S4x2048x1024, .f32⟩
  | .hbm, ⟨29, _⟩ => ⟨S8192x1024, .f32⟩
  | .hbm, ⟨30, _⟩ => ⟨S8192x1024, .f32⟩
  | .hbm, ⟨31, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S512x1, .f32⟩
  | .local _ .vmem, ⟨20, _⟩ => ⟨S512x1, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1024x1024, .bf16⟩
  | .local _ .vmem, ⟨25, _⟩ => ⟨S1024, .f32⟩
  | .local _ .vmem, ⟨26, _⟩ => ⟨S1024x1024, .bf16⟩
  | .local _ .vmem, ⟨27, _⟩ => ⟨S1024, .f32⟩
  | .local _ .vmem, ⟨28, _⟩ => ⟨S1024, .f32⟩
  | .local _ .vmem, ⟨29, _⟩ => ⟨S1024, .f32⟩
  | .local _ .vmem, ⟨30, _⟩ => ⟨S512x1024, .f32⟩
  | .local _ .vmem, ⟨31, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 4, 8], ![false, false, false]⟩

def k1_cond3 (i : grid1.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_2 : BitVec 32 := 0#32
  let v11 : BitVec 1 := Scalar.cmpi .ne v10 c0_i32_2
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c512_i32 : BitVec 32 := 512#32
  let v1 : BitVec 32 := Scalar.muli v0 c512_i32
  let c1_i32_0 : BitVec 32 := 1#32
  let v2 : BitVec 32 := Scalar.subi v1 c1_i32_0
  let c256_i32 : BitVec 32 := 256#32
  let v3 : BitVec 32 := Scalar.divsi v2 c256_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c512_i32 : BitVec 32 := 512#32
  let v1 : BitVec 32 := Scalar.muli v0 c512_i32
  let c1_i32_0 : BitVec 32 := 1#32
  let v2 : BitVec 32 := Scalar.subi v1 c1_i32_0
  let c256_i32 : BitVec 32 := 256#32
  let v3 : BitVec 32 := Scalar.divsi v2 c256_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  concatenates_S1024x1024_S1024x1024_S1024x1024_S1024x3072_d1 : Shape.Concatenates [S1024x1024, S1024x1024, S1024x1024] S1024x3072 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S8192x1024_S4x2048x1024 : S8192x1024.ShapeCasts S4x2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  iota_S512x256_d0_w32 : S512x256.Iotas .tc 32 [0]
  iota_S512x256_d1_w32 : S512x256.Iotas .tc 32 [1]
  reduces_S512x256_S512 : S512x256.Reduces [1] S512
  shapeCasts_S512_S512x1 : S512.ShapeCasts S512x1
  broadcasts_S512x1_S512x256 : S512x1.Broadcasts S512x256
  broadcasts_S512x1_S512x1024 : S512x1.Broadcasts S512x1024
  shapeCasts_S512x1024_S1x512x1024 : S512x1024.ShapeCasts S1x512x1024
  reduces_S512x1024_S512 : S512x1024.Reduces [1] S512
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x1024_S1024x3072_S512x3072_1_0_0_1_n_n_wf : DotDims.WF S512x1024 S1024x3072 S512x3072 [1] [0] [0] [1] [] []
  dot_S512x1024_S256x1024_S512x256_1_1_0_0_n_n_wf : DotDims.WF S512x1024 S256x1024 S512x256 [1] [1] [0] [0] [] []
  dot_S512x256_S256x1024_S512x1024_1_0_0_1_n_n_wf : DotDims.WF S512x256 S256x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .bf16 = 32 ∨ (Rect.block (s := S8192x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S4x2048x1024.size a
  hwx1_1 : ∀ i : grid1.Coords, EltTy.bits .bf16 = 32 ∨ (Rect.block (s := S4x2048x1024) S1x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S4x2048x1024.size a
  hwx1_2 : ∀ i : grid1.Coords, EltTy.bits .bf16 = 32 ∨ (Rect.block (s := S4x2048x1024) S1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x2048x1024.size a
  hwx1_4 : ∀ i : grid1.Coords, EltTy.bits .f32 = 32 ∨ (Rect.block (s := S4x2048x1024) S1x512x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .bf16 = 32 ∨ (Rect.block (s := S1024x1024) S1024x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024.size a ≤ S1024.size a
  hwx2_5 : ∀ i : grid2.Coords, EltTy.bits .f32 = 32 ∨ (Rect.block (s := S1024) S1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1024.size a ≤ S1024.size a
  hwx2_6 : ∀ i : grid2.Coords, EltTy.bits .f32 = 32 ∨ (Rect.block (s := S1024) S1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x1024.size a ≤ S8192x1024.size a
  hwx2_7 : ∀ i : grid2.Coords, EltTy.bits .f32 = 32 ∨ (Rect.block (s := S8192x1024) S512x1024.size (cc2_transform_7 i) (hinb2_7 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond3 i == 1#1) | ⟨_ + 5, h⟩ => absurd h (Nat.not_lt.2 (Nat.le_add_left _ _))

abbrev win2_0 : Pipeline.Window sig grid2 :=
  Pipeline.Window.ofSpec (Memref.whole main_v17) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S512x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S4x2048x2048 : Shape := ⟨3, ![4, 2048, 2048]⟩
abbrev S_ : Shape := ⟨0, ![]⟩
abbrev S2048x2048 : Shape := ⟨2, ![2048, 2048]⟩
abbrev S1x2048x2048 : Shape := ⟨3, ![1, 2048, 2048]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 121
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x2048, .f32⟩
  | .hbm, ⟨14, _⟩ => ⟨S_, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S_, .i1⟩
  | .hbm, ⟨19, _⟩ => ⟨S2048x2048, .i1⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .i1⟩
  | .hbm, ⟨27, _⟩ => ⟨S2048x2048, .i1⟩
  | .hbm, ⟨28, _⟩ => ⟨S2048x2048, .i1⟩
  | .hbm, ⟨29, _⟩ => ⟨S1x2048x2048, .i1⟩
  | .hbm, ⟨30, _⟩ => ⟨S_, .f32⟩
  | .hbm, ⟨31, _⟩ => ⟨S_, .f32⟩
  | .hbm, ⟨32, _⟩ => ⟨S4x2048x2048, .i1⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S_, .f32⟩
  | .hbm, ⟨38, _⟩ => ⟨S4x2048, .f32⟩
  | .hbm, ⟨39, _⟩ => ⟨S4x2048, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S4x2048x2048, .f32⟩
  | .hbm, ⟨48, _⟩ => ⟨S4x2048x2048, .f32⟩
  | .hbm, ⟨49, _⟩ => ⟨S4x2048x1024, .f32⟩
  | .hbm, ⟨50, _⟩ => ⟨S4x2048x1024, .f32⟩
  | .hbm, ⟨51, _⟩ => ⟨S_, .f32⟩
  | .hbm, ⟨52, _⟩ => ⟨S4x2048, .f32⟩
  | .hbm, ⟨53, _⟩ => ⟨S4x2048x1, .f32⟩
  | .hbm, ⟨54, _⟩ => ⟨S_, .f32⟩
  | .hbm, ⟨55, _⟩ => ⟨S4x2048x1, .f32⟩
  | .hbm, ⟨56, _⟩ => ⟨S4x2048x1, .f32⟩
  | .hbm, ⟨57, _⟩ => ⟨S4x2048x1024, .f32⟩
  | .hbm, ⟨58, _⟩ => ⟨S4x2048x1024, .f32⟩
  | .hbm, ⟨59, _⟩ => ⟨S4x2048x1024, .f32⟩
  | .hbm, ⟨60, _⟩ => ⟨S_, .f32⟩
  | .hbm, ⟨61, _⟩ => ⟨S4x2048, .f32⟩
  | .hbm, ⟨62, _⟩ => ⟨S4x2048x1, .f32⟩
  | .hbm, ⟨63, _⟩ => ⟨S_, .f32⟩
  | .hbm, ⟨64, _⟩ => ⟨S4x2048x1, .f32⟩
  | .hbm, ⟨65, _⟩ => ⟨S4x2048x1, .f32⟩
  | .hbm, ⟨66, _⟩ => ⟨S4x2048x1024, .f32⟩
  | .hbm, ⟨67, _⟩ => ⟨S4x2048x1024, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S4x2048x1, .f32⟩
  | .hbm, ⟨72, _⟩ => ⟨S4x2048x1024, .f32⟩
  | .hbm, ⟨73, _⟩ => ⟨S4x2048x1024, .f32⟩
  | .hbm, ⟨74, _⟩ => ⟨S1x1x1024, .f32⟩
  | .hbm, ⟨75, _⟩ => ⟨S4x2048x1024, .f32⟩
  | .hbm, ⟨76, _⟩ => ⟨S4x2048x1024, .f32⟩
  | .hbm, ⟨77, _⟩ => ⟨S1x1x1024, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S1x1x1024, .f32⟩
  | .hbm, ⟨82, _⟩ => ⟨S4x2048x1024, .f32⟩
  | .hbm, ⟨83, _⟩ => ⟨S4x2048x1024, .f32⟩
  | .hbm, ⟨84, _⟩ => ⟨S_, .f32⟩
  | .hbm, ⟨85, _⟩ => ⟨S4x2048x1024, .f32⟩
  | .hbm, ⟨86, _⟩ => ⟨S4x2048x1024, .f32⟩
  | .hbm, ⟨87, _⟩ => ⟨S4x2048x1024, .f32⟩
  | .hbm, ⟨88, _⟩ => ⟨S1x1x1024, .f32⟩
  | .hbm, ⟨89, _⟩ => ⟨S4x2048x1024, .f32⟩
  | .hbm, ⟨90, _⟩ => ⟨S4x2048x1024, .f32⟩
  | .hbm, ⟨91, _⟩ => ⟨S4x2048x1024, .f32⟩
  | .hbm, ⟨92, _⟩ => ⟨S_, .f32⟩
  | .hbm, ⟨93, _⟩ => ⟨S4x2048, .f32⟩
  | .hbm, ⟨94, _⟩ => ⟨S4x2048x1, .f32⟩
  | .hbm, ⟨95, _⟩ => ⟨S_, .f32⟩
  | .hbm, ⟨96, _⟩ => ⟨S4x2048x1, .f32⟩
  | .hbm, ⟨97, _⟩ => ⟨S4x2048x1, .f32⟩
  | .hbm, ⟨98, _⟩ => ⟨S4x2048x1024, .f32⟩
  | .hbm, ⟨99, _⟩ => ⟨S4x2048x1024, .f32⟩
  | .hbm, ⟨100, _⟩ => ⟨S4x2048x1024, .f32⟩
  | .hbm, ⟨101, _⟩ => ⟨S_, .f32⟩
  | .hbm, ⟨102, _⟩ => ⟨S4x2048, .f32⟩
  | .hbm, ⟨103, _⟩ => ⟨S4x2048x1, .f32⟩
  | .hbm, ⟨104, _⟩ => ⟨S_, .f32⟩
  | .hbm, ⟨105, _⟩ => ⟨S4x2048x1, .f32⟩
  | .hbm, ⟨106, _⟩ => ⟨S4x2048x1, .f32⟩
  | .hbm, ⟨107, _⟩ => ⟨S4x2048x1024, .f32⟩
  | .hbm, ⟨108, _⟩ => ⟨S4x2048x1024, .f32⟩
  | .hbm, ⟨109, _⟩ => ⟨S_, .f32⟩
  | .hbm, ⟨110, _⟩ => ⟨S4x2048x1, .f32⟩
  | .hbm, ⟨111, _⟩ => ⟨S4x2048x1, .f32⟩
  | .hbm, ⟨112, _⟩ => ⟨S4x2048x1, .f32⟩
  | .hbm, ⟨113, _⟩ => ⟨S4x2048x1024, .f32⟩
  | .hbm, ⟨114, _⟩ => ⟨S4x2048x1024, .f32⟩
  | .hbm, ⟨115, _⟩ => ⟨S1x1x1024, .f32⟩
  | .hbm, ⟨116, _⟩ => ⟨S4x2048x1024, .f32⟩
  | .hbm, ⟨117, _⟩ => ⟨S4x2048x1024, .f32⟩
  | .hbm, ⟨118, _⟩ => ⟨S1x1x1024, .f32⟩
  | .hbm, ⟨119, _⟩ => ⟨S4x2048x1024, .f32⟩
  | .hbm, ⟨120, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_cst_2 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_6 : Ref sig .tc := ⟨.hbm, 60, rfl⟩
abbrev main_v31 : Ref sig .tc := ⟨.hbm, 61, rfl⟩
abbrev main_v32 : Ref sig .tc := ⟨.hbm, 62, rfl⟩
abbrev main_cst_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call2_cst : Ref sig .tc := ⟨.hbm, 84, rfl⟩
abbrev main_call2_v0 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_9 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_11 : Ref sig .tc := ⟨.hbm, 101, rfl⟩
abbrev main_v65 : Ref sig .tc := ⟨.hbm, 102, rfl⟩
abbrev main_v66 : Ref sig .tc := ⟨.hbm, 103, rfl⟩
abbrev main_cst_12 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_13 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  reducesTo_S4x2048x1024_S4x2048_d2 : S4x2048x1024.ReducesTo [2] S4x2048
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x1024 : S_.BroadcastsInDim S4x2048x1024 (![] : Fin 0 → Fin S4x2048x1024.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Core.lean ====
/-
  The three kernel regions of the idealized kernel program as PROOF DATA, stated once at any float instance and at a
  parameter "V": what the TensorCore's unscoped buffers hold when the region is entered.

  Region 0 (the packed projection): per grid point a 512-row block of the flattened input is multiplied by the packed
  weight matrix and the three column thirds are stored into the three output blocks.
  Region 1 (causal attention with a running softmax): the grid is (batch, query tile, key tile); three scratch buffers
  (the running row maximum, the running row sum, the running weighted value sum) are carried from one point to the next:
  reset at key tile 0, updated at every key tile that starts before the query tile ends, and read at the last key tile,
  where the output block is stored as the residual plus the quotient of the last two.
  Region 2 (layer norm, two-layer feed-forward, layer norm): per grid point one 512-row block goes through the whole chain.
-/
import proofs.«408005_j88158498718040_3_alg».proof.Proof.Gen.Kernel.Launch
import proofs.«408005_j88158498718040_3_alg».proof.Proof.Gen.Kernel.Skeleton
import proofs.«408005_j88158498718040_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window "w"'s block at point "t", read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the inputs' buffers stay at their blocks; output "2 + j" ends at column third "j" of the
    block's product with the packed weights. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (iblk0 V c 0 t) (iblk0 V c 1 t)
    | ⟨3, _⟩ => k0_pay3 (iblk0 V c 0 t) (iblk0 V c 1 t)
    | ⟨4, _⟩ => k0_pay4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (iblk0 V c 0 t) (iblk0 V c 1 t) := by dsimp only [dat0]
theorem after0_3 (c : Dev nD) (t : Fin cfg0.N) : (dat0 V c).after 3 t = k0_pay3 (iblk0 V c 0 t) (iblk0 V c 1 t) := by dsimp only [dat0]
theorem after0_4 (c : Dev nD) (t : Fin cfg0.N) : (dat0 V c).after 4 t = k0_pay4 (iblk0 V c 0 t) (iblk0 V c 1 t) := by dsimp only [dat0]

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What region 2's body stores into its output block, from the seven input blocks (rows, first weights, first bias,
    second weights, second bias, scale, shift). -/
def out2 (x : Vec F S512x1024 .f32) (w1 : Vec F S1024x1024 .bf16) (b1 : Vec F S1024 .f32) (w2 : Vec F S1024x1024 .bf16)
    (b2 : Vec F S1024 .f32) (g : Vec F S1024 .f32) (be : Vec F S1024 .f32) : Vec F S512x1024 .f32 :=
  k2_pay1 (k2_pay2 x g be) (k2_pay3 x g be w1 b1 w2) b2 g be

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2 (iblk2 V c 0 t) (iblk2 V c 1 t) (iblk2 V c 2 t) (iblk2 V c 3 t) (iblk2 V c 4 t) (iblk2 V c 5 t) (iblk2 V c 6 t) := by dsimp only [dat2]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's three branch conditions as it computes them from the grid coordinates: the key tile is the first; the key
    tile starts before the query tile ends; the key tile is the last. -/
abbrev cond1_0 (i : grid1.Coords) : Prop :=
  (Scalar.cmpi .ne (Scalar.extui (Scalar.cmpi .eq (BitVec.ofNat 32 (i 2).val) 0#32)) 0#32) = 1#1
abbrev cond1_1 (i : grid1.Coords) : Prop :=
  (Scalar.cmpi .ne (Scalar.extui (Scalar.cmpi .slt (Scalar.muli (BitVec.ofNat 32 (i 2).val) 256#32)
    (Scalar.muli (Scalar.addi (BitVec.ofNat 32 (i 1).val) 1#32) 512#32))) 0#32) = 1#1
abbrev cond1_2 (i : grid1.Coords) : Prop := k1_cond3 i = 1#1

/-- The query-tile and key-tile coordinates as the words the body computes with. -/
abbrev qw (i : grid1.Coords) : BitVec 32 := BitVec.ofNat 32 (i 1).val
abbrev kw (i : grid1.Coords) : BitVec 32 := BitVec.ofNat 32 (i 2).val

/-- The carried scratch: running maximum, running sum, running weighted sum. -/
abbrev Sc (F : FTy → Type) [FloatOps F] : Type := Vec F S512x1 .f32 × Vec F S512x1 .f32 × Vec F S512x1024 .f32

/-- What the reset stores. -/
def scReset : Sc F := (k1_pay1, k1_pay2, k1_pay3)

/-- One grid point's effect on the carried scratch, from the query block, the key block and the value block. -/
def scStep (i : grid1.Coords) (q : Vec F S1x512x1024 .bf16) (k : Vec F S1x256x1024 .bf16) (v : Vec F S1x256x1024 .bf16)
    (s : Sc F) : Sc F :=
  let s1 : Sc F := if cond1_0 i then scReset else s
  if cond1_1 i then
    (k1_pay5 (k1_pay9 (qw i) (kw i) q k s1.1),
     k1_pay12 (qw i) (kw i) q k s1.1 s1.2.1,
     k1_pay4 (k1_pay7 v) (k1_pay10 (qw i) (kw i) q k s1.1) (k1_pay11 (qw i) (kw i) q k s1.1) s1.2.2)
  else s1

/-- The carried scratch after the body at position "n", by recursion on the position. -/
def scAt (c : Dev nD) : (n : ℕ) → n < cfg1.N → Sc F
  | 0, hn => scStep (grid1.coords ⟨0, hn⟩) (iblk1 V c 0 ⟨0, hn⟩) (iblk1 V c 1 ⟨0, hn⟩) (iblk1 V c 2 ⟨0, hn⟩) scReset
  | n + 1, hn => scStep (grid1.coords ⟨n + 1, hn⟩) (iblk1 V c 0 ⟨n + 1, hn⟩) (iblk1 V c 1 ⟨n + 1, hn⟩) (iblk1 V c 2 ⟨n + 1, hn⟩)
      (scAt c n (Nat.lt_of_succ_lt hn))

theorem scAt_zero (c : Dev nD) (hn : 0 < cfg1.N) :
    scAt V c 0 hn = scStep (grid1.coords ⟨0, hn⟩) (iblk1 V c 0 ⟨0, hn⟩) (iblk1 V c 1 ⟨0, hn⟩) (iblk1 V c 2 ⟨0, hn⟩) scReset := rfl
theorem scAt_succ (c : Dev nD) (n : ℕ) (hn : n + 1 < cfg1.N) :
    scAt V c (n + 1) hn = scStep (grid1.coords ⟨n + 1, hn⟩) (iblk1 V c 0 ⟨n + 1, hn⟩) (iblk1 V c 1 ⟨n + 1, hn⟩) (iblk1 V c 2 ⟨n + 1, hn⟩)
      (scAt V c n (Nat.lt_of_succ_lt hn)) := rfl

/-- What the last branch stores into the output block at point "t": the residual block plus the quotient of the running
    weighted sum by the running sum, both as this point leaves them. (Consulted only where the block is written back.) -/
def out1 (c : Dev nD) (t : Fin cfg1.N) : Vec F S1x512x1024 .f32 :=
  k1_pay6 (iblk1 V c 3 t) (scAt V c t.val t.isLt).2.2 (scAt V c t.val t.isLt).2.1

/-- The scratch operands as memrefs. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2

/-- The three scratch buffers, each at some contents. -/
def scAny (c : Dev nD) : sProp 𝕄 :=
  iprop((∃ d, owns (c : Thread nD τ) scM1_0 fullShare d) ∗ (∃ d, owns (c : Thread nD τ) scM1_1 fullShare d)
    ∗ (∃ d, owns (c : Thread nD τ) scM1_2 fullShare d))

/-- What region 1's class invariant holds besides the three scratch buffers (the other scoped buffers that are no
    staging buffer of the region, and the generator register): whatever, joined with the three at some contents, makes
    the class invariant again. -/
def restS1 (c : Dev nD) : sProp 𝕄 := iprop(scAny (F := F) c -∗ Pipeline.ΦA spec1 c)

/-- Region 1's invariant before position "n": before the first point the class invariant (every scoped buffer that is
    no staging buffer at anything); afterwards the three scratch buffers at what the point before left, and the rest. -/
def PhiS1 (c : Dev nD) : (n : ℕ) → n ≤ cfg1.N → sProp 𝕄
  | 0, _ => Pipeline.ΦA spec1 c
  | n + 1, hn => iprop(owns (c : Thread nD τ) scM1_0 fullShare ((scAt V c n hn).1)
      ∗ owns (c : Thread nD τ) scM1_1 fullShare ((scAt V c n hn).2.1)
      ∗ owns (c : Thread nD τ) scM1_2 fullShare ((scAt V c n hn).2.2)
      ∗ restS1 (F := F) c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((scAt V c n hn).1)
      ∗ owns (c : Thread nD τ) scM1_1 fullShare ((scAt V c n hn).2.1)
      ∗ owns (c : Thread nD τ) scM1_2 fullShare ((scAt V c n hn).2.2)
      ∗ restS1 (F := F) c) := rfl

theorem PhiS1_pos (c : Dev nD) (n : ℕ) (h : n ≤ cfg1.N) (hz : n ≠ 0) :
    PhiS1 V c n h = iprop(owns (c : Thread nD τ) scM1_0 fullShare ((scAt V c (n - 1) (by omega)).1)
      ∗ owns (c : Thread nD τ) scM1_1 fullShare ((scAt V c (n - 1) (by omega)).2.1)
      ∗ owns (c : Thread nD τ) scM1_2 fullShare ((scAt V c (n - 1) (by omega)).2.2)
      ∗ restS1 (F := F) c) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

end Cert.Kernel.Hand

end
-- ==== Proof.K.Fold.lean ====
/-
  The contents of the TensorCore's unscoped buffers at each boundary between the items of the entry function — host
  stretch, region 0, host stretch, region 1, host stretch, region 2, host stretch — as a fold from the launch memory:
  a host stretch applies its operations, a region leaves its arrays at what its write-backs give and every other buffer
  as it found it.
-/
import proofs.«408005_j88158498718040_3_alg».proof.Proof.K.Core

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core "c"'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the contents at the return. -/
abbrev W7 : Dev nD → Valuation τ sig (Elt F) := fun c => StableHlo.after hostOps3 (W6 m ρ c)

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c

end Cert.Kernel.Hand

end
-- ==== Proof.K.R0.lean ====
/-
  Region 0's body, run at any grid point: the two input blocks are read, the three output blocks stored.
-/
import proofs.«408005_j88158498718040_3_alg».proof.Proof.K.Core
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks stay in their staging buffers -/

/-- The row block's staging buffer holds the block of the point, at every point (it is fetched at each). -/
theorem rows_before0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The packed weights' staging buffer holds the weights at every point: they are fetched at the first point only, and
    their block index never moves afterwards. -/
theorem weights_before0 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's accesses: every load and every store is of a whole buffer -/

/-- The offsets of every access of the body are zero on both axes. -/
theorem offsets_zero0 : (![0, 0] : Fin 2 → Nat) = fun _ => 0 := funext fun a => by fin_cases a <;> rfl

/-- The whole 512x1024 buffer as the rectangle the body loads and stores through. -/
abbrev whole512x1024 : Rect S512x1024 := Rect.unit (s := S512x1024) ![0, 0] S512x1024.size inb_S512x1024_S512x1024_0_0

/-- The whole 1024x3072 buffer as the rectangle the body loads the weights through. -/
abbrev whole1024x3072 : Rect S1024x3072 := Rect.unit (s := S1024x3072) ![0, 0] S1024x3072.size inb_S1024x3072_S1024x3072_0_0

/-- The load of the row block reads the buffer's contents. -/
theorem load_rows0 {κ : Kind} {sp : Space} (v : View sig κ sp S512x1024 .f32) (f : v.ty.Contents (Elt F)) :
    v.readAt (Elt F) whole512x1024.toLoadRect f = v.read (Elt F) f :=
  (View.readAt_eq_ld v f whole512x1024).trans
    (View.ld_unit_zero (S := S512x1024) offsets_zero0 inb_S512x1024_S512x1024_0_0 _)

/-- The load of the packed weights reads the buffer's contents. -/
theorem load_weights0 {κ : Kind} {sp : Space} (v : View sig κ sp S1024x3072 .bf16) (f : v.ty.Contents (Elt F)) :
    v.readAt (Elt F) whole1024x3072.toLoadRect f = v.read (Elt F) f :=
  (View.readAt_eq_ld v f whole1024x3072).trans
    (View.ld_unit_zero (S := S1024x3072) offsets_zero0 inb_S1024x3072_S1024x3072_0_0 _)

/-- One store of a whole output buffer covers it. -/
theorem cover_out0 (p : Vec F S512x1024 .bf16) (y : S512x1024.Idx) :
    ∃ pc ∈ ([⟨whole512x1024, p⟩] : List (View.Piece (Elt F) S512x1024 .bf16)), y ∈ pc.1.set :=
  ⟨_, List.mem_singleton_self _, View.mem_set_unit_zero offsets_zero0 inb_S512x1024_S512x1024_0_0 y⟩

/-- So what that one store leaves, over any prior contents, is its payload. -/
theorem read_store_out0 {κ : Kind} {sp : Space} (v : View sig κ sp S512x1024 .bf16) (f : v.ty.Contents (Elt F))
    (p : Vec F S512x1024 .bf16) :
    v.read (Elt F) (v.writes (Elt F) f [⟨whole512x1024, p⟩]) = p := by
  rw [View.read_writes_eq_canon _ _ _ (cover_out0 p)]
  exact View.canon_unit_zero (S := S512x1024) offsets_zero0 inb_S512x1024_S512x1024_0_0 p

/-! ## The body's triple -/

set_option maxHeartbeats 1000000 in
/-- The body on whole staging memrefs, the row block's at "x", the weights' at "w" and the three outputs' at
    anything, runs to the continuation holding the inputs' as they were and output "j"'s at the rounded column third
    "j" of the product of "x" (rounded) with "w". -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S512x1024 .bf16) (harg5 : arg5.IsWhole)
    (x : Vec F S512x1024 .f32) (w : Vec F S1024x3072 .bf16) (K : PUnit → sProp 𝕄) :
    iprop(owns (c : Thread nD τ) arg1 fullShare x ∗ owns (c : Thread nD τ) arg2 fullShare w
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x ∗ owns (c : Thread nD τ) arg2 fullShare w
            ∗ owns (c : Thread nD τ) arg3 fullShare (k0_pay2 x w) ∗ owns (c : Thread nD τ) arg4 fullShare (k0_pay3 x w)
            ∗ owns (c : Thread nD τ) arg5 fullShare (k0_pay4 x w)) -∗ K ⟨⟩))
      ⊢ wp frame (wpE (defs₀ (F := F)) Variants.none c none) E
          (cc0__qkv_kernel i arg1 harg1 arg2 harg2 arg3 harg3 arg4 harg4 arg5 harg5) K := by
  simp only [cc0__qkv_kernel_eq_skeleton]; unfold cc0__qkv_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_store_out0, load_rows0, load_weights0]
  isplitl [H4]
  · iexists _; isplitr
    swap; · iexact H4
    ipureintro
    rw [read_store_out0, load_rows0, load_weights0]
  iexists _; isplitr
  swap; · iexact H5
  ipureintro
  rw [read_store_out0, load_rows0, load_weights0]

/-! ## The body obligation, at a generic point -/

/-- What the body is called with at point "t": the invariant, what is owed, and the five current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the two inputs' buffers hold their blocks, the three outputs' hold anything, so the body's
    triple applies; the invariant and what is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [rows_before0, weights_before0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Facts.lean ====
/-
  Region 1's schedule facts: where each of the body's three branch conditions holds over the grid of 4 x 4 x 8 points
  (point t = 32·batch + 8·query tile + key tile), where the output window is idle and where it is written back; and the
  three scratch buffers taken out of the class invariant.
-/
import proofs.«408005_j88158498718040_3_alg».proof.Proof.K.Core

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first branch (reset) is taken at key tile 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch (update) is taken while the key tile starts before the query tile ends: key tile < 2·(query tile + 1). -/
theorem hcond1_1 : ∀ t : Fin cfg1.N, cond1_1 (grid1.coords t) ↔ t.val % 8 < 2 * (t.val / 8 % 4 + 1) :=
  (by decide +kernel : ∀ t : Fin grid1.N, cond1_1 (grid1.coords t) ↔ t.val % 8 < 2 * (t.val / 8 % 4 + 1))

/-- The third branch (finalize) is taken at key tile 7. -/
theorem hcond1_2 : ∀ t : Fin cfg1.N, cond1_2 (grid1.coords t) ↔ t.val % 8 = 7 :=
  (by decide +kernel : ∀ t : Fin grid1.N, cond1_2 (grid1.coords t) ↔ t.val % 8 = 7)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-- The output window is idle exactly where the third branch is not taken, and there it is not written back. -/
theorem idleAt1_4 : ∀ t : Fin cfg1.N, ¬cond1_2 (grid1.coords t) → cfg1.idle 4 (grid1.coords t) = true := by decide +kernel
theorem liveAt1_4 : ∀ t : Fin cfg1.N, cond1_2 (grid1.coords t) → cfg1.idle 4 (grid1.coords t) = false := by decide +kernel
theorem noFlush1_4 : ∀ t : Fin cfg1.N, ¬cond1_2 (grid1.coords t) → (cfg1.win 4).flush t = false := by decide +kernel

/-- Of thirteen separating conjuncts beside a fourteenth, the tenth to twelfth come out, and what is left takes them
    back: the shape of the class invariant's scoped buffers (nine before the three scratch buffers, the others after,
    gathered as one) beside the generator register. -/
theorem take_three (a0 a1 a2 a3 a4 a5 a6 a7 a8 s0 s1 s2 r g : sProp 𝕄) :
    iprop((a0 ∗ a1 ∗ a2 ∗ a3 ∗ a4 ∗ a5 ∗ a6 ∗ a7 ∗ a8 ∗ s0 ∗ s1 ∗ s2 ∗ r) ∗ g)
      ⊢ iprop((s0 ∗ s1 ∗ s2) ∗ ((s0 ∗ s1 ∗ s2) -∗ ((a0 ∗ a1 ∗ a2 ∗ a3 ∗ a4 ∗ a5 ∗ a6 ∗ a7 ∗ a8 ∗ s0 ∗ s1 ∗ s2 ∗ r) ∗ g))) := by
  iintro ⟨⟨H0, H1, H2, H3, H4, H5, H6, H7, H8, S0, S1, S2, R⟩, G⟩
  isplitl [S0 S1 S2]
  · isplitl [S0]; · iexact S0
    isplitl [S1]; · iexact S1
    iexact S2
  · iintro ⟨S0, S1, S2⟩
    isplitr [G]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [S0]; · iexact S0
      isplitl [S1]; · iexact S1
      isplitl [S2]; · iexact S2
      iexact R
    · iexact G

/-- The class invariant hands out the three scratch buffers at some contents, and the rest: its scoped buffers are
    enumerated, a whole memref owned at some contents is its buffer's points-to, and the three are the tenth to twelfth. -/
theorem PhiA1_split (c : Dev nD) : (Pipeline.ΦA spec1 c : sProp 𝕄) ⊢ iprop(scAny (F := F) c ∗ restS1 (F := F) c) := by
  unfold restS1 scAny Pipeline.ΦA
  rw [scopedRest1_eq]
  simp only [owns_whole]
  exact take_three _ _ _ _ _ _ _ _ _ _ _ _ _ _

/-- The three scratch buffers at some contents and the rest make the class invariant. -/
theorem PhiA1_join (c : Dev nD) : iprop(scAny (F := F) c ∗ restS1 (F := F) c) ⊢ (Pipeline.ΦA spec1 c : sProp 𝕄) := by
  unfold restS1
  iintro ⟨Hs, Hw⟩
  iapply Hw
  iexact Hs

end Cert.Kernel.Hand

end
-- ==== Proof.K.R1.lean ====
/-
  Region 1's body, run at any grid point, by the case of its three branch conditions; the carried scratch enters and leaves through the region's invariant.
-/
import proofs.«408005_j88158498718040_3_alg».proof.Proof.K.R1Facts
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer stores and loads -/

/-- The zero offsets of a rank-two and of a rank-three buffer, as the body spells them. -/
theorem off2_zero : (![0, 0] : Fin 2 → Nat) = fun _ => 0 := funext fun a => by fin_cases a <;> rfl
theorem off3_zero : (![0, 0, 0] : Fin 3 → Nat) = fun _ => 0 := funext fun a => by fin_cases a <;> rfl

/-- A buffer whose last store covers it whole reads as that store's payload, whatever was stored before. -/
theorem read_last_whole {sg : RefSig} {κ : Kind} {sp : Space} {S : Shape} {e : EltTy} (v : View sg κ sp S e)
    (f : v.ty.Contents (Elt F)) {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon _ _ _ (fun y => ⟨_, List.mem_cons_self, View.mem_set_unit_zero hz inb y⟩)).trans
    (View.canon_cons_unit_zero hz inb w L)

/-! ## One step of the carried scratch, by the case of the first two conditions -/

/-- The carried scratch after a point that resets and updates: the update applied to what the reset stores. -/
theorem scStep_reset_update (i : grid1.Coords) (q : Vec F S1x512x1024 .bf16) (k v : Vec F S1x256x1024 .bf16) (s : Sc F)
    (h0 : cond1_0 i) (h1 : cond1_1 i) :
    scStep i q k v s = (k1_pay5 (k1_pay9 (qw i) (kw i) q k k1_pay1), k1_pay12 (qw i) (kw i) q k k1_pay1 k1_pay2,
      k1_pay4 (k1_pay7 v) (k1_pay10 (qw i) (kw i) q k k1_pay1) (k1_pay11 (qw i) (kw i) q k k1_pay1) k1_pay3) := by
  unfold scStep scReset; simp only [if_pos h0, if_pos h1]

/-- after a point that only updates: the update applied to what the point before left. -/
theorem scStep_update (i : grid1.Coords) (q : Vec F S1x512x1024 .bf16) (k v : Vec F S1x256x1024 .bf16) (s : Sc F)
    (h0 : ¬cond1_0 i) (h1 : cond1_1 i) :
    scStep i q k v s = (k1_pay5 (k1_pay9 (qw i) (kw i) q k s.1), k1_pay12 (qw i) (kw i) q k s.1 s.2.1,
      k1_pay4 (k1_pay7 v) (k1_pay10 (qw i) (kw i) q k s.1) (k1_pay11 (qw i) (kw i) q k s.1) s.2.2) := by
  unfold scStep; simp only [if_neg h0, if_pos h1]

/-- after a point that neither resets nor updates: what the point before left. -/
theorem scStep_skip (i : grid1.Coords) (q : Vec F S1x512x1024 .bf16) (k v : Vec F S1x256x1024 .bf16) (s : Sc F)
    (h0 : ¬cond1_0 i) (h1 : ¬cond1_1 i) : scStep i q k v s = s := by
  unfold scStep; simp only [if_neg h0, if_neg h1]

/-! ## The body's triple in each of the five cases the grid meets

Each is stated on any whole memrefs: the four inputs at given contents, and returned so; the three scratch buffers
returned at one step of the carried scratch; the output buffer either kept as found or stored the residual block plus
the quotient. -/

set_option maxHeartbeats 4000000 in
/-- The body at a point of key tile 0: it stores the reset values into the three scratch buffers (whatever they held), updates them from the query, key and value blocks, and leaves the output buffer as it found it. -/
theorem run_reset_update (c : Dev nD) (E : Set ℕ) (i : grid1.Coords)
    (arg3 : Memref sig .tc .vmem S1x512x1024 .bf16) (harg3 : arg3.IsWhole) (arg4 : Memref sig .tc .vmem S1x256x1024 .bf16) (harg4 : arg4.IsWhole)
    (arg5 : Memref sig .tc .vmem S1x256x1024 .bf16) (harg5 : arg5.IsWhole) (arg6 : Memref sig .tc .vmem S1x512x1024 .f32) (harg6 : arg6.IsWhole)
    (arg7 : Memref sig .tc .vmem S1x512x1024 .f32) (harg7 : arg7.IsWhole) (arg8 : Memref sig .tc .vmem S512x1 .f32) (harg8 : arg8.IsWhole)
    (arg9 : Memref sig .tc .vmem S512x1 .f32) (harg9 : arg9.IsWhole) (arg10 : Memref sig .tc .vmem S512x1024 .f32) (harg10 : arg10.IsWhole)
    (hc0 : cond1_0 i) (hc1 : cond1_1 i) (hc2 : ¬cond1_2 i)
    (x0 : Vec F S1x512x1024 .bf16) (x1 x2 : Vec F S1x256x1024 .bf16) (x3 d4 : Vec F S1x512x1024 .f32) (s : Sc F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare d4
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare d4
            ∗ owns (c : Thread nD τ) arg8 fullShare (scStep i x0 x1 x2 s).1
            ∗ owns (c : Thread nD τ) arg9 fullShare (scStep i x0 x1 x2 s).2.1
            ∗ owns (c : Thread nD τ) arg10 fullShare (scStep i x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9 arg10 harg10) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, ⟨%d10, %f10, -, H10⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr
    swap; · iexact H8
    ipureintro
    refine (read_last_whole _ _ off2_zero _ _ _).trans ?_
    sl_unfold_words
    simp only [View.readAt_eq_ld, harg3.read_unread, harg4.read_unread, harg5.read_unread, harg6.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_reset_update i x0 x1 x2 s hc0 hc1]
  isplitl [H9]
  · iexists _; isplitr
    swap; · iexact H9
    ipureintro
    refine (read_last_whole _ _ off2_zero _ _ _).trans ?_
    sl_unfold_words
    simp only [View.readAt_eq_ld, harg3.read_unread, harg4.read_unread, harg5.read_unread, harg6.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_reset_update i x0 x1 x2 s hc0 hc1]
  · iexists _; isplitr
    swap; · iexact H10
    ipureintro
    refine (read_last_whole _ _ off2_zero _ _ _).trans ?_
    sl_unfold_words
    simp only [View.readAt_eq_ld, harg3.read_unread, harg4.read_unread, harg5.read_unread, harg6.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_reset_update i x0 x1 x2 s hc0 hc1]

set_option maxHeartbeats 4000000 in
/-- The body at a later key tile that starts before the query tile ends, not the last: it updates the three scratch buffers from what the point before left and leaves the output buffer as it found it. -/
theorem run_update (c : Dev nD) (E : Set ℕ) (i : grid1.Coords)
    (arg3 : Memref sig .tc .vmem S1x512x1024 .bf16) (harg3 : arg3.IsWhole) (arg4 : Memref sig .tc .vmem S1x256x1024 .bf16) (harg4 : arg4.IsWhole)
    (arg5 : Memref sig .tc .vmem S1x256x1024 .bf16) (harg5 : arg5.IsWhole) (arg6 : Memref sig .tc .vmem S1x512x1024 .f32) (harg6 : arg6.IsWhole)
    (arg7 : Memref sig .tc .vmem S1x512x1024 .f32) (harg7 : arg7.IsWhole) (arg8 : Memref sig .tc .vmem S512x1 .f32) (harg8 : arg8.IsWhole)
    (arg9 : Memref sig .tc .vmem S512x1 .f32) (harg9 : arg9.IsWhole) (arg10 : Memref sig .tc .vmem S512x1024 .f32) (harg10 : arg10.IsWhole)
    (hc0 : ¬cond1_0 i) (hc1 : cond1_1 i) (hc2 : ¬cond1_2 i)
    (x0 : Vec F S1x512x1024 .bf16) (x1 x2 : Vec F S1x256x1024 .bf16) (x3 d4 : Vec F S1x512x1024 .f32) (s : Sc F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare d4
        ∗ owns (c : Thread nD τ) arg8 fullShare s.1 ∗ owns (c : Thread nD τ) arg9 fullShare s.2.1 ∗ owns (c : Thread nD τ) arg10 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare d4
            ∗ owns (c : Thread nD τ) arg8 fullShare (scStep i x0 x1 x2 s).1
            ∗ owns (c : Thread nD τ) arg9 fullShare (scStep i x0 x1 x2 s).2.1
            ∗ owns (c : Thread nD τ) arg10 fullShare (scStep i x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9 arg10 harg10) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hf8; obtain rfl := harg9.eq_unread hf9; obtain rfl := harg10.eq_unread hf10
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr
    swap; · iexact H8
    ipureintro
    refine (read_last_whole _ _ off2_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]
  isplitl [H9]
  · iexists _; isplitr
    swap; · iexact H9
    ipureintro
    refine (read_last_whole _ _ off2_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]
  · iexists _; isplitr
    swap; · iexact H10
    ipureintro
    refine (read_last_whole _ _ off2_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]

set_option maxHeartbeats 4000000 in
/-- The body at a key tile past the query tile's end, not the last: every buffer is left as found. -/
theorem run_skip (c : Dev nD) (E : Set ℕ) (i : grid1.Coords)
    (arg3 : Memref sig .tc .vmem S1x512x1024 .bf16) (harg3 : arg3.IsWhole) (arg4 : Memref sig .tc .vmem S1x256x1024 .bf16) (harg4 : arg4.IsWhole)
    (arg5 : Memref sig .tc .vmem S1x256x1024 .bf16) (harg5 : arg5.IsWhole) (arg6 : Memref sig .tc .vmem S1x512x1024 .f32) (harg6 : arg6.IsWhole)
    (arg7 : Memref sig .tc .vmem S1x512x1024 .f32) (harg7 : arg7.IsWhole) (arg8 : Memref sig .tc .vmem S512x1 .f32) (harg8 : arg8.IsWhole)
    (arg9 : Memref sig .tc .vmem S512x1 .f32) (harg9 : arg9.IsWhole) (arg10 : Memref sig .tc .vmem S512x1024 .f32) (harg10 : arg10.IsWhole)
    (hc0 : ¬cond1_0 i) (hc1 : ¬cond1_1 i) (hc2 : ¬cond1_2 i)
    (x0 : Vec F S1x512x1024 .bf16) (x1 x2 : Vec F S1x256x1024 .bf16) (x3 d4 : Vec F S1x512x1024 .f32) (s : Sc F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare d4
        ∗ owns (c : Thread nD τ) arg8 fullShare s.1 ∗ owns (c : Thread nD τ) arg9 fullShare s.2.1 ∗ owns (c : Thread nD τ) arg10 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare d4
            ∗ owns (c : Thread nD τ) arg8 fullShare (scStep i x0 x1 x2 s).1
            ∗ owns (c : Thread nD τ) arg9 fullShare (scStep i x0 x1 x2 s).2.1
            ∗ owns (c : Thread nD τ) arg10 fullShare (scStep i x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9 arg10 harg10) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hf8; obtain rfl := harg9.eq_unread hf9; obtain rfl := harg10.eq_unread hf10
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr
    swap; · iexact H8
    ipureintro
    rw [scStep_skip i x0 x1 x2 s hc0 hc1]; exact harg8.read_unread _
  isplitl [H9]
  · iexists _; isplitr
    swap; · iexact H9
    ipureintro
    rw [scStep_skip i x0 x1 x2 s hc0 hc1]; exact harg9.read_unread _
  · iexists _; isplitr
    swap; · iexact H10
    ipureintro
    rw [scStep_skip i x0 x1 x2 s hc0 hc1]; exact harg10.read_unread _

set_option maxHeartbeats 4000000 in
/-- The body at the last key tile when that tile still starts before the query tile ends: it updates the three scratch buffers and stores into the output buffer the residual block plus the quotient of the updated weighted sum by the updated sum. -/
theorem run_update_finalize (c : Dev nD) (E : Set ℕ) (i : grid1.Coords)
    (arg3 : Memref sig .tc .vmem S1x512x1024 .bf16) (harg3 : arg3.IsWhole) (arg4 : Memref sig .tc .vmem S1x256x1024 .bf16) (harg4 : arg4.IsWhole)
    (arg5 : Memref sig .tc .vmem S1x256x1024 .bf16) (harg5 : arg5.IsWhole) (arg6 : Memref sig .tc .vmem S1x512x1024 .f32) (harg6 : arg6.IsWhole)
    (arg7 : Memref sig .tc .vmem S1x512x1024 .f32) (harg7 : arg7.IsWhole) (arg8 : Memref sig .tc .vmem S512x1 .f32) (harg8 : arg8.IsWhole)
    (arg9 : Memref sig .tc .vmem S512x1 .f32) (harg9 : arg9.IsWhole) (arg10 : Memref sig .tc .vmem S512x1024 .f32) (harg10 : arg10.IsWhole)
    (hc0 : ¬cond1_0 i) (hc1 : cond1_1 i) (hc2 : cond1_2 i)
    (x0 : Vec F S1x512x1024 .bf16) (x1 x2 : Vec F S1x256x1024 .bf16) (x3 : Vec F S1x512x1024 .f32) (s : Sc F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k1_pay6 x3 (scStep i x0 x1 x2 s).2.2 (scStep i x0 x1 x2 s).2.1)
            ∗ owns (c : Thread nD τ) arg8 fullShare (scStep i x0 x1 x2 s).1
            ∗ owns (c : Thread nD τ) arg9 fullShare (scStep i x0 x1 x2 s).2.1
            ∗ owns (c : Thread nD τ) arg10 fullShare (scStep i x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9 arg10 harg10) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%d7, %f4, -, H4⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3
  obtain rfl := harg8.eq_unread hf8; obtain rfl := harg9.eq_unread hf9; obtain rfl := harg10.eq_unread hf10
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    refine (read_last_whole _ _ off3_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]
  isplitl [H8]
  · iexists _; isplitr
    swap; · iexact H8
    ipureintro
    refine (read_last_whole _ _ off2_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]
  isplitl [H9]
  · iexists _; isplitr
    swap; · iexact H9
    ipureintro
    refine (read_last_whole _ _ off2_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]
  · iexists _; isplitr
    swap; · iexact H10
    ipureintro
    refine (read_last_whole _ _ off2_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]

set_option maxHeartbeats 4000000 in
/-- The body at the last key tile when that tile is past the query tile's end: the scratch buffers stay, and the output buffer is stored the residual block plus the quotient of the weighted sum by the sum. -/
theorem run_finalize (c : Dev nD) (E : Set ℕ) (i : grid1.Coords)
    (arg3 : Memref sig .tc .vmem S1x512x1024 .bf16) (harg3 : arg3.IsWhole) (arg4 : Memref sig .tc .vmem S1x256x1024 .bf16) (harg4 : arg4.IsWhole)
    (arg5 : Memref sig .tc .vmem S1x256x1024 .bf16) (harg5 : arg5.IsWhole) (arg6 : Memref sig .tc .vmem S1x512x1024 .f32) (harg6 : arg6.IsWhole)
    (arg7 : Memref sig .tc .vmem S1x512x1024 .f32) (harg7 : arg7.IsWhole) (arg8 : Memref sig .tc .vmem S512x1 .f32) (harg8 : arg8.IsWhole)
    (arg9 : Memref sig .tc .vmem S512x1 .f32) (harg9 : arg9.IsWhole) (arg10 : Memref sig .tc .vmem S512x1024 .f32) (harg10 : arg10.IsWhole)
    (hc0 : ¬cond1_0 i) (hc1 : ¬cond1_1 i) (hc2 : cond1_2 i)
    (x0 : Vec F S1x512x1024 .bf16) (x1 x2 : Vec F S1x256x1024 .bf16) (x3 : Vec F S1x512x1024 .f32) (s : Sc F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k1_pay6 x3 (scStep i x0 x1 x2 s).2.2 (scStep i x0 x1 x2 s).2.1)
            ∗ owns (c : Thread nD τ) arg8 fullShare (scStep i x0 x1 x2 s).1
            ∗ owns (c : Thread nD τ) arg9 fullShare (scStep i x0 x1 x2 s).2.1
            ∗ owns (c : Thread nD τ) arg10 fullShare (scStep i x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9 arg10 harg10) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%d7, %f4, -, H4⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3
  obtain rfl := harg8.eq_unread hf8; obtain rfl := harg9.eq_unread hf9; obtain rfl := harg10.eq_unread hf10
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    refine (read_last_whole _ _ off3_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_skip i x0 x1 x2 s hc0 hc1]
  isplitl [H8]
  · iexists _; isplitr
    swap; · iexact H8
    ipureintro
    rw [scStep_skip i x0 x1 x2 s hc0 hc1]; exact harg8.read_unread _
  isplitl [H9]
  · iexists _; isplitr
    swap; · iexact H9
    ipureintro
    rw [scStep_skip i x0 x1 x2 s hc0 hc1]; exact harg9.read_unread _
  · iexists _; isplitr
    swap; · iexact H10
    ipureintro
    rw [scStep_skip i x0 x1 x2 s hc0 hc1]; exact harg10.read_unread _

/-! ## The body at a grid point -/

/-- Each window's staging memref in use at point "t", spelled as the pipeline passes it to the body, and its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)

/-- The carried scratch after the first point: one step from the reset values. -/
theorem scAt_first (c : Dev nD) (t : Fin cfg1.N) (hz : t.val = 0) :
    scAt V c t.val t.isLt = scStep (grid1.coords t) (iblk1 V c 0 t) (iblk1 V c 1 t) (iblk1 V c 2 t) scReset := by
  obtain ⟨n, hn⟩ := t
  cases n with
  | zero => rfl
  | succ n => exact absurd hz (Nat.succ_ne_zero n)

/-- The carried scratch after a later point: one step from what the point before left. -/
theorem scAt_later (c : Dev nD) (t : Fin cfg1.N) (hz : t.val ≠ 0) :
    scAt V c t.val t.isLt = scStep (grid1.coords t) (iblk1 V c 0 t) (iblk1 V c 1 t) (iblk1 V c 2 t)
      (scAt V c (t.val - 1) (Nat.lt_of_le_of_lt (Nat.sub_le _ _) t.isLt)) := by
  obtain ⟨n, hn⟩ := t
  cases n with
  | zero => exact absurd rfl hz
  | succ n => rfl

/-- At every point the carried scratch is one step from something. -/
theorem scAt_step (c : Dev nD) (t : Fin cfg1.N) :
    ∃ s, scAt V c t.val t.isLt = scStep (grid1.coords t) (iblk1 V c 0 t) (iblk1 V c 1 t) (iblk1 V c 2 t) s := by
  by_cases hz : t.val = 0
  · exact ⟨_, scAt_first V c t hz⟩
  · exact ⟨_, scAt_later V c t hz⟩

/-- Before any point the invariant holds the three scratch buffers at some contents, and the rest. -/
theorem PhiS1_any (c : Dev nD) (n : ℕ) (h : n ≤ cfg1.N) :
    PhiS1 V c n h ⊢ iprop((∃ d, owns (c : Thread nD τ) scM1_0 fullShare d) ∗ (∃ d, owns (c : Thread nD τ) scM1_1 fullShare d)
      ∗ (∃ d, owns (c : Thread nD τ) scM1_2 fullShare d) ∗ restS1 (F := F) c) := by
  cases n with
  | zero =>
    rw [PhiS1_zero V c 0 h rfl]
    refine BIBase.Entails.trans (PhiA1_split c) ?_
    unfold scAny
    iintro ⟨⟨H0, H1, H2⟩, Hr⟩
    isplitl [H0]; · iexact H0
    isplitl [H1]; · iexact H1
    isplitl [H2]; · iexact H2
    iexact Hr
  | succ n =>
    rw [PhiS1_succ]
    iintro ⟨H0, H1, H2, Hr⟩
    isplitl [H0]; · iexists _; iexact H0
    isplitl [H1]; · iexists _; iexact H1
    isplitl [H2]; · iexists _; iexact H2
    iexact Hr

/-- Each input window's staging buffer in use holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body is called with at point "t": the invariant, the core's debt, and the five staging buffers in use. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The four input buffers hold their blocks; the closed forms of the three conditions say which
    of the five cases the point is in. At key tile 0 the scratch buffers are taken at whatever they hold (the class
    invariant's at the first point, what the point before left otherwise) and the reset overwrites them; at a later key
    tile they are taken at what the point before left. The output buffer is stored at key tile 7 only, and elsewhere is
    handed back as found. The scratch buffers return at this point's step of the carried scratch. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [PhiS1_castSucc V c t]
  have hN : t.val < 128 := lt_of_lt_of_eq t.isLt (show cfg1.N = 128 from N_1)
  by_cases h0 : t.val % 8 = 0
  · have hc0 : cond1_0 (grid1.coords t) := (hcond1_0 t).mpr h0
    have hc1 : cond1_1 (grid1.coords t) := (hcond1_1 t).mpr (by omega)
    have hc2 : ¬cond1_2 (grid1.coords t) := fun h => by have := (hcond1_2 t).mp h; omega
    rw [Dat.leavesExact_idle (dat1 V c) 4 t (idleAt1_4 t hc2) (noFlush1_4 t hc2)]
    obtain ⟨s, hs⟩ := scAt_step V c t
    rw [hs]
    iintro ⟨HΦ, Ho, ⟨%d0, H0⟩, ⟨%d1, H1⟩, ⟨%d2, H2⟩, ⟨%d3, H3⟩, ⟨%d4, H4⟩⟩
    icases (PhiS1_any V c t.val (Nat.le_of_lt t.isLt)) $$ HΦ with ⟨⟨%e8, HS0⟩, ⟨%e9, HS1⟩, ⟨%e10, HS2⟩, Hr⟩
    iapply (run_reset_update c Set.univ (grid1.coords t) _ _ _ _ _ _ _ _ _ _ _ _ _ _ _ _ hc0 hc1 hc2
      (iblk1 V c 0 t) (iblk1 V c 1 t) (iblk1 V c 2 t) (iblk1 V c 3 t) _ s _)
    isplitl [H0]; · iexact H0
    isplitl [H1]; · iexact H1
    isplitl [H2]; · iexact H2
    isplitl [H3]; · iexact H3
    isplitl [H4]; · iexact H4
    isplitl [HS0]; · iexists _; iexact HS0
    isplitl [HS1]; · iexists _; iexact HS1
    isplitl [HS2]; · iexists _; iexact HS2
    iintro ⟨H0, H1, H2, H3, H4, HS0, HS1, HS2⟩
    isplitl [HS0 HS1 HS2 Hr]
    · isplitl [HS0]; · iexact HS0
      isplitl [HS1]; · iexact HS1
      isplitl [HS2]; · iexact HS2
      iexact Hr
    isplitl [Ho]; · iexact Ho
    isplitl [H0]; · iexact H0
    isplitl [H1]; · iexact H1
    isplitl [H2]; · iexact H2
    isplitl [H3]; · iexact H3
    iexists _; iexact H4
  · have hc0 : ¬cond1_0 (grid1.coords t) := fun h => h0 ((hcond1_0 t).mp h)
    have hz : t.val ≠ 0 := fun h => h0 (by rw [h])
    by_cases h1 : t.val % 8 < 2 * (t.val / 8 % 4 + 1)
    · have hc1 : cond1_1 (grid1.coords t) := (hcond1_1 t).mpr h1
      by_cases h2 : t.val % 8 = 7
      · have hc2 : cond1_2 (grid1.coords t) := (hcond1_2 t).mpr h2
        rw [show (dat1 V c).leavesExact 4 t = owns (c : Thread nD τ) (ms1_4 t) fullShare ((dat1 V c).after 4 t) from by
          unfold Dat.leavesExact; rw [liveAt1_4 t hc2], after1_4]
        unfold out1
        rw [scAt_later V c t hz, PhiS1_pos V c _ _ hz]
        iintro ⟨⟨HS0, HS1, HS2, Hr⟩, Ho, ⟨%d0, H0⟩, ⟨%d1, H1⟩, ⟨%d2, H2⟩, ⟨%d3, H3⟩, ⟨%d4, H4⟩⟩
        iapply (run_update_finalize c Set.univ (grid1.coords t) _ _ _ _ _ _ _ _ _ _ _ _ _ _ _ _ hc0 hc1 hc2
          (iblk1 V c 0 t) (iblk1 V c 1 t) (iblk1 V c 2 t) (iblk1 V c 3 t) (scAt V c (t.val - 1) (Nat.lt_of_le_of_lt (Nat.sub_le _ _) t.isLt)) _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0]; · iexact HS0
          isplitl [HS1]; · iexact HS1
          isplitl [HS2]; · iexact HS2
          iexact Hr
        isplitl [Ho]; · iexact Ho
        isplitl [H0]; · iexact H0
        isplitl [H1]; · iexact H1
        isplitl [H2]; · iexact H2
        isplitl [H3]; · iexact H3
        iexact H4
      · have hc2 : ¬cond1_2 (grid1.coords t) := fun h => h2 ((hcond1_2 t).mp h)
        rw [Dat.leavesExact_idle (dat1 V c) 4 t (idleAt1_4 t hc2) (noFlush1_4 t hc2)]
        rw [scAt_later V c t hz, PhiS1_pos V c _ _ hz]
        iintro ⟨⟨HS0, HS1, HS2, Hr⟩, Ho, ⟨%d0, H0⟩, ⟨%d1, H1⟩, ⟨%d2, H2⟩, ⟨%d3, H3⟩, ⟨%d4, H4⟩⟩
        iapply (run_update c Set.univ (grid1.coords t) _ _ _ _ _ _ _ _ _ _ _ _ _ _ _ _ hc0 hc1 hc2
          (iblk1 V c 0 t) (iblk1 V c 1 t) (iblk1 V c 2 t) (iblk1 V c 3 t) _ (scAt V c (t.val - 1) (Nat.lt_of_le_of_lt (Nat.sub_le _ _) t.isLt)) _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0]; · iexact HS0
          isplitl [HS1]; · iexact HS1
          isplitl [HS2]; · iexact HS2
          iexact Hr
        isplitl [Ho]; · iexact Ho
        isplitl [H0]; · iexact H0
        isplitl [H1]; · iexact H1
        isplitl [H2]; · iexact H2
        isplitl [H3]; · iexact H3
        iexists _; iexact H4
    · have hc1 : ¬cond1_1 (grid1.coords t) := fun h => h1 ((hcond1_1 t).mp h)
      by_cases h2 : t.val % 8 = 7
      · have hc2 : cond1_2 (grid1.coords t) := (hcond1_2 t).mpr h2
        rw [show (dat1 V c).leavesExact 4 t = owns (c : Thread nD τ) (ms1_4 t) fullShare ((dat1 V c).after 4 t) from by
          unfold Dat.leavesExact; rw [liveAt1_4 t hc2], after1_4]
        unfold out1
        rw [scAt_later V c t hz, PhiS1_pos V c _ _ hz]
        iintro ⟨⟨HS0, HS1, HS2, Hr⟩, Ho, ⟨%d0, H0⟩, ⟨%d1, H1⟩, ⟨%d2, H2⟩, ⟨%d3, H3⟩, ⟨%d4, H4⟩⟩
        iapply (run_finalize c Set.univ (grid1.coords t) _ _ _ _ _ _ _ _ _ _ _ _ _ _ _ _ hc0 hc1 hc2
          (iblk1 V c 0 t) (iblk1 V c 1 t) (iblk1 V c 2 t) (iblk1 V c 3 t) (scAt V c (t.val - 1) (Nat.lt_of_le_of_lt (Nat.sub_le _ _) t.isLt)) _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0]; · iexact HS0
          isplitl [HS1]; · iexact HS1
          isplitl [HS2]; · iexact HS2
          iexact Hr
        isplitl [Ho]; · iexact Ho
        isplitl [H0]; · iexact H0
        isplitl [H1]; · iexact H1
        isplitl [H2]; · iexact H2
        isplitl [H3]; · iexact H3
        iexact H4
      · have hc2 : ¬cond1_2 (grid1.coords t) := fun h => h2 ((hcond1_2 t).mp h)
        rw [Dat.leavesExact_idle (dat1 V c) 4 t (idleAt1_4 t hc2) (noFlush1_4 t hc2)]
        rw [scAt_later V c t hz, PhiS1_pos V c _ _ hz]
        iintro ⟨⟨HS0, HS1, HS2, Hr⟩, Ho, ⟨%d0, H0⟩, ⟨%d1, H1⟩, ⟨%d2, H2⟩, ⟨%d3, H3⟩, ⟨%d4, H4⟩⟩
        iapply (run_skip c Set.univ (grid1.coords t) _ _ _ _ _ _ _ _ _ _ _ _ _ _ _ _ hc0 hc1 hc2
          (iblk1 V c 0 t) (iblk1 V c 1 t) (iblk1 V c 2 t) (iblk1 V c 3 t) _ (scAt V c (t.val - 1) (Nat.lt_of_le_of_lt (Nat.sub_le _ _) t.isLt)) _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0]; · iexact HS0
          isplitl [HS1]; · iexact HS1
          isplitl [HS2]; · iexact HS2
          iexact Hr
        isplitl [Ho]; · iexact Ho
        isplitl [H0]; · iexact H0
        isplitl [H1]; · iexact H1
        isplitl [H2]; · iexact H2
        isplitl [H3]; · iexact H3
        iexists _; iexact H4

/-- The body obligation of region 1 at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  refine BIBase.Entails.trans ?_ (PhiA1_join c)
  unfold scAny
  iintro ⟨H0, H1, H2, Hr⟩
  isplitr [Hr]
  · isplitl [H0]; · iexists _; iexact H0
    isplitl [H1]; · iexists _; iexact H1
    iexists _; iexact H2
  iexact Hr

end Cert.Kernel.Hand

end
-- ==== Proof.K.R2.lean ====
/-
  Region 2's body, run at any grid point: the seven input blocks are read, the output block stored.
-/
import proofs.«408005_j88158498718040_3_alg».proof.Proof.K.Core
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers

An input window's current staging buffer holds its block at every point, fetched there or not: where it is not
fetched its block index has not moved since the point before, and the body leaves the block in place. The rows' window
is fetched at every point; the two weight matrices, the two biases, the scale and the shift at the first point only. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_1 (c : Dev nD) (t : Fin cfg2.N) (d) : (dat2 V c).before 1 t d = iblk2 V c 1 t :=
  before2_1_of V (dat2 V c) (A_eq2 V c 1) (after2_1 V c) t d

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_2 (c : Dev nD) (t : Fin cfg2.N) (d) : (dat2 V c).before 2 t d = iblk2 V c 2 t :=
  before2_2_of V (dat2 V c) (A_eq2 V c 2) (after2_2 V c) t d

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_3 (c : Dev nD) (t : Fin cfg2.N) (d) : (dat2 V c).before 3 t d = iblk2 V c 3 t :=
  before2_3_of V (dat2 V c) (A_eq2 V c 3) (after2_3 V c) t d

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_4 (c : Dev nD) (t : Fin cfg2.N) (d) : (dat2 V c).before 4 t d = iblk2 V c 4 t :=
  before2_4_of V (dat2 V c) (A_eq2 V c 4) (after2_4 V c) t d

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_5 (c : Dev nD) (t : Fin cfg2.N) (d) : (dat2 V c).before 5 t d = iblk2 V c 5 t :=
  before2_5_of V (dat2 V c) (A_eq2 V c 5) (after2_5 V c) t d

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_6 (c : Dev nD) (t : Fin cfg2.N) (d) : (dat2 V c).before 6 t d = iblk2 V c 6 t :=
  before2_6_of V (dat2 V c) (A_eq2 V c 6) (after2_6 V c) t d

/-! ## The body's accesses -/

/-- The whole row block (and the whole output block): the unit rectangle at offset zero. -/
abbrev rBlk2 : Rect S512x1024 := Rect.unit (s := S512x1024) ![0, 0] S512x1024.size inb_S512x1024_S512x1024_0_0

/-- The offsets of a whole-buffer access of rank two, all zero. -/
theorem offsets2_zero_rank2 : (![0, 0] : Fin 2 → Nat) = fun _ => 0 := funext fun a => by fin_cases a <;> rfl
/-- The offsets of a whole-buffer access of rank one, all zero. -/
theorem offsets2_zero_rank1 : (![0] : Fin 1 → Nat) = fun _ => 0 := funext fun a => by fin_cases a; rfl

/-- The one store of the body is of the whole output block, so it covers it. -/
theorem cover2_7 (p0 : Vec F S512x1024 .f32) (y : S512x1024.Idx) :
    ∃ pc ∈ ([⟨rBlk2, p0⟩] : List (View.Piece (Elt F) S512x1024 .f32)), y ∈ pc.1.set :=
  ⟨_, List.mem_singleton_self _, View.mem_set_unit_zero (S := S512x1024) offsets2_zero_rank2 inb_S512x1024_S512x1024_0_0 y⟩

/-! ## The body's triple -/

set_option maxHeartbeats 1000000 in
/-- The kernel body on whole staging memrefs, the seven inputs' at contents x0 … x6 and the output's at anything, runs
    to the continuation holding the inputs' as they were and the output's at "out2" of the seven. -/
theorem sound_kernel2 (c : Dev nD) (E : Set ℕ) (i : grid2.Coords) (arg1 : Memref sig .tc .vmem S512x1024 .f32) (harg1 : arg1.IsWhole) (arg2 : Memref sig .tc .vmem S1024x1024 .bf16) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S512x1024 .f32) (harg8 : arg8.IsWhole)
    (x0 : Vec F S512x1024 .f32) (x1 : Vec F S1024x1024 .bf16) (x2 : Vec F S1024 .f32) (x3 : Vec F S1024x1024 .bf16) (x4 : Vec F S1024 .f32) (x5 : Vec F S1024 .f32) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2 x0 x1 x2 x3 x4 x5 x6)) -∗ K ⟨⟩))
      ⊢ wp frame (wpE (defs₀ (F := F)) Variants.none c none) E (cc2__ffn_ln_kernel i arg1 harg1 arg2 harg2 arg3 harg3 arg4 harg4 arg5 harg5 arg6 harg6 arg7 harg7 arg8 harg8) K := by
  simp only [cc2__ffn_ln_kernel_eq_skeleton]; unfold cc2__ffn_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  -- the first sixty statements are their skeleton of memory operations over payloads
  rw [k2_part1_eq_skeleton]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover2_7 _)]
  rw [View.canon_unit_zero (S := S512x1024) offsets2_zero_rank2 inb_S512x1024_S512x1024_0_0]
  unfold sound_kernel2.sl.r sound_kernel2.sl.r_1
  simp only [View.readAt_eq_ld, View.ld_unit_zero (S := S512x1024) offsets2_zero_rank2, View.ld_unit_zero (S := S1024x1024) offsets2_zero_rank2,
    View.ld_unit_zero (S := S1024) offsets2_zero_rank1]
  unfold out2
  rfl

/-! ## The body obligation, at a generic point -/

/-- What the body is called with at point "t" (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the kernel's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of region 2 at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the whole entry function: its seven items as segments (four host stretches, three kernel regions), each
  entered from what the one before it left, launched from any memory with zero counters; every weakly fair execution
  terminates and the final memory holds every unscoped buffer at the last boundary's contents.
-/
import proofs.«408005_j88158498718040_3_alg».proof.Proof.K.Fold
import proofs.«408005_j88158498718040_3_alg».proof.Proof.K.R0
import proofs.«408005_j88158498718040_3_alg».proof.Proof.K.R1
import proofs.«408005_j88158498718040_3_alg».proof.Proof.K.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What every segment shares -/

/-- No variant is declared. -/
abbrev noVariants : Variants := Variants.none
/-- No core owes another anything: no pair has a level. -/
abbrev noLevels : GSem nD τ sig → Finset Unit := fun _ => ∅
abbrev levelOf : GSem nD τ sig → Unit → ℕ := fun _ _ => 0

/-- What rides beside the unscoped buffers through all seven items: the core's generator register at some state (a
    region's class invariant takes it in and gives it back) and the core's dues, at nothing. -/
abbrev riding (c : Dev nD) : sProp 𝕄 :=
  iprop((∃ r, prngReg c r) ∗ ∃ W, owes (c : Thread nD τ) (0 : CellTallies nD τ sig Unit) W)

/-- A host stretch as a segment: its operations run over the unscoped buffers from the contents "W" to those
    contents after the operations, the register and the dues riding along. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- None of the twelve operations before region 0 (reshape, transposes, truncations, the concatenation) allocates. -/
theorem stretch0_no_alloc : (hostOps0 : List (HloOp τ sig (Elt F))).Forall fun op => op.fresh = ∅ := by
  simp only [List.Forall]; repeat' constructor
/-- Nor do the three reshapes between regions 0 and 1, -/
theorem stretch1_no_alloc : (hostOps1 : List (HloOp τ sig (Elt F))).Forall fun op => op.fresh = ∅ := by
  simp only [List.Forall]; repeat' constructor
/-- the reshape between regions 1 and 2, -/
theorem stretch2_no_alloc : (hostOps2 : List (HloOp τ sig (Elt F))).Forall fun op => op.fresh = ∅ := by
  simp only [List.Forall]; repeat' constructor
/-- or the reshape after region 2. -/
theorem stretch3_no_alloc : (hostOps3 : List (HloOp τ sig (Elt F))).Forall fun op => op.fresh = ∅ := by
  simp only [List.Forall]; repeat' constructor

/-- What a core holds at the return, apart from its dues: every unscoped buffer at the contents after the last reshape,
    the generator register at some state. -/
abbrev atReturn (c : Dev nD) : sProp 𝕄 :=
  iprop(StableHlo.held (c : Thread nD τ) (Pipeline.ucRefs τ sig) (W7 m ρ c) ∗ ∃ r, prngReg c r)

/-! ## The three regions as segments -/

set_option backward.isDefEq.respectTransparency.types false in
/-- REGION 0, the packed projection: entered from every unscoped buffer at the contents after the first stretch, left with
    its three outputs at what its write-backs give and everything else as found. No semaphore of its own, nothing owed. -/
def projRegion : Pipeline.RegionSeg (pcfgs (F := F)) adm (pdats m ρ) () defs₀ noVariants noLevels levelOf 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noLevels levelOf 0 fun _ _ => rfl
  pre c := iprop(StableHlo.held (c : Thread nD τ) (Pipeline.ucRefs τ sig) (W1 m ρ c) ∗ riding c)
  post c := iprop(StableHlo.held (c : Thread nD τ) (Pipeline.ucRefs τ sig) (W2 m ρ c) ∗ riding c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    -- the unscoped buffers split into the region's arrays and the others; the register and the dues are sorted out of what rides
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hbufs, Hreg, Hdues⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Hdues]
    · unfold Pipeline.Dat.owesAt Pipeline.owesWithin
      icases Hdues with ⟨%W, Hdues⟩; iexists W; isplitr; · ipureintro; exact fun _ _ => Or.inl trivial
      iexact Hdues
    isplitl [Hreg]; · iexact Hreg
    iexact Hothers
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    -- the arrays at what the write-backs leave, with the others untouched, are the unscoped buffers at the exit contents
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Harr, Hdues, Hreg, Hothers⟩
    imodintro
    isplitl [Harr Hothers]
    · iapply hjoin; isplitl [Harr] <;> iassumption
    isplitl [Hreg]; · iexact Hreg
    unfold Pipeline.Dat.owesAt Pipeline.owesWithin
    icases Hdues with ⟨%W, -, Hdues⟩; iexists W; iexact Hdues

set_option backward.isDefEq.respectTransparency.types false in
/-- REGION 1, the causal attention: entered from the contents after the three reshapes, left with its output at what its
    write-backs give. Its invariant is the carried scratch's; the class invariant enters it before the first point and
    comes back after the last. -/
def attnRegion : Pipeline.RegionSeg (pcfgs (F := F)) adm (pdats m ρ) () defs₀ noVariants noLevels levelOf 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noLevels levelOf 1 fun _ _ => rfl
  pre c := iprop(StableHlo.held (c : Thread nD τ) (Pipeline.ucRefs τ sig) (W3 m ρ c) ∗ riding c)
  post c := iprop(StableHlo.held (c : Thread nD τ) (Pipeline.ucRefs τ sig) (W4 m ρ c) ∗ riding c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    -- the unscoped buffers split into the region's arrays and the others; the register and the dues are sorted out of what rides
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hbufs, Hreg, Hdues⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Hdues]
    · unfold Pipeline.Dat.owesAt Pipeline.owesWithin
      icases Hdues with ⟨%W, Hdues⟩; iexists W; isplitr; · ipureintro; exact fun _ _ => Or.inl trivial
      iexact Hdues
    isplitl [Hreg]; · iexact Hreg
    iexact Hothers
  hin c := by
    -- the class invariant is assembled first; the region's own invariant before the first point follows from it
    refine BIBase.Entails.trans ?_ (hin1 (V3 m ρ) c)
    unfold Pipeline.ΦA
    iintro ⟨Hreg, -, Hscoped⟩
    isplitl [Hscoped]; · iexact Hscoped
    iexact Hreg
  hout c := by
    -- after the last point the region's invariant gives the class invariant back, which is then taken apart
    refine BIBase.Entails.trans (hout1 (V3 m ρ) c) ?_
    rw [Pipeline.ownSems0_none]; unfold Pipeline.ΦA
    iintro ⟨Hscoped, Hreg⟩
    isplitl [Hreg]; · iexact Hreg
    isplitr; · iempintro
    iexact Hscoped
  hexit c := by
    -- the arrays at what the write-backs leave, with the others untouched, are the unscoped buffers at the exit contents
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Harr, Hdues, Hreg, Hothers⟩
    imodintro
    isplitl [Harr Hothers]
    · iapply hjoin; isplitl [Harr] <;> iassumption
    isplitl [Hreg]; · iexact Hreg
    unfold Pipeline.Dat.owesAt Pipeline.owesWithin
    icases Hdues with ⟨%W, -, Hdues⟩; iexists W; iexact Hdues

set_option backward.isDefEq.respectTransparency.types false in
/-- REGION 2, the normalized feed-forward: entered from the contents after the reshape of the attention's output, left
    with its output at what its write-backs give. -/
def ffnRegion : Pipeline.RegionSeg (pcfgs (F := F)) adm (pdats m ρ) () defs₀ noVariants noLevels levelOf 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ noLevels levelOf 2 fun _ _ => rfl
  pre c := iprop(StableHlo.held (c : Thread nD τ) (Pipeline.ucRefs τ sig) (W5 m ρ c) ∗ riding c)
  post c := iprop(StableHlo.held (c : Thread nD τ) (Pipeline.ucRefs τ sig) (W6 m ρ c) ∗ riding c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    -- the unscoped buffers split into the region's arrays and the others; the register and the dues are sorted out of what rides
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hbufs, Hreg, Hdues⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Hdues]
    · unfold Pipeline.Dat.owesAt Pipeline.owesWithin
      icases Hdues with ⟨%W, Hdues⟩; iexists W; isplitr; · ipureintro; exact fun _ _ => Or.inl trivial
      iexact Hdues
    isplitl [Hreg]; · iexact Hreg
    iexact Hothers
  hin c := by
    rw [show (pdats m ρ 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m ρ 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    -- the arrays at what the write-backs leave, with the others untouched, are the unscoped buffers at the exit contents
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Harr, Hdues, Hreg, Hothers⟩
    imodintro
    isplitl [Harr Hothers]
    · iapply hjoin; isplitl [Harr] <;> iassumption
    isplitl [Hreg]; · iexact Hreg
    unfold Pipeline.Dat.owesAt Pipeline.owesWithin
    icases Hdues with ⟨%W, -, Hdues⟩; iexists W; iexact Hdues

/-! ## The entry function as its seven segments, and the launch -/

/-- The seven items in order. -/
abbrev items : List (Pipeline.Seg (pcfgs (F := F)) adm (pdats m ρ) () defs₀ noVariants noLevels levelOf) :=
  [ .host (stretch hostOps0 hostOps0_sub stretch0_no_alloc (W0 m ρ)),
    .region (projRegion m ρ),
    .host (stretch hostOps1 hostOps1_sub stretch1_no_alloc (W2 m ρ)),
    .region (attnRegion m ρ),
    .host (stretch hostOps2 hostOps2_sub stretch2_no_alloc (W4 m ρ)),
    .region (ffnRegion m ρ),
    .host (stretch hostOps3 hostOps3_sub stretch3_no_alloc (W6 m ρ)) ]

/-- The entry function is the run of the seven items. -/
theorem main_is_items (c : Dev nD) : main (F := F) c = Pipeline.Seg.run (items m ρ) :=
  main_segs adm (pdats m ρ) () noVariants noLevels levelOf _ _ _ _ _ _ _ rfl rfl rfl rfl c

set_option backward.isDefEq.respectTransparency.types false in
/-- THE RUN: every weakly fair execution of the entry function terminates, nothing faulting, and its final memory holds
    every unscoped buffer of every core at the last boundary's contents. -/
theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ noVariants noLevels levelOf m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the staging cells' own; no core gets a ghost resource besides
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := atReturn m ρ)
    (hch := ⟨fun _ => .rfl, fun _ => .rfl, fun _ => .rfl, fun _ => .rfl, fun _ => .rfl, fun _ => .rfl, fun _ => .rfl,
      fun c => by
        -- after the last stretch: the buffers and the register on one side, the dues on the other
        show iprop(StableHlo.held (c : Thread nD τ) (Pipeline.ucRefs τ sig) (W7 m ρ c) ∗ riding c)
          ⊢ iprop(atReturn m ρ c ∗ ∃ W, owes (c : Thread nD τ) (0 : CellTallies nD τ sig Unit) W)
        iintro ⟨Hbufs, Hreg, Hdues⟩
        isplitl [Hbufs Hreg]
        · isplitl [Hbufs] <;> iassumption
        iexact Hdues⟩)
    (hinit := by
      -- each core makes its first state alone: the launch memory's unscoped buffers, its register, its dues at nothing
      refine Pipeline.initEach noLevels levelOf fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdues, -, Hreg, -⟩, -⟩
      imodintro
      isplitl [Hbufs]; · iexact Hbufs
      isplitl [Hreg]; · iexists _; iexact Hreg
      iexists ∅; iexact Hdues)
    (QY := fun c s => ∀ b ∈ Pipeline.ucRefs τ sig, s.mem (((c : Thread nD τ)).1, b) = W7 m ρ c b)
    (hfin := fun c s' => by
      -- the buffers held at the return, read against the final state
      iintro ⟨⟨Hbufs, -⟩, HSI⟩
      unfold StableHlo.held
      imodintro
      iapply (pointsTo_read_all (Pipeline.ucRefs τ sig) (fun b => (((c : Thread nD τ)).1, b)) (W7 m ρ c) s')
      isplitl [Hbufs] <;> iassumption)
    (hQ := fun s h => hQ s h)

end Cert.Kernel.Hand

end
-- ==== Proof.K.Chain.lean ====
/-
  What the boundary contents hold at the buffers the regions and the return read: each host stretch's results read
  back through the fold (a reshape of a region's output array, a transposed and narrowed weight matrix, the packed
  weights), each argument as launched.
-/
import proofs.«408005_j88158498718040_3_alg».proof.Proof.K.Fold
import proofs.«408005_j88158498718040_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves in place -/

/-- The launch contents read at a TensorCore reference. -/
theorem W0_eq (c : Dev nD) (r : Ref sig .tc) : W0 m ρ c (Proc.devRef .tc r) = m ((c : Thread nD τ).loc r) := rfl

/-- A host stretch leaves a buffer none of its operations writes as it found it. -/
theorem W1_keeps (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_keeps (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_keeps (c : Dev nD) (r : Ref sig .tc) (h : r ∉ hostOps2_W) :
    W5 m ρ c (Proc.devRef .tc r) = W4 m ρ c (Proc.devRef .tc r) :=
  StableHlo.after_of_writes_sub hostOps2 _ hostOps2_writes h
theorem W7_keeps (c : Dev nD) (r : Ref sig .tc) (h : r ∉ hostOps3_W) :
    W7 m ρ c (Proc.devRef .tc r) = W6 m ρ c (Proc.devRef .tc r) :=
  StableHlo.after_of_writes_sub hostOps3 _ hostOps3_writes h

/-- A region leaves the array of an input window as it found it: an input array is never written back. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- A buffer that no stretch so far writes and that is no array of a region so far holds what was launched. -/
theorem W1_launch (c : Dev nD) (r : Ref sig .tc) (h0 : r ∉ hostOps0_W) :
    W1 m ρ c (Proc.devRef .tc r) = m ((c : Thread nD τ).loc r) :=
  (W1_keeps m ρ c r h0).trans (W0_eq m ρ c r)
theorem W3_launch (c : Dev nD) (r : Ref sig .tc) (h0 : r ∉ hostOps0_W) (hs0 : ∀ w, Pipeline.arrRef spec0 w ≠ r)
    (h1 : r ∉ hostOps1_W) : W3 m ρ c (Proc.devRef .tc r) = m ((c : Thread nD τ).loc r) :=
  (W3_keeps m ρ c r h1).trans ((W2_of_ne m ρ c r hs0).trans (W1_launch m ρ c r h0))
theorem W5_launch (c : Dev nD) (r : Ref sig .tc) (h0 : r ∉ hostOps0_W) (hs0 : ∀ w, Pipeline.arrRef spec0 w ≠ r)
    (h1 : r ∉ hostOps1_W) (hs1 : ∀ w, Pipeline.arrRef spec1 w ≠ r) (h2 : r ∉ hostOps2_W) :
    W5 m ρ c (Proc.devRef .tc r) = m ((c : Thread nD τ).loc r) :=
  (W5_keeps m ρ c r h2).trans ((W4_of_ne m ρ c r hs1).trans (W3_launch m ρ c r h0 hs0 h1))
theorem W7_launch (c : Dev nD) (r : Ref sig .tc) (h0 : r ∉ hostOps0_W) (hs0 : ∀ w, Pipeline.arrRef spec0 w ≠ r)
    (h1 : r ∉ hostOps1_W) (hs1 : ∀ w, Pipeline.arrRef spec1 w ≠ r) (h2 : r ∉ hostOps2_W)
    (hs2 : ∀ w, Pipeline.arrRef spec2 w ≠ r) (h3 : r ∉ hostOps3_W) :
    W7 m ρ c (Proc.devRef .tc r) = m ((c : Thread nD τ).loc r) :=
  (W7_keeps m ρ c r h3).trans ((W6_of_ne m ρ c r hs2).trans (W5_launch m ρ c r h0 hs0 h1 hs1 h2))

/-! ## Region 1's and region 2's entries at the arguments they read -/

theorem V3_main_arg0 (c : Dev nD) : V3 m ρ c main_arg0 = m ((c : Thread nD τ).loc main_arg0) :=
  W3_launch m ρ c main_arg0 (by decide) (by decide) (by decide)

theorem V5_main_arg5 (c : Dev nD) : V5 m ρ c main_arg5 = m ((c : Thread nD τ).loc main_arg5) :=
  W5_launch m ρ c main_arg5 (by decide) (by decide) (by decide) (by decide) (by decide)
theorem V5_main_arg7 (c : Dev nD) : V5 m ρ c main_arg7 = m ((c : Thread nD τ).loc main_arg7) :=
  W5_launch m ρ c main_arg7 (by decide) (by decide) (by decide) (by decide) (by decide)
theorem V5_main_arg8 (c : Dev nD) : V5 m ρ c main_arg8 = m ((c : Thread nD τ).loc main_arg8) :=
  W5_launch m ρ c main_arg8 (by decide) (by decide) (by decide) (by decide) (by decide)
theorem V5_main_arg9 (c : Dev nD) : V5 m ρ c main_arg9 = m ((c : Thread nD τ).loc main_arg9) :=
  W5_launch m ρ c main_arg9 (by decide) (by decide) (by decide) (by decide) (by decide)

/-- The residual input is staged by region 1 through an input window, which leaves it in place. -/
theorem W5_main_arg0 (c : Dev nD) : W5 m ρ c (Proc.devRef .tc main_arg0) = m ((c : Thread nD τ).loc main_arg0) :=
  (W5_keeps m ρ c main_arg0 (by decide)).trans ((W4_in m ρ c 3 rfl).trans (V3_main_arg0 m ρ c))

/-! ## No item writes an argument: each reaches every boundary as launched -/

theorem W7_main_arg0 (c : Dev nD) : W7 m ρ c (Proc.devRef .tc main_arg0) = m ((c : Thread nD τ).loc main_arg0) :=
  (W7_keeps m ρ c main_arg0 (by decide)).trans ((W6_of_ne m ρ c main_arg0 (by decide)).trans (W5_main_arg0 m ρ c))
theorem W7_main_arg1 (c : Dev nD) : W7 m ρ c (Proc.devRef .tc main_arg1) = m ((c : Thread nD τ).loc main_arg1) :=
  W7_launch m ρ c main_arg1 (by decide) (by decide) (by decide) (by decide) (by decide) (by decide) (by decide)
theorem W7_main_arg2 (c : Dev nD) : W7 m ρ c (Proc.devRef .tc main_arg2) = m ((c : Thread nD τ).loc main_arg2) :=
  W7_launch m ρ c main_arg2 (by decide) (by decide) (by decide) (by decide) (by decide) (by decide) (by decide)
theorem W7_main_arg3 (c : Dev nD) : W7 m ρ c (Proc.devRef .tc main_arg3) = m ((c : Thread nD τ).loc main_arg3) :=
  W7_launch m ρ c main_arg3 (by decide) (by decide) (by decide) (by decide) (by decide) (by decide) (by decide)
theorem W7_main_arg4 (c : Dev nD) : W7 m ρ c (Proc.devRef .tc main_arg4) = m ((c : Thread nD τ).loc main_arg4) :=
  W7_launch m ρ c main_arg4 (by decide) (by decide) (by decide) (by decide) (by decide) (by decide) (by decide)
/-- Region 2 stages the four vectors (two biases, scale, shift) through input windows, which leave them in place. -/
theorem W7_main_arg5 (c : Dev nD) : W7 m ρ c (Proc.devRef .tc main_arg5) = m ((c : Thread nD τ).loc main_arg5) :=
  (W7_keeps m ρ c main_arg5 (by decide)).trans ((W6_in m ρ c 2 rfl).trans (V5_main_arg5 m ρ c))
theorem W7_main_arg6 (c : Dev nD) : W7 m ρ c (Proc.devRef .tc main_arg6) = m ((c : Thread nD τ).loc main_arg6) :=
  W7_launch m ρ c main_arg6 (by decide) (by decide) (by decide) (by decide) (by decide) (by decide) (by decide)
theorem W7_main_arg7 (c : Dev nD) : W7 m ρ c (Proc.devRef .tc main_arg7) = m ((c : Thread nD τ).loc main_arg7) :=
  (W7_keeps m ρ c main_arg7 (by decide)).trans ((W6_in m ρ c 4 rfl).trans (V5_main_arg7 m ρ c))
theorem W7_main_arg8 (c : Dev nD) : W7 m ρ c (Proc.devRef .tc main_arg8) = m ((c : Thread nD τ).loc main_arg8) :=
  (W7_keeps m ρ c main_arg8 (by decide)).trans ((W6_in m ρ c 5 rfl).trans (V5_main_arg8 m ρ c))
theorem W7_main_arg9 (c : Dev nD) : W7 m ρ c (Proc.devRef .tc main_arg9) = m ((c : Thread nD τ).loc main_arg9) :=
  (W7_keeps m ρ c main_arg9 (by decide)).trans ((W6_in m ρ c 6 rfl).trans (V5_main_arg9 m ρ c))

/-! ## Region 0's entry (after the first host stretch) -/

/-- The flattened input. -/
theorem V1_main_v0 (c : Dev nD) : V1 m ρ c main_v0
    = shapeCast S8192x1024 (m ((c : Thread nD τ).loc main_arg0)) shapeCasts_S4x2048x1024_S8192x1024 := by
  show StableHlo.after hostOps0 _ (Proc.devRef .tc main_v0) = _
  after_results
  rfl

/-- A weight matrix transposed and narrowed, as the first host stretch leaves it. -/
def wT (w : Vec F S1024x1024 .f32) : Vec F S1024x1024 .bf16 :=
  truncf .bf16 (transpose S1024x1024 [1, 0] w transposes_S1024x1024_S1024x1024_1_0) bitsLt_bf16_f32

/-- Each of the five narrowed transposes read back after the first host stretch. -/
theorem W1_main_v2 (c : Dev nD) : W1 m ρ c (Proc.devRef .tc main_v2) = wT (m ((c : Thread nD τ).loc main_arg1)) := by
  show StableHlo.after hostOps0 _ (Proc.devRef .tc main_v2) = _
  after_results
  rfl
theorem W1_main_v4 (c : Dev nD) : W1 m ρ c (Proc.devRef .tc main_v4) = wT (m ((c : Thread nD τ).loc main_arg2)) := by
  show StableHlo.after hostOps0 _ (Proc.devRef .tc main_v4) = _
  after_results
  rfl
theorem W1_main_v6 (c : Dev nD) : W1 m ρ c (Proc.devRef .tc main_v6) = wT (m ((c : Thread nD τ).loc main_arg3)) := by
  show StableHlo.after hostOps0 _ (Proc.devRef .tc main_v6) = _
  after_results
  rfl
theorem W1_main_v9 (c : Dev nD) : W1 m ρ c (Proc.devRef .tc main_v9) = wT (m ((c : Thread nD τ).loc main_arg4)) := by
  show StableHlo.after hostOps0 _ (Proc.devRef .tc main_v9) = _
  after_results
  rfl
theorem W1_main_v11 (c : Dev nD) : W1 m ρ c (Proc.devRef .tc main_v11) = wT (m ((c : Thread nD τ).loc main_arg6)) := by
  show StableHlo.after hostOps0 _ (Proc.devRef .tc main_v11) = _
  after_results
  rfl

/-- The packed weights: the three transposed, narrowed projection matrices side by side. -/
theorem V1_main_v7 (c : Dev nD) : V1 m ρ c main_v7
    = concatenate S1024x3072 1 [⟨S1024x1024, wT (m ((c : Thread nD τ).loc main_arg1))⟩, ⟨S1024x1024, wT (m ((c : Thread nD τ).loc main_arg2))⟩,
        ⟨S1024x1024, wT (m ((c : Thread nD τ).loc main_arg3))⟩] concatenates_S1024x1024_S1024x1024_S1024x1024_S1024x3072_d1 := by
  show StableHlo.after hostOps0 _ (Proc.devRef .tc main_v7) = _
  after_results
  dsimp only [Matrix.cons_val]
  repeat (first
    | rw [StableHlo.unary_result]
    | (rw [StableHlo.unary_result_ne]; rotate_left; decide)
    | (rw [StableHlo.reshape_result_ne]; rotate_left; decide))
  rfl

/-! ## Region 1's entry (after region 0 and the second host stretch) -/

theorem V3_main_v13 (c : Dev nD) : V3 m ρ c main_v13
    = shapeCast S4x2048x1024 ((dat0 (V1 m ρ) c).arrAt 2 cfg0.N) shapeCasts_S8192x1024_S4x2048x1024 := by
  show StableHlo.after hostOps1 _ (Proc.devRef .tc main_v13) = _
  after_results
  rw [show W2 m ρ c (Proc.devRef .tc main_v12_0) = _ from W2_arr m ρ c 2]
  rfl
theorem V3_main_v14 (c : Dev nD) : V3 m ρ c main_v14
    = shapeCast S4x2048x1024 ((dat0 (V1 m ρ) c).arrAt 3 cfg0.N) shapeCasts_S8192x1024_S4x2048x1024 := by
  show StableHlo.after hostOps1 _ (Proc.devRef .tc main_v14) = _
  after_results
  rw [show W2 m ρ c (Proc.devRef .tc main_v12_1) = _ from W2_arr m ρ c 3]
  rfl
theorem V3_main_v15 (c : Dev nD) : V3 m ρ c main_v15
    = shapeCast S4x2048x1024 ((dat0 (V1 m ρ) c).arrAt 4 cfg0.N) shapeCasts_S8192x1024_S4x2048x1024 := by
  show StableHlo.after hostOps1 _ (Proc.devRef .tc main_v15) = _
  after_results
  rw [show W2 m ρ c (Proc.devRef .tc main_v12_2) = _ from W2_arr m ρ c 4]
  rfl

/-! ## Region 2's entry (after region 1 and the third host stretch) -/

theorem V5_main_v17 (c : Dev nD) : V5 m ρ c main_v17
    = shapeCast S8192x1024 ((dat1 (V3 m ρ) c).arrAt 4 cfg1.N) shapeCasts_S4x2048x1024_S8192x1024 := by
  show StableHlo.after hostOps2 _ (Proc.devRef .tc main_v17) = _
  after_results
  rw [show W4 m ρ c (Proc.devRef .tc main_v16) = _ from W4_arr m ρ c 4]
  rfl
/-- The two feed-forward weight matrices were transposed and narrowed by the first host stretch; nothing since writes them. -/
theorem V5_main_v9 (c : Dev nD) : V5 m ρ c main_v9 = wT (m ((c : Thread nD τ).loc main_arg4)) :=
  (W5_keeps m ρ c main_v9 (by decide)).trans <| (W4_of_ne m ρ c main_v9 (by decide)).trans <|
    (W3_keeps m ρ c main_v9 (by decide)).trans <| (W2_of_ne m ρ c main_v9 (by decide)).trans (W1_main_v9 m ρ c)
theorem V5_main_v11 (c : Dev nD) : V5 m ρ c main_v11 = wT (m ((c : Thread nD τ).loc main_arg6)) :=
  (W5_keeps m ρ c main_v11 (by decide)).trans <| (W4_of_ne m ρ c main_v11 (by decide)).trans <|
    (W3_keeps m ρ c main_v11 (by decide)).trans <| (W2_of_ne m ρ c main_v11 (by decide)).trans (W1_main_v11 m ρ c)

/-! ## The return -/

theorem W7_main_v19 (c : Dev nD) : W7 m ρ c (Proc.devRef .tc main_v19)
    = shapeCast S4x2048x1024 ((dat2 (V5 m ρ) c).arrAt 7 cfg2.N) shapeCasts_S8192x1024_S4x2048x1024 := by
  show StableHlo.after hostOps3 _ (Proc.devRef .tc main_v19) = _
  after_results
  rw [show W6 m ρ c (Proc.devRef .tc main_v18) = _ from W6_arr m ρ c 7]
  rfl

end Cert.Kernel.Hand

end
-- ==== Proof.KI.Core.lean ====
/-
  The three kernel regions of the idealized kernel program as PROOF DATA, stated once at any float instance and at a
  parameter "V": what the TensorCore's unscoped buffers hold when the region is entered.

  Region 0 (the packed projection): per grid point a 512-row block of the flattened input is multiplied by the packed
  weight matrix and the three column thirds are stored into the three output blocks.
  Region 1 (causal attention with a running softmax): the grid is (batch, query tile, key tile); three scratch buffers
  (the running row maximum, the running row sum, the running weighted value sum) are carried from one point to the next:
  reset at key tile 0, updated at every key tile that starts before the query tile ends, and read at the last key tile,
  where the output block is stored as the residual plus the quotient of the last two.
  Region 2 (layer norm, two-layer feed-forward, layer norm): per grid point one 512-row block goes through the whole chain.
-/
import proofs.«408005_j88158498718040_3_alg».proof.Proof.Gen.KernelIdeal.Launch
import proofs.«408005_j88158498718040_3_alg».proof.Proof.Gen.KernelIdeal.Skeleton
import proofs.«408005_j88158498718040_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Region 0 -/

/-- Window "w"'s block at point "t", read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the inputs' buffers stay at their blocks; output "2 + j" ends at column third "j" of the
    block's product with the packed weights. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (iblk0 V c 0 t) (iblk0 V c 1 t)
    | ⟨3, _⟩ => k0_pay3 (iblk0 V c 0 t) (iblk0 V c 1 t)
    | ⟨4, _⟩ => k0_pay4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (iblk0 V c 0 t) (iblk0 V c 1 t) := by dsimp only [dat0]
theorem after0_3 (c : Dev nD) (t : Fin cfg0.N) : (dat0 V c).after 3 t = k0_pay3 (iblk0 V c 0 t) (iblk0 V c 1 t) := by dsimp only [dat0]
theorem after0_4 (c : Dev nD) (t : Fin cfg0.N) : (dat0 V c).after 4 t = k0_pay4 (iblk0 V c 0 t) (iblk0 V c 1 t) := by dsimp only [dat0]

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What region 2's body stores into its output block, from the seven input blocks (rows, first weights, first bias,
    second weights, second bias, scale, shift). -/
def out2 (x : Vec F S512x1024 .f32) (w1 : Vec F S1024x1024 .bf16) (b1 : Vec F S1024 .f32) (w2 : Vec F S1024x1024 .bf16)
    (b2 : Vec F S1024 .f32) (g : Vec F S1024 .f32) (be : Vec F S1024 .f32) : Vec F S512x1024 .f32 :=
  k2_pay1 (k2_pay2 x g be) (k2_pay3 x g be w1 b1 w2) b2 g be

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2 (iblk2 V c 0 t) (iblk2 V c 1 t) (iblk2 V c 2 t) (iblk2 V c 3 t) (iblk2 V c 4 t) (iblk2 V c 5 t) (iblk2 V c 6 t) := by dsimp only [dat2]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's three branch conditions as it computes them from the grid coordinates: the key tile is the first; the key
    tile starts before the query tile ends; the key tile is the last. -/
abbrev cond1_0 (i : grid1.Coords) : Prop :=
  (Scalar.cmpi .ne (Scalar.extui (Scalar.cmpi .eq (BitVec.ofNat 32 (i 2).val) 0#32)) 0#32) = 1#1
abbrev cond1_1 (i : grid1.Coords) : Prop :=
  (Scalar.cmpi .ne (Scalar.extui (Scalar.cmpi .slt (Scalar.muli (BitVec.ofNat 32 (i 2).val) 256#32)
    (Scalar.muli (Scalar.addi (BitVec.ofNat 32 (i 1).val) 1#32) 512#32))) 0#32) = 1#1
abbrev cond1_2 (i : grid1.Coords) : Prop := k1_cond3 i = 1#1

/-- The query-tile and key-tile coordinates as the words the body computes with. -/
abbrev qw (i : grid1.Coords) : BitVec 32 := BitVec.ofNat 32 (i 1).val
abbrev kw (i : grid1.Coords) : BitVec 32 := BitVec.ofNat 32 (i 2).val

/-- The carried scratch: running maximum, running sum, running weighted sum. -/
abbrev Sc (F : FTy → Type) [FloatOps F] : Type := Vec F S512x1 .f32 × Vec F S512x1 .f32 × Vec F S512x1024 .f32

/-- What the reset stores. -/
def scReset : Sc F := (k1_pay1, k1_pay2, k1_pay3)

/-- One grid point's effect on the carried scratch, from the query block, the key block and the value block. -/
def scStep (i : grid1.Coords) (q : Vec F S1x512x1024 .bf16) (k : Vec F S1x256x1024 .bf16) (v : Vec F S1x256x1024 .bf16)
    (s : Sc F) : Sc F :=
  let s1 : Sc F := if cond1_0 i then scReset else s
  if cond1_1 i then
    (k1_pay5 (k1_pay9 (qw i) (kw i) q k s1.1),
     k1_pay12 (qw i) (kw i) q k s1.1 s1.2.1,
     k1_pay4 (k1_pay7 v) (k1_pay10 (qw i) (kw i) q k s1.1) (k1_pay11 (qw i) (kw i) q k s1.1) s1.2.2)
  else s1

/-- The carried scratch after the body at position "n", by recursion on the position. -/
def scAt (c : Dev nD) : (n : ℕ) → n < cfg1.N → Sc F
  | 0, hn => scStep (grid1.coords ⟨0, hn⟩) (iblk1 V c 0 ⟨0, hn⟩) (iblk1 V c 1 ⟨0, hn⟩) (iblk1 V c 2 ⟨0, hn⟩) scReset
  | n + 1, hn => scStep (grid1.coords ⟨n + 1, hn⟩) (iblk1 V c 0 ⟨n + 1, hn⟩) (iblk1 V c 1 ⟨n + 1, hn⟩) (iblk1 V c 2 ⟨n + 1, hn⟩)
      (scAt c n (Nat.lt_of_succ_lt hn))

theorem scAt_zero (c : Dev nD) (hn : 0 < cfg1.N) :
    scAt V c 0 hn = scStep (grid1.coords ⟨0, hn⟩) (iblk1 V c 0 ⟨0, hn⟩) (iblk1 V c 1 ⟨0, hn⟩) (iblk1 V c 2 ⟨0, hn⟩) scReset := rfl
theorem scAt_succ (c : Dev nD) (n : ℕ) (hn : n + 1 < cfg1.N) :
    scAt V c (n + 1) hn = scStep (grid1.coords ⟨n + 1, hn⟩) (iblk1 V c 0 ⟨n + 1, hn⟩) (iblk1 V c 1 ⟨n + 1, hn⟩) (iblk1 V c 2 ⟨n + 1, hn⟩)
      (scAt V c n (Nat.lt_of_succ_lt hn)) := rfl

/-- What the last branch stores into the output block at point "t": the residual block plus the quotient of the running
    weighted sum by the running sum, both as this point leaves them. (Consulted only where the block is written back.) -/
def out1 (c : Dev nD) (t : Fin cfg1.N) : Vec F S1x512x1024 .f32 :=
  k1_pay6 (iblk1 V c 3 t) (scAt V c t.val t.isLt).2.2 (scAt V c t.val t.isLt).2.1

/-- The scratch operands as memrefs. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2

/-- The three scratch buffers, each at some contents. -/
def scAny (c : Dev nD) : sProp 𝕄 :=
  iprop((∃ d, owns (c : Thread nD τ) scM1_0 fullShare d) ∗ (∃ d, owns (c : Thread nD τ) scM1_1 fullShare d)
    ∗ (∃ d, owns (c : Thread nD τ) scM1_2 fullShare d))

/-- What region 1's class invariant holds besides the three scratch buffers (the other scoped buffers that are no
    staging buffer of the region, and the generator register): whatever, joined with the three at some contents, makes
    the class invariant again. -/
def restS1 (c : Dev nD) : sProp 𝕄 := iprop(scAny (F := F) c -∗ Pipeline.ΦA spec1 c)

/-- Region 1's invariant before position "n": before the first point the class invariant (every scoped buffer that is
    no staging buffer at anything); afterwards the three scratch buffers at what the point before left, and the rest. -/
def PhiS1 (c : Dev nD) : (n : ℕ) → n ≤ cfg1.N → sProp 𝕄
  | 0, _ => Pipeline.ΦA spec1 c
  | n + 1, hn => iprop(owns (c : Thread nD τ) scM1_0 fullShare ((scAt V c n hn).1)
      ∗ owns (c : Thread nD τ) scM1_1 fullShare ((scAt V c n hn).2.1)
      ∗ owns (c : Thread nD τ) scM1_2 fullShare ((scAt V c n hn).2.2)
      ∗ restS1 (F := F) c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((scAt V c n hn).1)
      ∗ owns (c : Thread nD τ) scM1_1 fullShare ((scAt V c n hn).2.1)
      ∗ owns (c : Thread nD τ) scM1_2 fullShare ((scAt V c n hn).2.2)
      ∗ restS1 (F := F) c) := rfl

theorem PhiS1_pos (c : Dev nD) (n : ℕ) (h : n ≤ cfg1.N) (hz : n ≠ 0) :
    PhiS1 V c n h = iprop(owns (c : Thread nD τ) scM1_0 fullShare ((scAt V c (n - 1) (by omega)).1)
      ∗ owns (c : Thread nD τ) scM1_1 fullShare ((scAt V c (n - 1) (by omega)).2.1)
      ∗ owns (c : Thread nD τ) scM1_2 fullShare ((scAt V c (n - 1) (by omega)).2.2)
      ∗ restS1 (F := F) c) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

end Cert.KernelIdeal.Hand

end
-- ==== Proof.KI.Fold.lean ====
/-
  The contents of the TensorCore's unscoped buffers at each boundary between the items of the entry function — host
  stretch, region 0, host stretch, region 1, host stretch, region 2, host stretch — as a fold from the launch memory:
  a host stretch applies its operations, a region leaves its arrays at what its write-backs give and every other buffer
  as it found it.
-/
import proofs.«408005_j88158498718040_3_alg».proof.Proof.KI.Core

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core "c"'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the contents at the return. -/
abbrev W7 : Dev nD → Valuation τ sig (Elt F) := fun c => StableHlo.after hostOps3 (W6 m ρ c)

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c

end Cert.KernelIdeal.Hand

end
-- ==== Proof.KI.R0.lean ====
/-
  Region 0's body, run at any grid point: the two input blocks are read, the three output blocks stored.
-/
import proofs.«408005_j88158498718040_3_alg».proof.Proof.KI.Core
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The input blocks stay in their staging buffers -/

/-- The row block's staging buffer holds the block of the point, at every point (it is fetched at each). -/
theorem rows_before0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The packed weights' staging buffer holds the weights at every point: they are fetched at the first point only, and
    their block index never moves afterwards. -/
theorem weights_before0 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's accesses: every load and every store is of a whole buffer -/

/-- The offsets of every access of the body are zero on both axes. -/
theorem offsets_zero0 : (![0, 0] : Fin 2 → Nat) = fun _ => 0 := funext fun a => by fin_cases a <;> rfl

/-- The whole 512x1024 buffer as the rectangle the body loads and stores through. -/
abbrev whole512x1024 : Rect S512x1024 := Rect.unit (s := S512x1024) ![0, 0] S512x1024.size inb_S512x1024_S512x1024_0_0

/-- The whole 1024x3072 buffer as the rectangle the body loads the weights through. -/
abbrev whole1024x3072 : Rect S1024x3072 := Rect.unit (s := S1024x3072) ![0, 0] S1024x3072.size inb_S1024x3072_S1024x3072_0_0

/-- The load of the row block reads the buffer's contents. -/
theorem load_rows0 {κ : Kind} {sp : Space} (v : View sig κ sp S512x1024 .f32) (f : v.ty.Contents (Elt F)) :
    v.readAt (Elt F) whole512x1024.toLoadRect f = v.read (Elt F) f :=
  (View.readAt_eq_ld v f whole512x1024).trans
    (View.ld_unit_zero (S := S512x1024) offsets_zero0 inb_S512x1024_S512x1024_0_0 _)

/-- The load of the packed weights reads the buffer's contents. -/
theorem load_weights0 {κ : Kind} {sp : Space} (v : View sig κ sp S1024x3072 .bf16) (f : v.ty.Contents (Elt F)) :
    v.readAt (Elt F) whole1024x3072.toLoadRect f = v.read (Elt F) f :=
  (View.readAt_eq_ld v f whole1024x3072).trans
    (View.ld_unit_zero (S := S1024x3072) offsets_zero0 inb_S1024x3072_S1024x3072_0_0 _)

/-- One store of a whole output buffer covers it. -/
theorem cover_out0 (p : Vec F S512x1024 .bf16) (y : S512x1024.Idx) :
    ∃ pc ∈ ([⟨whole512x1024, p⟩] : List (View.Piece (Elt F) S512x1024 .bf16)), y ∈ pc.1.set :=
  ⟨_, List.mem_singleton_self _, View.mem_set_unit_zero offsets_zero0 inb_S512x1024_S512x1024_0_0 y⟩

/-- So what that one store leaves, over any prior contents, is its payload. -/
theorem read_store_out0 {κ : Kind} {sp : Space} (v : View sig κ sp S512x1024 .bf16) (f : v.ty.Contents (Elt F))
    (p : Vec F S512x1024 .bf16) :
    v.read (Elt F) (v.writes (Elt F) f [⟨whole512x1024, p⟩]) = p := by
  rw [View.read_writes_eq_canon _ _ _ (cover_out0 p)]
  exact View.canon_unit_zero (S := S512x1024) offsets_zero0 inb_S512x1024_S512x1024_0_0 p

/-! ## The body's triple -/

set_option maxHeartbeats 1000000 in
/-- The body on whole staging memrefs, the row block's at "x", the weights' at "w" and the three outputs' at
    anything, runs to the continuation holding the inputs' as they were and output "j"'s at the rounded column third
    "j" of the product of "x" (rounded) with "w". -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S512x1024 .bf16) (harg5 : arg5.IsWhole)
    (x : Vec F S512x1024 .f32) (w : Vec F S1024x3072 .bf16) (K : PUnit → sProp 𝕄) :
    iprop(owns (c : Thread nD τ) arg1 fullShare x ∗ owns (c : Thread nD τ) arg2 fullShare w
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x ∗ owns (c : Thread nD τ) arg2 fullShare w
            ∗ owns (c : Thread nD τ) arg3 fullShare (k0_pay2 x w) ∗ owns (c : Thread nD τ) arg4 fullShare (k0_pay3 x w)
            ∗ owns (c : Thread nD τ) arg5 fullShare (k0_pay4 x w)) -∗ K ⟨⟩))
      ⊢ wp frame (wpE (defs₀ (F := F)) Variants.none c none) E
          (cc0__qkv_kernel i arg1 harg1 arg2 harg2 arg3 harg3 arg4 harg4 arg5 harg5) K := by
  simp only [cc0__qkv_kernel_eq_skeleton]; unfold cc0__qkv_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_store_out0, load_rows0, load_weights0]
  isplitl [H4]
  · iexists _; isplitr
    swap; · iexact H4
    ipureintro
    rw [read_store_out0, load_rows0, load_weights0]
  iexists _; isplitr
  swap; · iexact H5
  ipureintro
  rw [read_store_out0, load_rows0, load_weights0]

/-! ## The body obligation, at a generic point -/

/-- What the body is called with at point "t": the invariant, what is owed, and the five current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the two inputs' buffers hold their blocks, the three outputs' hold anything, so the body's
    triple applies; the invariant and what is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [rows_before0, weights_before0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Facts.lean ====
/-
  Region 1's schedule facts: where each of the body's three branch conditions holds over the grid of 4 x 4 x 8 points
  (point t = 32·batch + 8·query tile + key tile), where the output window is idle and where it is written back; and the
  three scratch buffers taken out of the class invariant.
-/
import proofs.«408005_j88158498718040_3_alg».proof.Proof.KI.Core

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The first branch (reset) is taken at key tile 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch (update) is taken while the key tile starts before the query tile ends: key tile < 2·(query tile + 1). -/
theorem hcond1_1 : ∀ t : Fin cfg1.N, cond1_1 (grid1.coords t) ↔ t.val % 8 < 2 * (t.val / 8 % 4 + 1) :=
  (by decide +kernel : ∀ t : Fin grid1.N, cond1_1 (grid1.coords t) ↔ t.val % 8 < 2 * (t.val / 8 % 4 + 1))

/-- The third branch (finalize) is taken at key tile 7. -/
theorem hcond1_2 : ∀ t : Fin cfg1.N, cond1_2 (grid1.coords t) ↔ t.val % 8 = 7 :=
  (by decide +kernel : ∀ t : Fin grid1.N, cond1_2 (grid1.coords t) ↔ t.val % 8 = 7)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-- The output window is idle exactly where the third branch is not taken, and there it is not written back. -/
theorem idleAt1_4 : ∀ t : Fin cfg1.N, ¬cond1_2 (grid1.coords t) → cfg1.idle 4 (grid1.coords t) = true := by decide +kernel
theorem liveAt1_4 : ∀ t : Fin cfg1.N, cond1_2 (grid1.coords t) → cfg1.idle 4 (grid1.coords t) = false := by decide +kernel
theorem noFlush1_4 : ∀ t : Fin cfg1.N, ¬cond1_2 (grid1.coords t) → (cfg1.win 4).flush t = false := by decide +kernel

/-- Of thirteen separating conjuncts beside a fourteenth, the tenth to twelfth come out, and what is left takes them
    back: the shape of the class invariant's scoped buffers (nine before the three scratch buffers, the others after,
    gathered as one) beside the generator register. -/
theorem take_three (a0 a1 a2 a3 a4 a5 a6 a7 a8 s0 s1 s2 r g : sProp 𝕄) :
    iprop((a0 ∗ a1 ∗ a2 ∗ a3 ∗ a4 ∗ a5 ∗ a6 ∗ a7 ∗ a8 ∗ s0 ∗ s1 ∗ s2 ∗ r) ∗ g)
      ⊢ iprop((s0 ∗ s1 ∗ s2) ∗ ((s0 ∗ s1 ∗ s2) -∗ ((a0 ∗ a1 ∗ a2 ∗ a3 ∗ a4 ∗ a5 ∗ a6 ∗ a7 ∗ a8 ∗ s0 ∗ s1 ∗ s2 ∗ r) ∗ g))) := by
  iintro ⟨⟨H0, H1, H2, H3, H4, H5, H6, H7, H8, S0, S1, S2, R⟩, G⟩
  isplitl [S0 S1 S2]
  · isplitl [S0]; · iexact S0
    isplitl [S1]; · iexact S1
    iexact S2
  · iintro ⟨S0, S1, S2⟩
    isplitr [G]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [S0]; · iexact S0
      isplitl [S1]; · iexact S1
      isplitl [S2]; · iexact S2
      iexact R
    · iexact G

/-- The class invariant hands out the three scratch buffers at some contents, and the rest: its scoped buffers are
    enumerated, a whole memref owned at some contents is its buffer's points-to, and the three are the tenth to twelfth. -/
theorem PhiA1_split (c : Dev nD) : (Pipeline.ΦA spec1 c : sProp 𝕄) ⊢ iprop(scAny (F := F) c ∗ restS1 (F := F) c) := by
  unfold restS1 scAny Pipeline.ΦA
  rw [scopedRest1_eq]
  simp only [owns_whole]
  exact take_three _ _ _ _ _ _ _ _ _ _ _ _ _ _

/-- The three scratch buffers at some contents and the rest make the class invariant. -/
theorem PhiA1_join (c : Dev nD) : iprop(scAny (F := F) c ∗ restS1 (F := F) c) ⊢ (Pipeline.ΦA spec1 c : sProp 𝕄) := by
  unfold restS1
  iintro ⟨Hs, Hw⟩
  iapply Hw
  iexact Hs

end Cert.KernelIdeal.Hand

end
-- ==== Proof.KI.R1.lean ====
/-
  Region 1's body, run at any grid point, by the case of its three branch conditions; the carried scratch enters and leaves through the region's invariant.
-/
import proofs.«408005_j88158498718040_3_alg».proof.Proof.KI.R1Facts
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Whole-buffer stores and loads -/

/-- The zero offsets of a rank-two and of a rank-three buffer, as the body spells them. -/
theorem off2_zero : (![0, 0] : Fin 2 → Nat) = fun _ => 0 := funext fun a => by fin_cases a <;> rfl
theorem off3_zero : (![0, 0, 0] : Fin 3 → Nat) = fun _ => 0 := funext fun a => by fin_cases a <;> rfl

/-- A buffer whose last store covers it whole reads as that store's payload, whatever was stored before. -/
theorem read_last_whole {sg : RefSig} {κ : Kind} {sp : Space} {S : Shape} {e : EltTy} (v : View sg κ sp S e)
    (f : v.ty.Contents (Elt F)) {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon _ _ _ (fun y => ⟨_, List.mem_cons_self, View.mem_set_unit_zero hz inb y⟩)).trans
    (View.canon_cons_unit_zero hz inb w L)

/-! ## One step of the carried scratch, by the case of the first two conditions -/

/-- The carried scratch after a point that resets and updates: the update applied to what the reset stores. -/
theorem scStep_reset_update (i : grid1.Coords) (q : Vec F S1x512x1024 .bf16) (k v : Vec F S1x256x1024 .bf16) (s : Sc F)
    (h0 : cond1_0 i) (h1 : cond1_1 i) :
    scStep i q k v s = (k1_pay5 (k1_pay9 (qw i) (kw i) q k k1_pay1), k1_pay12 (qw i) (kw i) q k k1_pay1 k1_pay2,
      k1_pay4 (k1_pay7 v) (k1_pay10 (qw i) (kw i) q k k1_pay1) (k1_pay11 (qw i) (kw i) q k k1_pay1) k1_pay3) := by
  unfold scStep scReset; simp only [if_pos h0, if_pos h1]

/-- after a point that only updates: the update applied to what the point before left. -/
theorem scStep_update (i : grid1.Coords) (q : Vec F S1x512x1024 .bf16) (k v : Vec F S1x256x1024 .bf16) (s : Sc F)
    (h0 : ¬cond1_0 i) (h1 : cond1_1 i) :
    scStep i q k v s = (k1_pay5 (k1_pay9 (qw i) (kw i) q k s.1), k1_pay12 (qw i) (kw i) q k s.1 s.2.1,
      k1_pay4 (k1_pay7 v) (k1_pay10 (qw i) (kw i) q k s.1) (k1_pay11 (qw i) (kw i) q k s.1) s.2.2) := by
  unfold scStep; simp only [if_neg h0, if_pos h1]

/-- after a point that neither resets nor updates: what the point before left. -/
theorem scStep_skip (i : grid1.Coords) (q : Vec F S1x512x1024 .bf16) (k v : Vec F S1x256x1024 .bf16) (s : Sc F)
    (h0 : ¬cond1_0 i) (h1 : ¬cond1_1 i) : scStep i q k v s = s := by
  unfold scStep; simp only [if_neg h0, if_neg h1]

/-! ## The body's triple in each of the five cases the grid meets

Each is stated on any whole memrefs: the four inputs at given contents, and returned so; the three scratch buffers
returned at one step of the carried scratch; the output buffer either kept as found or stored the residual block plus
the quotient. -/

set_option maxHeartbeats 4000000 in
/-- The body at a point of key tile 0: it stores the reset values into the three scratch buffers (whatever they held), updates them from the query, key and value blocks, and leaves the output buffer as it found it. -/
theorem run_reset_update (c : Dev nD) (E : Set ℕ) (i : grid1.Coords)
    (arg3 : Memref sig .tc .vmem S1x512x1024 .bf16) (harg3 : arg3.IsWhole) (arg4 : Memref sig .tc .vmem S1x256x1024 .bf16) (harg4 : arg4.IsWhole)
    (arg5 : Memref sig .tc .vmem S1x256x1024 .bf16) (harg5 : arg5.IsWhole) (arg6 : Memref sig .tc .vmem S1x512x1024 .f32) (harg6 : arg6.IsWhole)
    (arg7 : Memref sig .tc .vmem S1x512x1024 .f32) (harg7 : arg7.IsWhole) (arg8 : Memref sig .tc .vmem S512x1 .f32) (harg8 : arg8.IsWhole)
    (arg9 : Memref sig .tc .vmem S512x1 .f32) (harg9 : arg9.IsWhole) (arg10 : Memref sig .tc .vmem S512x1024 .f32) (harg10 : arg10.IsWhole)
    (hc0 : cond1_0 i) (hc1 : cond1_1 i) (hc2 : ¬cond1_2 i)
    (x0 : Vec F S1x512x1024 .bf16) (x1 x2 : Vec F S1x256x1024 .bf16) (x3 d4 : Vec F S1x512x1024 .f32) (s : Sc F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare d4
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare d4
            ∗ owns (c : Thread nD τ) arg8 fullShare (scStep i x0 x1 x2 s).1
            ∗ owns (c : Thread nD τ) arg9 fullShare (scStep i x0 x1 x2 s).2.1
            ∗ owns (c : Thread nD τ) arg10 fullShare (scStep i x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9 arg10 harg10) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, ⟨%d10, %f10, -, H10⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr
    swap; · iexact H8
    ipureintro
    refine (read_last_whole _ _ off2_zero _ _ _).trans ?_
    sl_unfold_words
    simp only [View.readAt_eq_ld, harg3.read_unread, harg4.read_unread, harg5.read_unread, harg6.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_reset_update i x0 x1 x2 s hc0 hc1]
  isplitl [H9]
  · iexists _; isplitr
    swap; · iexact H9
    ipureintro
    refine (read_last_whole _ _ off2_zero _ _ _).trans ?_
    sl_unfold_words
    simp only [View.readAt_eq_ld, harg3.read_unread, harg4.read_unread, harg5.read_unread, harg6.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_reset_update i x0 x1 x2 s hc0 hc1]
  · iexists _; isplitr
    swap; · iexact H10
    ipureintro
    refine (read_last_whole _ _ off2_zero _ _ _).trans ?_
    sl_unfold_words
    simp only [View.readAt_eq_ld, harg3.read_unread, harg4.read_unread, harg5.read_unread, harg6.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_reset_update i x0 x1 x2 s hc0 hc1]

set_option maxHeartbeats 4000000 in
/-- The body at a later key tile that starts before the query tile ends, not the last: it updates the three scratch buffers from what the point before left and leaves the output buffer as it found it. -/
theorem run_update (c : Dev nD) (E : Set ℕ) (i : grid1.Coords)
    (arg3 : Memref sig .tc .vmem S1x512x1024 .bf16) (harg3 : arg3.IsWhole) (arg4 : Memref sig .tc .vmem S1x256x1024 .bf16) (harg4 : arg4.IsWhole)
    (arg5 : Memref sig .tc .vmem S1x256x1024 .bf16) (harg5 : arg5.IsWhole) (arg6 : Memref sig .tc .vmem S1x512x1024 .f32) (harg6 : arg6.IsWhole)
    (arg7 : Memref sig .tc .vmem S1x512x1024 .f32) (harg7 : arg7.IsWhole) (arg8 : Memref sig .tc .vmem S512x1 .f32) (harg8 : arg8.IsWhole)
    (arg9 : Memref sig .tc .vmem S512x1 .f32) (harg9 : arg9.IsWhole) (arg10 : Memref sig .tc .vmem S512x1024 .f32) (harg10 : arg10.IsWhole)
    (hc0 : ¬cond1_0 i) (hc1 : cond1_1 i) (hc2 : ¬cond1_2 i)
    (x0 : Vec F S1x512x1024 .bf16) (x1 x2 : Vec F S1x256x1024 .bf16) (x3 d4 : Vec F S1x512x1024 .f32) (s : Sc F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare d4
        ∗ owns (c : Thread nD τ) arg8 fullShare s.1 ∗ owns (c : Thread nD τ) arg9 fullShare s.2.1 ∗ owns (c : Thread nD τ) arg10 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare d4
            ∗ owns (c : Thread nD τ) arg8 fullShare (scStep i x0 x1 x2 s).1
            ∗ owns (c : Thread nD τ) arg9 fullShare (scStep i x0 x1 x2 s).2.1
            ∗ owns (c : Thread nD τ) arg10 fullShare (scStep i x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9 arg10 harg10) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hf8; obtain rfl := harg9.eq_unread hf9; obtain rfl := harg10.eq_unread hf10
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr
    swap; · iexact H8
    ipureintro
    refine (read_last_whole _ _ off2_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]
  isplitl [H9]
  · iexists _; isplitr
    swap; · iexact H9
    ipureintro
    refine (read_last_whole _ _ off2_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]
  · iexists _; isplitr
    swap; · iexact H10
    ipureintro
    refine (read_last_whole _ _ off2_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]

set_option maxHeartbeats 4000000 in
/-- The body at a key tile past the query tile's end, not the last: every buffer is left as found. -/
theorem run_skip (c : Dev nD) (E : Set ℕ) (i : grid1.Coords)
    (arg3 : Memref sig .tc .vmem S1x512x1024 .bf16) (harg3 : arg3.IsWhole) (arg4 : Memref sig .tc .vmem S1x256x1024 .bf16) (harg4 : arg4.IsWhole)
    (arg5 : Memref sig .tc .vmem S1x256x1024 .bf16) (harg5 : arg5.IsWhole) (arg6 : Memref sig .tc .vmem S1x512x1024 .f32) (harg6 : arg6.IsWhole)
    (arg7 : Memref sig .tc .vmem S1x512x1024 .f32) (harg7 : arg7.IsWhole) (arg8 : Memref sig .tc .vmem S512x1 .f32) (harg8 : arg8.IsWhole)
    (arg9 : Memref sig .tc .vmem S512x1 .f32) (harg9 : arg9.IsWhole) (arg10 : Memref sig .tc .vmem S512x1024 .f32) (harg10 : arg10.IsWhole)
    (hc0 : ¬cond1_0 i) (hc1 : ¬cond1_1 i) (hc2 : ¬cond1_2 i)
    (x0 : Vec F S1x512x1024 .bf16) (x1 x2 : Vec F S1x256x1024 .bf16) (x3 d4 : Vec F S1x512x1024 .f32) (s : Sc F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare d4
        ∗ owns (c : Thread nD τ) arg8 fullShare s.1 ∗ owns (c : Thread nD τ) arg9 fullShare s.2.1 ∗ owns (c : Thread nD τ) arg10 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare d4
            ∗ owns (c : Thread nD τ) arg8 fullShare (scStep i x0 x1 x2 s).1
            ∗ owns (c : Thread nD τ) arg9 fullShare (scStep i x0 x1 x2 s).2.1
            ∗ owns (c : Thread nD τ) arg10 fullShare (scStep i x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9 arg10 harg10) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hf8; obtain rfl := harg9.eq_unread hf9; obtain rfl := harg10.eq_unread hf10
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H8]
  · iexists _; isplitr
    swap; · iexact H8
    ipureintro
    rw [scStep_skip i x0 x1 x2 s hc0 hc1]; exact harg8.read_unread _
  isplitl [H9]
  · iexists _; isplitr
    swap; · iexact H9
    ipureintro
    rw [scStep_skip i x0 x1 x2 s hc0 hc1]; exact harg9.read_unread _
  · iexists _; isplitr
    swap; · iexact H10
    ipureintro
    rw [scStep_skip i x0 x1 x2 s hc0 hc1]; exact harg10.read_unread _

set_option maxHeartbeats 4000000 in
/-- The body at the last key tile when that tile still starts before the query tile ends: it updates the three scratch buffers and stores into the output buffer the residual block plus the quotient of the updated weighted sum by the updated sum. -/
theorem run_update_finalize (c : Dev nD) (E : Set ℕ) (i : grid1.Coords)
    (arg3 : Memref sig .tc .vmem S1x512x1024 .bf16) (harg3 : arg3.IsWhole) (arg4 : Memref sig .tc .vmem S1x256x1024 .bf16) (harg4 : arg4.IsWhole)
    (arg5 : Memref sig .tc .vmem S1x256x1024 .bf16) (harg5 : arg5.IsWhole) (arg6 : Memref sig .tc .vmem S1x512x1024 .f32) (harg6 : arg6.IsWhole)
    (arg7 : Memref sig .tc .vmem S1x512x1024 .f32) (harg7 : arg7.IsWhole) (arg8 : Memref sig .tc .vmem S512x1 .f32) (harg8 : arg8.IsWhole)
    (arg9 : Memref sig .tc .vmem S512x1 .f32) (harg9 : arg9.IsWhole) (arg10 : Memref sig .tc .vmem S512x1024 .f32) (harg10 : arg10.IsWhole)
    (hc0 : ¬cond1_0 i) (hc1 : cond1_1 i) (hc2 : cond1_2 i)
    (x0 : Vec F S1x512x1024 .bf16) (x1 x2 : Vec F S1x256x1024 .bf16) (x3 : Vec F S1x512x1024 .f32) (s : Sc F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k1_pay6 x3 (scStep i x0 x1 x2 s).2.2 (scStep i x0 x1 x2 s).2.1)
            ∗ owns (c : Thread nD τ) arg8 fullShare (scStep i x0 x1 x2 s).1
            ∗ owns (c : Thread nD τ) arg9 fullShare (scStep i x0 x1 x2 s).2.1
            ∗ owns (c : Thread nD τ) arg10 fullShare (scStep i x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9 arg10 harg10) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%d7, %f4, -, H4⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3
  obtain rfl := harg8.eq_unread hf8; obtain rfl := harg9.eq_unread hf9; obtain rfl := harg10.eq_unread hf10
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    refine (read_last_whole _ _ off3_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]
  isplitl [H8]
  · iexists _; isplitr
    swap; · iexact H8
    ipureintro
    refine (read_last_whole _ _ off2_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]
  isplitl [H9]
  · iexists _; isplitr
    swap; · iexact H9
    ipureintro
    refine (read_last_whole _ _ off2_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]
  · iexists _; isplitr
    swap; · iexact H10
    ipureintro
    refine (read_last_whole _ _ off2_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_update i x0 x1 x2 s hc0 hc1]

set_option maxHeartbeats 4000000 in
/-- The body at the last key tile when that tile is past the query tile's end: the scratch buffers stay, and the output buffer is stored the residual block plus the quotient of the weighted sum by the sum. -/
theorem run_finalize (c : Dev nD) (E : Set ℕ) (i : grid1.Coords)
    (arg3 : Memref sig .tc .vmem S1x512x1024 .bf16) (harg3 : arg3.IsWhole) (arg4 : Memref sig .tc .vmem S1x256x1024 .bf16) (harg4 : arg4.IsWhole)
    (arg5 : Memref sig .tc .vmem S1x256x1024 .bf16) (harg5 : arg5.IsWhole) (arg6 : Memref sig .tc .vmem S1x512x1024 .f32) (harg6 : arg6.IsWhole)
    (arg7 : Memref sig .tc .vmem S1x512x1024 .f32) (harg7 : arg7.IsWhole) (arg8 : Memref sig .tc .vmem S512x1 .f32) (harg8 : arg8.IsWhole)
    (arg9 : Memref sig .tc .vmem S512x1 .f32) (harg9 : arg9.IsWhole) (arg10 : Memref sig .tc .vmem S512x1024 .f32) (harg10 : arg10.IsWhole)
    (hc0 : ¬cond1_0 i) (hc1 : ¬cond1_1 i) (hc2 : cond1_2 i)
    (x0 : Vec F S1x512x1024 .bf16) (x1 x2 : Vec F S1x256x1024 .bf16) (x3 : Vec F S1x512x1024 .f32) (s : Sc F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k1_pay6 x3 (scStep i x0 x1 x2 s).2.2 (scStep i x0 x1 x2 s).2.1)
            ∗ owns (c : Thread nD τ) arg8 fullShare (scStep i x0 x1 x2 s).1
            ∗ owns (c : Thread nD τ) arg9 fullShare (scStep i x0 x1 x2 s).2.1
            ∗ owns (c : Thread nD τ) arg10 fullShare (scStep i x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9 arg10 harg10) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%d7, %f4, -, H4⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3
  obtain rfl := harg8.eq_unread hf8; obtain rfl := harg9.eq_unread hf9; obtain rfl := harg10.eq_unread hf10
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    refine (read_last_whole _ _ off3_zero _ _ _).trans ?_
    sl_unfold_words
    simp only [View.readAt_eq_ld, harg3.read_unread, harg4.read_unread, harg5.read_unread, harg6.read_unread,
      harg8.read_unread, harg9.read_unread, harg10.read_unread,
      View.ld_unit_zero (S := S1x512x1024) off3_zero, View.ld_unit_zero (S := S1x256x1024) off3_zero,
      View.ld_unit_zero (S := S512x1) off2_zero, View.ld_unit_zero (S := S512x1024) off2_zero,
      View.readCov_unit_zero (S := S512x1) _ off2_zero, View.readCov_unit_zero (S := S512x1024) _ off2_zero]
    rw [scStep_skip i x0 x1 x2 s hc0 hc1]
  isplitl [H8]
  · iexists _; isplitr
    swap; · iexact H8
    ipureintro
    rw [scStep_skip i x0 x1 x2 s hc0 hc1]; exact harg8.read_unread _
  isplitl [H9]
  · iexists _; isplitr
    swap; · iexact H9
    ipureintro
    rw [scStep_skip i x0 x1 x2 s hc0 hc1]; exact harg9.read_unread _
  · iexists _; isplitr
    swap; · iexact H10
    ipureintro
    rw [scStep_skip i x0 x1 x2 s hc0 hc1]; exact harg10.read_unread _

/-! ## The body at a grid point -/

/-- Each window's staging memref in use at point "t", spelled as the pipeline passes it to the body, and its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)

/-- The carried scratch after the first point: one step from the reset values. -/
theorem scAt_first (c : Dev nD) (t : Fin cfg1.N) (hz : t.val = 0) :
    scAt V c t.val t.isLt = scStep (grid1.coords t) (iblk1 V c 0 t) (iblk1 V c 1 t) (iblk1 V c 2 t) scReset := by
  obtain ⟨n, hn⟩ := t
  cases n with
  | zero => rfl
  | succ n => exact absurd hz (Nat.succ_ne_zero n)

/-- The carried scratch after a later point: one step from what the point before left. -/
theorem scAt_later (c : Dev nD) (t : Fin cfg1.N) (hz : t.val ≠ 0) :
    scAt V c t.val t.isLt = scStep (grid1.coords t) (iblk1 V c 0 t) (iblk1 V c 1 t) (iblk1 V c 2 t)
      (scAt V c (t.val - 1) (Nat.lt_of_le_of_lt (Nat.sub_le _ _) t.isLt)) := by
  obtain ⟨n, hn⟩ := t
  cases n with
  | zero => exact absurd rfl hz
  | succ n => rfl

/-- At every point the carried scratch is one step from something. -/
theorem scAt_step (c : Dev nD) (t : Fin cfg1.N) :
    ∃ s, scAt V c t.val t.isLt = scStep (grid1.coords t) (iblk1 V c 0 t) (iblk1 V c 1 t) (iblk1 V c 2 t) s := by
  by_cases hz : t.val = 0
  · exact ⟨_, scAt_first V c t hz⟩
  · exact ⟨_, scAt_later V c t hz⟩

/-- Before any point the invariant holds the three scratch buffers at some contents, and the rest. -/
theorem PhiS1_any (c : Dev nD) (n : ℕ) (h : n ≤ cfg1.N) :
    PhiS1 V c n h ⊢ iprop((∃ d, owns (c : Thread nD τ) scM1_0 fullShare d) ∗ (∃ d, owns (c : Thread nD τ) scM1_1 fullShare d)
      ∗ (∃ d, owns (c : Thread nD τ) scM1_2 fullShare d) ∗ restS1 (F := F) c) := by
  cases n with
  | zero =>
    rw [PhiS1_zero V c 0 h rfl]
    refine BIBase.Entails.trans (PhiA1_split c) ?_
    unfold scAny
    iintro ⟨⟨H0, H1, H2⟩, Hr⟩
    isplitl [H0]; · iexact H0
    isplitl [H1]; · iexact H1
    isplitl [H2]; · iexact H2
    iexact Hr
  | succ n =>
    rw [PhiS1_succ]
    iintro ⟨H0, H1, H2, Hr⟩
    isplitl [H0]; · iexists _; iexact H0
    isplitl [H1]; · iexists _; iexact H1
    isplitl [H2]; · iexists _; iexact H2
    iexact Hr

/-- Each input window's staging buffer in use holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body is called with at point "t": the invariant, the core's debt, and the five staging buffers in use. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The four input buffers hold their blocks; the closed forms of the three conditions say which
    of the five cases the point is in. At key tile 0 the scratch buffers are taken at whatever they hold (the class
    invariant's at the first point, what the point before left otherwise) and the reset overwrites them; at a later key
    tile they are taken at what the point before left. The output buffer is stored at key tile 7 only, and elsewhere is
    handed back as found. The scratch buffers return at this point's step of the carried scratch. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [PhiS1_castSucc V c t]
  have hN : t.val < 128 := lt_of_lt_of_eq t.isLt (show cfg1.N = 128 from N_1)
  by_cases h0 : t.val % 8 = 0
  · have hc0 : cond1_0 (grid1.coords t) := (hcond1_0 t).mpr h0
    have hc1 : cond1_1 (grid1.coords t) := (hcond1_1 t).mpr (by omega)
    have hc2 : ¬cond1_2 (grid1.coords t) := fun h => by have := (hcond1_2 t).mp h; omega
    rw [Dat.leavesExact_idle (dat1 V c) 4 t (idleAt1_4 t hc2) (noFlush1_4 t hc2)]
    obtain ⟨s, hs⟩ := scAt_step V c t
    rw [hs]
    iintro ⟨HΦ, Ho, ⟨%d0, H0⟩, ⟨%d1, H1⟩, ⟨%d2, H2⟩, ⟨%d3, H3⟩, ⟨%d4, H4⟩⟩
    icases (PhiS1_any V c t.val (Nat.le_of_lt t.isLt)) $$ HΦ with ⟨⟨%e8, HS0⟩, ⟨%e9, HS1⟩, ⟨%e10, HS2⟩, Hr⟩
    iapply (run_reset_update c Set.univ (grid1.coords t) _ _ _ _ _ _ _ _ _ _ _ _ _ _ _ _ hc0 hc1 hc2
      (iblk1 V c 0 t) (iblk1 V c 1 t) (iblk1 V c 2 t) (iblk1 V c 3 t) _ s _)
    isplitl [H0]; · iexact H0
    isplitl [H1]; · iexact H1
    isplitl [H2]; · iexact H2
    isplitl [H3]; · iexact H3
    isplitl [H4]; · iexact H4
    isplitl [HS0]; · iexists _; iexact HS0
    isplitl [HS1]; · iexists _; iexact HS1
    isplitl [HS2]; · iexists _; iexact HS2
    iintro ⟨H0, H1, H2, H3, H4, HS0, HS1, HS2⟩
    isplitl [HS0 HS1 HS2 Hr]
    · isplitl [HS0]; · iexact HS0
      isplitl [HS1]; · iexact HS1
      isplitl [HS2]; · iexact HS2
      iexact Hr
    isplitl [Ho]; · iexact Ho
    isplitl [H0]; · iexact H0
    isplitl [H1]; · iexact H1
    isplitl [H2]; · iexact H2
    isplitl [H3]; · iexact H3
    iexists _; iexact H4
  · have hc0 : ¬cond1_0 (grid1.coords t) := fun h => h0 ((hcond1_0 t).mp h)
    have hz : t.val ≠ 0 := fun h => h0 (by rw [h])
    by_cases h1 : t.val % 8 < 2 * (t.val / 8 % 4 + 1)
    · have hc1 : cond1_1 (grid1.coords t) := (hcond1_1 t).mpr h1
      by_cases h2 : t.val % 8 = 7
      · have hc2 : cond1_2 (grid1.coords t) := (hcond1_2 t).mpr h2
        rw [show (dat1 V c).leavesExact 4 t = owns (c : Thread nD τ) (ms1_4 t) fullShare ((dat1 V c).after 4 t) from by
          unfold Dat.leavesExact; rw [liveAt1_4 t hc2], after1_4]
        unfold out1
        rw [scAt_later V c t hz, PhiS1_pos V c _ _ hz]
        iintro ⟨⟨HS0, HS1, HS2, Hr⟩, Ho, ⟨%d0, H0⟩, ⟨%d1, H1⟩, ⟨%d2, H2⟩, ⟨%d3, H3⟩, ⟨%d4, H4⟩⟩
        iapply (run_update_finalize c Set.univ (grid1.coords t) _ _ _ _ _ _ _ _ _ _ _ _ _ _ _ _ hc0 hc1 hc2
          (iblk1 V c 0 t) (iblk1 V c 1 t) (iblk1 V c 2 t) (iblk1 V c 3 t) (scAt V c (t.val - 1) (Nat.lt_of_le_of_lt (Nat.sub_le _ _) t.isLt)) _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0]; · iexact HS0
          isplitl [HS1]; · iexact HS1
          isplitl [HS2]; · iexact HS2
          iexact Hr
        isplitl [Ho]; · iexact Ho
        isplitl [H0]; · iexact H0
        isplitl [H1]; · iexact H1
        isplitl [H2]; · iexact H2
        isplitl [H3]; · iexact H3
        iexact H4
      · have hc2 : ¬cond1_2 (grid1.coords t) := fun h => h2 ((hcond1_2 t).mp h)
        rw [Dat.leavesExact_idle (dat1 V c) 4 t (idleAt1_4 t hc2) (noFlush1_4 t hc2)]
        rw [scAt_later V c t hz, PhiS1_pos V c _ _ hz]
        iintro ⟨⟨HS0, HS1, HS2, Hr⟩, Ho, ⟨%d0, H0⟩, ⟨%d1, H1⟩, ⟨%d2, H2⟩, ⟨%d3, H3⟩, ⟨%d4, H4⟩⟩
        iapply (run_update c Set.univ (grid1.coords t) _ _ _ _ _ _ _ _ _ _ _ _ _ _ _ _ hc0 hc1 hc2
          (iblk1 V c 0 t) (iblk1 V c 1 t) (iblk1 V c 2 t) (iblk1 V c 3 t) _ (scAt V c (t.val - 1) (Nat.lt_of_le_of_lt (Nat.sub_le _ _) t.isLt)) _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0]; · iexact HS0
          isplitl [HS1]; · iexact HS1
          isplitl [HS2]; · iexact HS2
          iexact Hr
        isplitl [Ho]; · iexact Ho
        isplitl [H0]; · iexact H0
        isplitl [H1]; · iexact H1
        isplitl [H2]; · iexact H2
        isplitl [H3]; · iexact H3
        iexists _; iexact H4
    · have hc1 : ¬cond1_1 (grid1.coords t) := fun h => h1 ((hcond1_1 t).mp h)
      by_cases h2 : t.val % 8 = 7
      · have hc2 : cond1_2 (grid1.coords t) := (hcond1_2 t).mpr h2
        rw [show (dat1 V c).leavesExact 4 t = owns (c : Thread nD τ) (ms1_4 t) fullShare ((dat1 V c).after 4 t) from by
          unfold Dat.leavesExact; rw [liveAt1_4 t hc2], after1_4]
        unfold out1
        rw [scAt_later V c t hz, PhiS1_pos V c _ _ hz]
        iintro ⟨⟨HS0, HS1, HS2, Hr⟩, Ho, ⟨%d0, H0⟩, ⟨%d1, H1⟩, ⟨%d2, H2⟩, ⟨%d3, H3⟩, ⟨%d4, H4⟩⟩
        iapply (run_finalize c Set.univ (grid1.coords t) _ _ _ _ _ _ _ _ _ _ _ _ _ _ _ _ hc0 hc1 hc2
          (iblk1 V c 0 t) (iblk1 V c 1 t) (iblk1 V c 2 t) (iblk1 V c 3 t) (scAt V c (t.val - 1) (Nat.lt_of_le_of_lt (Nat.sub_le _ _) t.isLt)) _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0]; · iexact HS0
          isplitl [HS1]; · iexact HS1
          isplitl [HS2]; · iexact HS2
          iexact Hr
        isplitl [Ho]; · iexact Ho
        isplitl [H0]; · iexact H0
        isplitl [H1]; · iexact H1
        isplitl [H2]; · iexact H2
        isplitl [H3]; · iexact H3
        iexact H4
      · have hc2 : ¬cond1_2 (grid1.coords t) := fun h => h2 ((hcond1_2 t).mp h)
        rw [Dat.leavesExact_idle (dat1 V c) 4 t (idleAt1_4 t hc2) (noFlush1_4 t hc2)]
        rw [scAt_later V c t hz, PhiS1_pos V c _ _ hz]
        iintro ⟨⟨HS0, HS1, HS2, Hr⟩, Ho, ⟨%d0, H0⟩, ⟨%d1, H1⟩, ⟨%d2, H2⟩, ⟨%d3, H3⟩, ⟨%d4, H4⟩⟩
        iapply (run_skip c Set.univ (grid1.coords t) _ _ _ _ _ _ _ _ _ _ _ _ _ _ _ _ hc0 hc1 hc2
          (iblk1 V c 0 t) (iblk1 V c 1 t) (iblk1 V c 2 t) (iblk1 V c 3 t) _ (scAt V c (t.val - 1) (Nat.lt_of_le_of_lt (Nat.sub_le _ _) t.isLt)) _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, HS0, HS1, HS2⟩
        isplitl [HS0 HS1 HS2 Hr]
        · isplitl [HS0]; · iexact HS0
          isplitl [HS1]; · iexact HS1
          isplitl [HS2]; · iexact HS2
          iexact Hr
        isplitl [Ho]; · iexact Ho
        isplitl [H0]; · iexact H0
        isplitl [H1]; · iexact H1
        isplitl [H2]; · iexact H2
        isplitl [H3]; · iexact H3
        iexists _; iexact H4

/-- The body obligation of region 1 at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  refine BIBase.Entails.trans ?_ (PhiA1_join c)
  unfold scAny
  iintro ⟨H0, H1, H2, Hr⟩
  isplitr [Hr]
  · isplitl [H0]; · iexists _; iexact H0
    isplitl [H1]; · iexists _; iexact H1
    iexists _; iexact H2
  iexact Hr

end Cert.KernelIdeal.Hand

end
-- ==== Proof.KI.R2.lean ====
/-
  Region 2's body, run at any grid point: the seven input blocks are read, the output block stored.
-/
import proofs.«408005_j88158498718040_3_alg».proof.Proof.KI.Core
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The inputs' staging buffers

An input window's current staging buffer holds its block at every point, fetched there or not: where it is not
fetched its block index has not moved since the point before, and the body leaves the block in place. The rows' window
is fetched at every point; the two weight matrices, the two biases, the scale and the shift at the first point only. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_1 (c : Dev nD) (t : Fin cfg2.N) (d) : (dat2 V c).before 1 t d = iblk2 V c 1 t :=
  before2_1_of V (dat2 V c) (A_eq2 V c 1) (after2_1 V c) t d

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_2 (c : Dev nD) (t : Fin cfg2.N) (d) : (dat2 V c).before 2 t d = iblk2 V c 2 t :=
  before2_2_of V (dat2 V c) (A_eq2 V c 2) (after2_2 V c) t d

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_3 (c : Dev nD) (t : Fin cfg2.N) (d) : (dat2 V c).before 3 t d = iblk2 V c 3 t :=
  before2_3_of V (dat2 V c) (A_eq2 V c 3) (after2_3 V c) t d

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_4 (c : Dev nD) (t : Fin cfg2.N) (d) : (dat2 V c).before 4 t d = iblk2 V c 4 t :=
  before2_4_of V (dat2 V c) (A_eq2 V c 4) (after2_4 V c) t d

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_5 (c : Dev nD) (t : Fin cfg2.N) (d) : (dat2 V c).before 5 t d = iblk2 V c 5 t :=
  before2_5_of V (dat2 V c) (A_eq2 V c 5) (after2_5 V c) t d

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_6 (c : Dev nD) (t : Fin cfg2.N) (d) : (dat2 V c).before 6 t d = iblk2 V c 6 t :=
  before2_6_of V (dat2 V c) (A_eq2 V c 6) (after2_6 V c) t d

/-! ## The body's accesses -/

/-- The whole row block (and the whole output block): the unit rectangle at offset zero. -/
abbrev rBlk2 : Rect S512x1024 := Rect.unit (s := S512x1024) ![0, 0] S512x1024.size inb_S512x1024_S512x1024_0_0

/-- The offsets of a whole-buffer access of rank two, all zero. -/
theorem offsets2_zero_rank2 : (![0, 0] : Fin 2 → Nat) = fun _ => 0 := funext fun a => by fin_cases a <;> rfl
/-- The offsets of a whole-buffer access of rank one, all zero. -/
theorem offsets2_zero_rank1 : (![0] : Fin 1 → Nat) = fun _ => 0 := funext fun a => by fin_cases a; rfl

/-- The one store of the body is of the whole output block, so it covers it. -/
theorem cover2_7 (p0 : Vec F S512x1024 .f32) (y : S512x1024.Idx) :
    ∃ pc ∈ ([⟨rBlk2, p0⟩] : List (View.Piece (Elt F) S512x1024 .f32)), y ∈ pc.1.set :=
  ⟨_, List.mem_singleton_self _, View.mem_set_unit_zero (S := S512x1024) offsets2_zero_rank2 inb_S512x1024_S512x1024_0_0 y⟩

/-! ## The body's triple -/

set_option maxHeartbeats 1000000 in
/-- The kernel body on whole staging memrefs, the seven inputs' at contents x0 … x6 and the output's at anything, runs
    to the continuation holding the inputs' as they were and the output's at "out2" of the seven. -/
theorem sound_kernel2 (c : Dev nD) (E : Set ℕ) (i : grid2.Coords) (arg1 : Memref sig .tc .vmem S512x1024 .f32) (harg1 : arg1.IsWhole) (arg2 : Memref sig .tc .vmem S1024x1024 .bf16) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S512x1024 .f32) (harg8 : arg8.IsWhole)
    (x0 : Vec F S512x1024 .f32) (x1 : Vec F S1024x1024 .bf16) (x2 : Vec F S1024 .f32) (x3 : Vec F S1024x1024 .bf16) (x4 : Vec F S1024 .f32) (x5 : Vec F S1024 .f32) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2 x0 x1 x2 x3 x4 x5 x6)) -∗ K ⟨⟩))
      ⊢ wp frame (wpE (defs₀ (F := F)) Variants.none c none) E (cc2__ffn_ln_kernel i arg1 harg1 arg2 harg2 arg3 harg3 arg4 harg4 arg5 harg5 arg6 harg6 arg7 harg7 arg8 harg8) K := by
  simp only [cc2__ffn_ln_kernel_eq_skeleton]; unfold cc2__ffn_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  -- the first sixty statements are their skeleton of memory operations over payloads
  rw [k2_part1_eq_skeleton]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover2_7 _)]
  rw [View.canon_unit_zero (S := S512x1024) offsets2_zero_rank2 inb_S512x1024_S512x1024_0_0]
  unfold sound_kernel2.sl.r sound_kernel2.sl.r_1
  simp only [View.readAt_eq_ld, View.ld_unit_zero (S := S512x1024) offsets2_zero_rank2, View.ld_unit_zero (S := S1024x1024) offsets2_zero_rank2,
    View.ld_unit_zero (S := S1024) offsets2_zero_rank1]
  unfold out2
  rfl

/-! ## The body obligation, at a generic point -/

/-- What the body is called with at point "t" (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the kernel's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of region 2 at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the whole entry function: its seven items as segments (four host stretches, three kernel regions), each
  entered from what the one before it left, launched from any memory with zero counters; every weakly fair execution
  terminates and the final memory holds every unscoped buffer at the last boundary's contents.
-/
import proofs.«408005_j88158498718040_3_alg».proof.Proof.KI.Fold
import proofs.«408005_j88158498718040_3_alg».proof.Proof.KI.R0
import proofs.«408005_j88158498718040_3_alg».proof.Proof.KI.R1
import proofs.«408005_j88158498718040_3_alg».proof.Proof.KI.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What every segment shares -/

/-- No variant is declared. -/
abbrev noVariants : Variants := Variants.none
/-- No core owes another anything: no pair has a level. -/
abbrev noLevels : GSem nD τ sig → Finset Unit := fun _ => ∅
abbrev levelOf : GSem nD τ sig → Unit → ℕ := fun _ _ => 0

/-- What rides beside the unscoped buffers through all seven items: the core's generator register at some state (a
    region's class invariant takes it in and gives it back) and the core's dues, at nothing. -/
abbrev riding (c : Dev nD) : sProp 𝕄 :=
  iprop((∃ r, prngReg c r) ∗ ∃ W, owes (c : Thread nD τ) (0 : CellTallies nD τ sig Unit) W)

/-- A host stretch as a segment: its operations run over the unscoped buffers from the contents "W" to those
    contents after the operations, the register and the dues riding along. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- None of the twelve operations before region 0 (reshape, transposes, truncations, the concatenation) allocates. -/
theorem stretch0_no_alloc : (hostOps0 : List (HloOp τ sig (Elt F))).Forall fun op => op.fresh = ∅ := by
  simp only [List.Forall]; repeat' constructor
/-- Nor do the three reshapes between regions 0 and 1, -/
theorem stretch1_no_alloc : (hostOps1 : List (HloOp τ sig (Elt F))).Forall fun op => op.fresh = ∅ := by
  simp only [List.Forall]; repeat' constructor
/-- the reshape between regions 1 and 2, -/
theorem stretch2_no_alloc : (hostOps2 : List (HloOp τ sig (Elt F))).Forall fun op => op.fresh = ∅ := by
  simp only [List.Forall]; repeat' constructor
/-- or the reshape after region 2. -/
theorem stretch3_no_alloc : (hostOps3 : List (HloOp τ sig (Elt F))).Forall fun op => op.fresh = ∅ := by
  simp only [List.Forall]; repeat' constructor

/-- What a core holds at the return, apart from its dues: every unscoped buffer at the contents after the last reshape,
    the generator register at some state. -/
abbrev atReturn (c : Dev nD) : sProp 𝕄 :=
  iprop(StableHlo.held (c : Thread nD τ) (Pipeline.ucRefs τ sig) (W7 m ρ c) ∗ ∃ r, prngReg c r)

/-! ## The three regions as segments -/

set_option backward.isDefEq.respectTransparency.types false in
/-- REGION 0, the packed projection: entered from every unscoped buffer at the contents after the first stretch, left with
    its three outputs at what its write-backs give and everything else as found. No semaphore of its own, nothing owed. -/
def projRegion : Pipeline.RegionSeg (pcfgs (F := F)) adm (pdats m ρ) () defs₀ noVariants noLevels levelOf 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noLevels levelOf 0 fun _ _ => rfl
  pre c := iprop(StableHlo.held (c : Thread nD τ) (Pipeline.ucRefs τ sig) (W1 m ρ c) ∗ riding c)
  post c := iprop(StableHlo.held (c : Thread nD τ) (Pipeline.ucRefs τ sig) (W2 m ρ c) ∗ riding c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    -- the unscoped buffers split into the region's arrays and the others; the register and the dues are sorted out of what rides
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hbufs, Hreg, Hdues⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Hdues]
    · unfold Pipeline.Dat.owesAt Pipeline.owesWithin
      icases Hdues with ⟨%W, Hdues⟩; iexists W; isplitr; · ipureintro; exact fun _ _ => Or.inl trivial
      iexact Hdues
    isplitl [Hreg]; · iexact Hreg
    iexact Hothers
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    -- the arrays at what the write-backs leave, with the others untouched, are the unscoped buffers at the exit contents
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Harr, Hdues, Hreg, Hothers⟩
    imodintro
    isplitl [Harr Hothers]
    · iapply hjoin; isplitl [Harr] <;> iassumption
    isplitl [Hreg]; · iexact Hreg
    unfold Pipeline.Dat.owesAt Pipeline.owesWithin
    icases Hdues with ⟨%W, -, Hdues⟩; iexists W; iexact Hdues

set_option backward.isDefEq.respectTransparency.types false in
/-- REGION 1, the causal attention: entered from the contents after the three reshapes, left with its output at what its
    write-backs give. Its invariant is the carried scratch's; the class invariant enters it before the first point and
    comes back after the last. -/
def attnRegion : Pipeline.RegionSeg (pcfgs (F := F)) adm (pdats m ρ) () defs₀ noVariants noLevels levelOf 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noLevels levelOf 1 fun _ _ => rfl
  pre c := iprop(StableHlo.held (c : Thread nD τ) (Pipeline.ucRefs τ sig) (W3 m ρ c) ∗ riding c)
  post c := iprop(StableHlo.held (c : Thread nD τ) (Pipeline.ucRefs τ sig) (W4 m ρ c) ∗ riding c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    -- the unscoped buffers split into the region's arrays and the others; the register and the dues are sorted out of what rides
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hbufs, Hreg, Hdues⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Hdues]
    · unfold Pipeline.Dat.owesAt Pipeline.owesWithin
      icases Hdues with ⟨%W, Hdues⟩; iexists W; isplitr; · ipureintro; exact fun _ _ => Or.inl trivial
      iexact Hdues
    isplitl [Hreg]; · iexact Hreg
    iexact Hothers
  hin c := by
    -- the class invariant is assembled first; the region's own invariant before the first point follows from it
    refine BIBase.Entails.trans ?_ (hin1 (V3 m ρ) c)
    unfold Pipeline.ΦA
    iintro ⟨Hreg, -, Hscoped⟩
    isplitl [Hscoped]; · iexact Hscoped
    iexact Hreg
  hout c := by
    -- after the last point the region's invariant gives the class invariant back, which is then taken apart
    refine BIBase.Entails.trans (hout1 (V3 m ρ) c) ?_
    rw [Pipeline.ownSems0_none]; unfold Pipeline.ΦA
    iintro ⟨Hscoped, Hreg⟩
    isplitl [Hreg]; · iexact Hreg
    isplitr; · iempintro
    iexact Hscoped
  hexit c := by
    -- the arrays at what the write-backs leave, with the others untouched, are the unscoped buffers at the exit contents
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Harr, Hdues, Hreg, Hothers⟩
    imodintro
    isplitl [Harr Hothers]
    · iapply hjoin; isplitl [Harr] <;> iassumption
    isplitl [Hreg]; · iexact Hreg
    unfold Pipeline.Dat.owesAt Pipeline.owesWithin
    icases Hdues with ⟨%W, -, Hdues⟩; iexists W; iexact Hdues

set_option backward.isDefEq.respectTransparency.types false in
/-- REGION 2, the normalized feed-forward: entered from the contents after the reshape of the attention's output, left
    with its output at what its write-backs give. -/
def ffnRegion : Pipeline.RegionSeg (pcfgs (F := F)) adm (pdats m ρ) () defs₀ noVariants noLevels levelOf 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ noLevels levelOf 2 fun _ _ => rfl
  pre c := iprop(StableHlo.held (c : Thread nD τ) (Pipeline.ucRefs τ sig) (W5 m ρ c) ∗ riding c)
  post c := iprop(StableHlo.held (c : Thread nD τ) (Pipeline.ucRefs τ sig) (W6 m ρ c) ∗ riding c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    -- the unscoped buffers split into the region's arrays and the others; the register and the dues are sorted out of what rides
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hbufs, Hreg, Hdues⟩, -, -⟩
    ihave Hparts := hsplit $$ Hbufs
    icases Hparts with ⟨Harr, Hothers⟩
    imodintro
    isplitl [Harr]; · iexact Harr
    isplitr; · unfold Pipeline.prefHeld; rw [show (Finset.univ : Finset (Fin 0)) = ∅ from rfl, BI.bigSep_empty]; iempintro
    isplitl [Hdues]
    · unfold Pipeline.Dat.owesAt Pipeline.owesWithin
      icases Hdues with ⟨%W, Hdues⟩; iexists W; isplitr; · ipureintro; exact fun _ _ => Or.inl trivial
      iexact Hdues
    isplitl [Hreg]; · iexact Hreg
    iexact Hothers
  hin c := by
    rw [show (pdats m ρ 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m ρ 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    -- the arrays at what the write-backs leave, with the others untouched, are the unscoped buffers at the exit contents
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Harr, Hdues, Hreg, Hothers⟩
    imodintro
    isplitl [Harr Hothers]
    · iapply hjoin; isplitl [Harr] <;> iassumption
    isplitl [Hreg]; · iexact Hreg
    unfold Pipeline.Dat.owesAt Pipeline.owesWithin
    icases Hdues with ⟨%W, -, Hdues⟩; iexists W; iexact Hdues

/-! ## The entry function as its seven segments, and the launch -/

/-- The seven items in order. -/
abbrev items : List (Pipeline.Seg (pcfgs (F := F)) adm (pdats m ρ) () defs₀ noVariants noLevels levelOf) :=
  [ .host (stretch hostOps0 hostOps0_sub stretch0_no_alloc (W0 m ρ)),
    .region (projRegion m ρ),
    .host (stretch hostOps1 hostOps1_sub stretch1_no_alloc (W2 m ρ)),
    .region (attnRegion m ρ),
    .host (stretch hostOps2 hostOps2_sub stretch2_no_alloc (W4 m ρ)),
    .region (ffnRegion m ρ),
    .host (stretch hostOps3 hostOps3_sub stretch3_no_alloc (W6 m ρ)) ]

/-- The entry function is the run of the seven items. -/
theorem main_is_items (c : Dev nD) : main (F := F) c = Pipeline.Seg.run (items m ρ) :=
  main_segs adm (pdats m ρ) () noVariants noLevels levelOf _ _ _ _ _ _ _ rfl rfl rfl rfl c

set_option backward.isDefEq.respectTransparency.types false in
/-- THE RUN: every weakly fair execution of the entry function terminates, nothing faulting, and its final memory holds
    every unscoped buffer of every core at the last boundary's contents. -/
theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ noVariants noLevels levelOf m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the staging cells' own; no core gets a ghost resource besides
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := atReturn m ρ)
    (hch := ⟨fun _ => .rfl, fun _ => .rfl, fun _ => .rfl, fun _ => .rfl, fun _ => .rfl, fun _ => .rfl, fun _ => .rfl,
      fun c => by
        -- after the last stretch: the buffers and the register on one side, the dues on the other
        show iprop(StableHlo.held (c : Thread nD τ) (Pipeline.ucRefs τ sig) (W7 m ρ c) ∗ riding c)
          ⊢ iprop(atReturn m ρ c ∗ ∃ W, owes (c : Thread nD τ) (0 : CellTallies nD τ sig Unit) W)
        iintro ⟨Hbufs, Hreg, Hdues⟩
        isplitl [Hbufs Hreg]
        · isplitl [Hbufs] <;> iassumption
        iexact Hdues⟩)
    (hinit := by
      -- each core makes its first state alone: the launch memory's unscoped buffers, its register, its dues at nothing
      refine Pipeline.initEach noLevels levelOf fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdues, -, Hreg, -⟩, -⟩
      imodintro
      isplitl [Hbufs]; · iexact Hbufs
      isplitl [Hreg]; · iexists _; iexact Hreg
      iexists ∅; iexact Hdues)
    (QY := fun c s => ∀ b ∈ Pipeline.ucRefs τ sig, s.mem (((c : Thread nD τ)).1, b) = W7 m ρ c b)
    (hfin := fun c s' => by
      -- the buffers held at the return, read against the final state
      iintro ⟨⟨Hbufs, -⟩, HSI⟩
      unfold StableHlo.held
      imodintro
      iapply (pointsTo_read_all (Pipeline.ucRefs τ sig) (fun b => (((c : Thread nD τ)).1, b)) (W7 m ρ c) s')
      isplitl [Hbufs] <;> iassumption)
    (hQ := fun s h => hQ s h)

end Cert.KernelIdeal.Hand

end
-- ==== Proof.KI.Chain.lean ====
/-
  What the boundary contents hold at the buffers the regions and the return read: each host stretch's results read
  back through the fold (a reshape of a region's output array, a transposed and narrowed weight matrix, the packed
  weights), each argument as launched.
-/
import proofs.«408005_j88158498718040_3_alg».proof.Proof.KI.Fold
import proofs.«408005_j88158498718040_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each item leaves in place -/

/-- The launch contents read at a TensorCore reference. -/
theorem W0_eq (c : Dev nD) (r : Ref sig .tc) : W0 m ρ c (Proc.devRef .tc r) = m ((c : Thread nD τ).loc r) := rfl

/-- A host stretch leaves a buffer none of its operations writes as it found it. -/
theorem W1_keeps (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_keeps (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_keeps (c : Dev nD) (r : Ref sig .tc) (h : r ∉ hostOps2_W) :
    W5 m ρ c (Proc.devRef .tc r) = W4 m ρ c (Proc.devRef .tc r) :=
  StableHlo.after_of_writes_sub hostOps2 _ hostOps2_writes h
theorem W7_keeps (c : Dev nD) (r : Ref sig .tc) (h : r ∉ hostOps3_W) :
    W7 m ρ c (Proc.devRef .tc r) = W6 m ρ c (Proc.devRef .tc r) :=
  StableHlo.after_of_writes_sub hostOps3 _ hostOps3_writes h

/-- A region leaves the array of an input window as it found it: an input array is never written back. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- A buffer that no stretch so far writes and that is no array of a region so far holds what was launched. -/
theorem W1_launch (c : Dev nD) (r : Ref sig .tc) (h0 : r ∉ hostOps0_W) :
    W1 m ρ c (Proc.devRef .tc r) = m ((c : Thread nD τ).loc r) :=
  (W1_keeps m ρ c r h0).trans (W0_eq m ρ c r)
theorem W3_launch (c : Dev nD) (r : Ref sig .tc) (h0 : r ∉ hostOps0_W) (hs0 : ∀ w, Pipeline.arrRef spec0 w ≠ r)
    (h1 : r ∉ hostOps1_W) : W3 m ρ c (Proc.devRef .tc r) = m ((c : Thread nD τ).loc r) :=
  (W3_keeps m ρ c r h1).trans ((W2_of_ne m ρ c r hs0).trans (W1_launch m ρ c r h0))
theorem W5_launch (c : Dev nD) (r : Ref sig .tc) (h0 : r ∉ hostOps0_W) (hs0 : ∀ w, Pipeline.arrRef spec0 w ≠ r)
    (h1 : r ∉ hostOps1_W) (hs1 : ∀ w, Pipeline.arrRef spec1 w ≠ r) (h2 : r ∉ hostOps2_W) :
    W5 m ρ c (Proc.devRef .tc r) = m ((c : Thread nD τ).loc r) :=
  (W5_keeps m ρ c r h2).trans ((W4_of_ne m ρ c r hs1).trans (W3_launch m ρ c r h0 hs0 h1))
theorem W7_launch (c : Dev nD) (r : Ref sig .tc) (h0 : r ∉ hostOps0_W) (hs0 : ∀ w, Pipeline.arrRef spec0 w ≠ r)
    (h1 : r ∉ hostOps1_W) (hs1 : ∀ w, Pipeline.arrRef spec1 w ≠ r) (h2 : r ∉ hostOps2_W)
    (hs2 : ∀ w, Pipeline.arrRef spec2 w ≠ r) (h3 : r ∉ hostOps3_W) :
    W7 m ρ c (Proc.devRef .tc r) = m ((c : Thread nD τ).loc r) :=
  (W7_keeps m ρ c r h3).trans ((W6_of_ne m ρ c r hs2).trans (W5_launch m ρ c r h0 hs0 h1 hs1 h2))

/-! ## Region 1's and region 2's entries at the arguments they read -/

theorem V3_main_arg0 (c : Dev nD) : V3 m ρ c main_arg0 = m ((c : Thread nD τ).loc main_arg0) :=
  W3_launch m ρ c main_arg0 (by decide) (by decide) (by decide)

theorem V5_main_arg5 (c : Dev nD) : V5 m ρ c main_arg5 = m ((c : Thread nD τ).loc main_arg5) :=
  W5_launch m ρ c main_arg5 (by decide) (by decide) (by decide) (by decide) (by decide)
theorem V5_main_arg7 (c : Dev nD) : V5 m ρ c main_arg7 = m ((c : Thread nD τ).loc main_arg7) :=
  W5_launch m ρ c main_arg7 (by decide) (by decide) (by decide) (by decide) (by decide)
theorem V5_main_arg8 (c : Dev nD) : V5 m ρ c main_arg8 = m ((c : Thread nD τ).loc main_arg8) :=
  W5_launch m ρ c main_arg8 (by decide) (by decide) (by decide) (by decide) (by decide)
theorem V5_main_arg9 (c : Dev nD) : V5 m ρ c main_arg9 = m ((c : Thread nD τ).loc main_arg9) :=
  W5_launch m ρ c main_arg9 (by decide) (by decide) (by decide) (by decide) (by decide)

/-- The residual input is staged by region 1 through an input window, which leaves it in place. -/
theorem W5_main_arg0 (c : Dev nD) : W5 m ρ c (Proc.devRef .tc main_arg0) = m ((c : Thread nD τ).loc main_arg0) :=
  (W5_keeps m ρ c main_arg0 (by decide)).trans ((W4_in m ρ c 3 rfl).trans (V3_main_arg0 m ρ c))

/-! ## No item writes an argument: each reaches every boundary as launched -/

theorem W7_main_arg0 (c : Dev nD) : W7 m ρ c (Proc.devRef .tc main_arg0) = m ((c : Thread nD τ).loc main_arg0) :=
  (W7_keeps m ρ c main_arg0 (by decide)).trans ((W6_of_ne m ρ c main_arg0 (by decide)).trans (W5_main_arg0 m ρ c))
theorem W7_main_arg1 (c : Dev nD) : W7 m ρ c (Proc.devRef .tc main_arg1) = m ((c : Thread nD τ).loc main_arg1) :=
  W7_launch m ρ c main_arg1 (by decide) (by decide) (by decide) (by decide) (by decide) (by decide) (by decide)
theorem W7_main_arg2 (c : Dev nD) : W7 m ρ c (Proc.devRef .tc main_arg2) = m ((c : Thread nD τ).loc main_arg2) :=
  W7_launch m ρ c main_arg2 (by decide) (by decide) (by decide) (by decide) (by decide) (by decide) (by decide)
theorem W7_main_arg3 (c : Dev nD) : W7 m ρ c (Proc.devRef .tc main_arg3) = m ((c : Thread nD τ).loc main_arg3) :=
  W7_launch m ρ c main_arg3 (by decide) (by decide) (by decide) (by decide) (by decide) (by decide) (by decide)
theorem W7_main_arg4 (c : Dev nD) : W7 m ρ c (Proc.devRef .tc main_arg4) = m ((c : Thread nD τ).loc main_arg4) :=
  W7_launch m ρ c main_arg4 (by decide) (by decide) (by decide) (by decide) (by decide) (by decide) (by decide)
/-- Region 2 stages the four vectors (two biases, scale, shift) through input windows, which leave them in place. -/
theorem W7_main_arg5 (c : Dev nD) : W7 m ρ c (Proc.devRef .tc main_arg5) = m ((c : Thread nD τ).loc main_arg5) :=
  (W7_keeps m ρ c main_arg5 (by decide)).trans ((W6_in m ρ c 2 rfl).trans (V5_main_arg5 m ρ c))
theorem W7_main_arg6 (c : Dev nD) : W7 m ρ c (Proc.devRef .tc main_arg6) = m ((c : Thread nD τ).loc main_arg6) :=
  W7_launch m ρ c main_arg6 (by decide) (by decide) (by decide) (by decide) (by decide) (by decide) (by decide)
theorem W7_main_arg7 (c : Dev nD) : W7 m ρ c (Proc.devRef .tc main_arg7) = m ((c : Thread nD τ).loc main_arg7) :=
  (W7_keeps m ρ c main_arg7 (by decide)).trans ((W6_in m ρ c 4 rfl).trans (V5_main_arg7 m ρ c))
theorem W7_main_arg8 (c : Dev nD) : W7 m ρ c (Proc.devRef .tc main_arg8) = m ((c : Thread nD τ).loc main_arg8) :=
  (W7_keeps m ρ c main_arg8 (by decide)).trans ((W6_in m ρ c 5 rfl).trans (V5_main_arg8 m ρ c))
theorem W7_main_arg9 (c : Dev nD) : W7 m ρ c (Proc.devRef .tc main_arg9) = m ((c : Thread nD τ).loc main_arg9) :=
  (W7_keeps m ρ c main_arg9 (by decide)).trans ((W6_in m ρ c 6 rfl).trans (V5_main_arg9 m ρ c))

/-! ## Region 0's entry (after the first host stretch) -/

/-- The flattened input. -/
theorem V1_main_v0 (c : Dev nD) : V1 m ρ c main_v0
    = shapeCast S8192x1024 (m ((c : Thread nD τ).loc main_arg0)) shapeCasts_S4x2048x1024_S8192x1024 := by
  show StableHlo.after hostOps0 _ (Proc.devRef .tc main_v0) = _
  after_results
  rfl

/-- A weight matrix transposed and narrowed, as the first host stretch leaves it. -/
def wT (w : Vec F S1024x1024 .f32) : Vec F S1024x1024 .bf16 :=
  truncf .bf16 (transpose S1024x1024 [1, 0] w transposes_S1024x1024_S1024x1024_1_0) bitsLt_bf16_f32

/-- Each of the five narrowed transposes read back after the first host stretch. -/
theorem W1_main_v2 (c : Dev nD) : W1 m ρ c (Proc.devRef .tc main_v2) = wT (m ((c : Thread nD τ).loc main_arg1)) := by
  show StableHlo.after hostOps0 _ (Proc.devRef .tc main_v2) = _
  after_results
  rfl
theorem W1_main_v4 (c : Dev nD) : W1 m ρ c (Proc.devRef .tc main_v4) = wT (m ((c : Thread nD τ).loc main_arg2)) := by
  show StableHlo.after hostOps0 _ (Proc.devRef .tc main_v4) = _
  after_results
  rfl
theorem W1_main_v6 (c : Dev nD) : W1 m ρ c (Proc.devRef .tc main_v6) = wT (m ((c : Thread nD τ).loc main_arg3)) := by
  show StableHlo.after hostOps0 _ (Proc.devRef .tc main_v6) = _
  after_results
  rfl
theorem W1_main_v9 (c : Dev nD) : W1 m ρ c (Proc.devRef .tc main_v9) = wT (m ((c : Thread nD τ).loc main_arg4)) := by
  show StableHlo.after hostOps0 _ (Proc.devRef .tc main_v9) = _
  after_results
  rfl
theorem W1_main_v11 (c : Dev nD) : W1 m ρ c (Proc.devRef .tc main_v11) = wT (m ((c : Thread nD τ).loc main_arg6)) := by
  show StableHlo.after hostOps0 _ (Proc.devRef .tc main_v11) = _
  after_results
  rfl

/-- The packed weights: the three transposed, narrowed projection matrices side by side. -/
theorem V1_main_v7 (c : Dev nD) : V1 m ρ c main_v7
    = concatenate S1024x3072 1 [⟨S1024x1024, wT (m ((c : Thread nD τ).loc main_arg1))⟩, ⟨S1024x1024, wT (m ((c : Thread nD τ).loc main_arg2))⟩,
        ⟨S1024x1024, wT (m ((c : Thread nD τ).loc main_arg3))⟩] concatenates_S1024x1024_S1024x1024_S1024x1024_S1024x3072_d1 := by
  show StableHlo.after hostOps0 _ (Proc.devRef .tc main_v7) = _
  after_results
  dsimp only [Matrix.cons_val]
  repeat (first
    | rw [StableHlo.unary_result]
    | (rw [StableHlo.unary_result_ne]; rotate_left; decide)
    | (rw [StableHlo.reshape_result_ne]; rotate_left; decide))
  rfl

/-! ## Region 1's entry (after region 0 and the second host stretch) -/

theorem V3_main_v13 (c : Dev nD) : V3 m ρ c main_v13
    = shapeCast S4x2048x1024 ((dat0 (V1 m ρ) c).arrAt 2 cfg0.N) shapeCasts_S8192x1024_S4x2048x1024 := by
  show StableHlo.after hostOps1 _ (Proc.devRef .tc main_v13) = _
  after_results
  rw [show W2 m ρ c (Proc.devRef .tc main_v12_0) = _ from W2_arr m ρ c 2]
  rfl
theorem V3_main_v14 (c : Dev nD) : V3 m ρ c main_v14
    = shapeCast S4x2048x1024 ((dat0 (V1 m ρ) c).arrAt 3 cfg0.N) shapeCasts_S8192x1024_S4x2048x1024 := by
  show StableHlo.after hostOps1 _ (Proc.devRef .tc main_v14) = _
  after_results
  rw [show W2 m ρ c (Proc.devRef .tc main_v12_1) = _ from W2_arr m ρ c 3]
  rfl
theorem V3_main_v15 (c : Dev nD) : V3 m ρ c main_v15
    = shapeCast S4x2048x1024 ((dat0 (V1 m ρ) c).arrAt 4 cfg0.N) shapeCasts_S8192x1024_S4x2048x1024 := by
  show StableHlo.after hostOps1 _ (Proc.devRef .tc main_v15) = _
  after_results
  rw [show W2 m ρ c (Proc.devRef .tc main_v12_2) = _ from W2_arr m ρ c 4]
  rfl

/-! ## Region 2's entry (after region 1 and the third host stretch) -/

theorem V5_main_v17 (c : Dev nD) : V5 m ρ c main_v17
    = shapeCast S8192x1024 ((dat1 (V3 m ρ) c).arrAt 4 cfg1.N) shapeCasts_S4x2048x1024_S8192x1024 := by
  show StableHlo.after hostOps2 _ (Proc.devRef .tc main_v17) = _
  after_results
  rw [show W4 m ρ c (Proc.devRef .tc main_v16) = _ from W4_arr m ρ c 4]
  rfl
/-- The two feed-forward weight matrices were transposed and narrowed by the first host stretch; nothing since writes them. -/
theorem V5_main_v9 (c : Dev nD) : V5 m ρ c main_v9 = wT (m ((c : Thread nD τ).loc main_arg4)) :=
  (W5_keeps m ρ c main_v9 (by decide)).trans <| (W4_of_ne m ρ c main_v9 (by decide)).trans <|
    (W3_keeps m ρ c main_v9 (by decide)).trans <| (W2_of_ne m ρ c main_v9 (by decide)).trans (W1_main_v9 m ρ c)
theorem V5_main_v11 (c : Dev nD) : V5 m ρ c main_v11 = wT (m ((c : Thread nD τ).loc main_arg6)) :=
  (W5_keeps m ρ c main_v11 (by decide)).trans <| (W4_of_ne m ρ c main_v11 (by decide)).trans <|
    (W3_keeps m ρ c main_v11 (by decide)).trans <| (W2_of_ne m ρ c main_v11 (by decide)).trans (W1_main_v11 m ρ c)

/-! ## The return -/

theorem W7_main_v19 (c : Dev nD) : W7 m ρ c (Proc.devRef .tc main_v19)
    = shapeCast S4x2048x1024 ((dat2 (V5 m ρ) c).arrAt 7 cfg2.N) shapeCasts_S8192x1024_S4x2048x1024 := by
  show StableHlo.after hostOps3 _ (Proc.devRef .tc main_v19) = _
  after_results
  rw [show W6 m ρ c (Proc.devRef .tc main_v18) = _ from W6_arr m ρ c 7]
  rfl

end Cert.KernelIdeal.Hand

end
-- ==== Proof.Spec.lean ====
/-
  The layer both programs compute, as one function of the argument arrays over the extended reals, index by index.

  With rows "x b s" of width 1024:  Q, K, V = x · Wqᵀ, x · Wkᵀ, x · Wvᵀ;  the score of query "q" against key "k" is
  (Q q · K k) / 32 for k ≤ q and −∞ for k > q;  each score row goes through a softmax (subtract the row maximum,
  exponentiate, divide by the row sum) and weights the rows of V;  the result is added to x, normalised (mean, variance,
  reciprocal square root, scale and shift), sent through relu(h · W1ᵀ + b1) · W2ᵀ + b2, added back and normalised again.
-/
import Idealize.ShloMosaic.PureOps.Ideal

noncomputable section

namespace Cert.Spec

open Idealize.ShloMosaic

/-- A batch of 4 sequences of 2048 rows of width 1024. -/
abbrev Rows : Type := Fin 4 → Fin 2048 → Fin 1024 → EReal
/-- A square weight matrix, "W e d": output feature e, input feature d. -/
abbrev Mat : Type := Fin 1024 → Fin 1024 → EReal
/-- A vector of width 1024. -/
abbrev Vec1 : Type := Fin 1024 → EReal

/-- The width 1024 and the variance offset, as the single-precision words both programs carry. -/
def cWidth : EReal := Ideal.ofBits .f32 0x44800000#32
def cEps : EReal := Ideal.ofBits .f32 0x3727C5AC#32

/-- A linear layer without bias: row times the transposed weights. -/
def proj (x : Rows) (W : Mat) : Rows := fun b s e => ∑ d : Fin 1024, x b s d * W e d

/-- The causally masked, scaled score of query row "q" against key row "k". -/
def score (Q K : Rows) (b : Fin 4) (q k : Fin 2048) : EReal :=
  if k.val ≤ q.val then (∑ d : Fin 1024, Q b q d * K b k d) * (((1 : ℝ) / 32 : ℝ) : EReal) else ⊥

/-- The maximum of a score row. -/
def rowMax (Q K : Rows) (b : Fin 4) (q : Fin 2048) : EReal := Finset.univ.sup (score Q K b q)

/-- The exponentiated, shifted scores and their row sum. -/
def expo (Q K : Rows) (b : Fin 4) (q k : Fin 2048) : EReal := Ideal.exp (score Q K b q k - rowMax Q K b q)
def rowSum (Q K : Rows) (b : Fin 4) (q : Fin 2048) : EReal := ∑ k : Fin 2048, expo Q K b q k

/-- Softmax attention: every value row weighted by its normalised exponentiated score. -/
def attend (Q K V : Rows) : Rows := fun b q d =>
  ∑ k : Fin 2048, Ideal.div (expo Q K b q k) (rowSum Q K b q) * V b k d

/-- Layer normalisation of one row, with scale "g" and shift "be". -/
def meanRow (r : Vec1) : EReal := Ideal.div (∑ e : Fin 1024, r e) cWidth
def varRow (r : Vec1) : EReal := Ideal.div (∑ e : Fin 1024, (r e - meanRow r) * (r e - meanRow r)) cWidth
def normRow (g be : Vec1) (r : Vec1) : Vec1 := fun d =>
  (r d - meanRow r) * Ideal.rsqrt (varRow r + cEps) * g d + be d

/-- The two-layer feed-forward block on one row. -/
def hiddenRow (W1 : Mat) (b1 : Vec1) (h : Vec1) : Vec1 := fun d => max ((∑ d' : Fin 1024, h d' * W1 d d') + b1 d) 0
def feedRow (W1 : Mat) (b1 : Vec1) (W2 : Mat) (b2 : Vec1) (h : Vec1) : Vec1 := fun e =>
  (∑ d : Fin 1024, hiddenRow W1 b1 h d * W2 e d) + b2 e

/-- Everything after the attention sub-layer, on one row: normalise, feed forward, add back, normalise. -/
def blockRow (W1 : Mat) (b1 : Vec1) (W2 : Mat) (b2 g be : Vec1) (s : Vec1) : Vec1 :=
  normRow g be (fun d => normRow g be s d + feedRow W1 b1 W2 b2 (normRow g be s) d)

/-- The attention sub-layer with its residual: what the second kernel region leaves. -/
def attnRes (x : Rows) (Wq Wk Wv : Mat) : Rows := fun b s d =>
  x b s d + attend (proj x Wq) (proj x Wk) (proj x Wv) b s d

/-- The whole layer. -/
def layer (x : Rows) (Wq Wk Wv W1 : Mat) (b1 : Vec1) (W2 : Mat) (b2 g be : Vec1) : Rows := fun b s =>
  blockRow W1 b1 W2 b2 g be (attnRes x Wq Wk Wv b s)

end Cert.Spec

end
-- ==== Proof.SpecIdx.lean ====
/-
  Arrays as the specification's functions: an array of shape 4 x 2048 x 1024, 1024 x 1024 or 1024 read at its coordinates.
-/
import proofs.«408005_j88158498718040_3_alg».proof.Proof.Spec
import Idealize.ShloMosaic.Lib.ValueIdx

noncomputable section

namespace Cert.Spec

open Idealize.ShloMosaic Idealize.ShloMosaic.ValueIdx

/-- An array of 4 x 2048 x 1024 extended reals as a batch of rows. -/
def rowsOf (a : (⟨3, ![4, 2048, 1024]⟩ : Shape).Idx → EReal) : Rows := fun b s d => a (ix3 b s d)
/-- A 1024 x 1024 array as a matrix. -/
def matOf (a : (⟨2, ![1024, 1024]⟩ : Shape).Idx → EReal) : Mat := fun e d => a (ix2 e d)
/-- A 1024 array as a vector. -/
def vecOf (a : (⟨1, ![1024]⟩ : Shape).Idx → EReal) : Vec1 := fun d => a (ix1 d)

end Cert.Spec

end
-- ==== Proof.KI.Arr.lean ====
/-
  The arrays each kernel region reads and writes, named at their literal types (at the ideal instance an element is an
  extended real), so that arithmetic on their entries is arithmetic on extended reals.
-/
import proofs.«408005_j88158498718040_3_alg».proof.Proof.KI.Core
import proofs.«408005_j88158498718040_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## Region 0: flattened input rows, packed weights; the three projections -/
abbrev in0X (c : Dev nD) : Vec Ideal S8192x1024 .f32 := V c main_v0
abbrev in0W (c : Dev nD) : Vec Ideal S1024x3072 .bf16 := V c main_v7
abbrev out0Q (c : Dev nD) : Vec Ideal S8192x1024 .bf16 := (dat0 (F := Ideal) V c).arrAt 2 cfg0.N
abbrev out0K (c : Dev nD) : Vec Ideal S8192x1024 .bf16 := (dat0 (F := Ideal) V c).arrAt 3 cfg0.N
abbrev out0V (c : Dev nD) : Vec Ideal S8192x1024 .bf16 := (dat0 (F := Ideal) V c).arrAt 4 cfg0.N

/-! ## Region 1: queries, keys, values, residual; the attention sub-layer's result -/
abbrev in1Q (c : Dev nD) : Vec Ideal S4x2048x1024 .bf16 := V c main_v13
abbrev in1K (c : Dev nD) : Vec Ideal S4x2048x1024 .bf16 := V c main_v14
abbrev in1V (c : Dev nD) : Vec Ideal S4x2048x1024 .bf16 := V c main_v15
abbrev in1X (c : Dev nD) : Vec Ideal S4x2048x1024 .f32 := V c main_arg0
abbrev out1A (c : Dev nD) : Vec Ideal S4x2048x1024 .f32 := (dat1 (F := Ideal) V c).arrAt 4 cfg1.N

/-! ## Region 2: rows, the two transposed weight matrices, the four vectors; the layer's result -/
abbrev in2S (c : Dev nD) : Vec Ideal S8192x1024 .f32 := V c main_v17
abbrev in2W1 (c : Dev nD) : Vec Ideal S1024x1024 .bf16 := V c main_v9
abbrev in2B1 (c : Dev nD) : Vec Ideal S1024 .f32 := V c main_arg5
abbrev in2W2 (c : Dev nD) : Vec Ideal S1024x1024 .bf16 := V c main_v11
abbrev in2B2 (c : Dev nD) : Vec Ideal S1024 .f32 := V c main_arg7
abbrev in2G (c : Dev nD) : Vec Ideal S1024 .f32 := V c main_arg8
abbrev in2Be (c : Dev nD) : Vec Ideal S1024 .f32 := V c main_arg9
abbrev out2A (c : Dev nD) : Vec Ideal S8192x1024 .f32 := (dat2 (F := Ideal) V c).arrAt 7 cfg2.N

end Cert.KernelIdeal.Hand

end
-- ==== Proof.KI.Val0.lean ====
/-
  Region 0's three output arrays after the region, index by index: row r of the flattened input times a column of the
  packed weights — column e for the first array, 1024 + e for the second, 2048 + e for the third.
-/
import proofs.«408005_j88158498718040_3_alg».proof.Proof.KI.Core
import proofs.«408005_j88158498718040_3_alg».proof.Proof.Spec
import proofs.«408005_j88158498718040_3_alg».proof.Proof.KI.Arr
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The product's index maps, coordinate by coordinate -/

/-- The left operand is read at the result's row, -/
theorem lhs0_row (j : S512x3072.Idx) (k : dot_S512x1024_S1024x3072_S512x3072_1_0_0_1_n_n.contr.Idx) :
    (dot_S512x1024_S1024x3072_S512x3072_1_0_0_1_n_n.lhsIdx j k 0).val = (j 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl
/-- and at the contraction position on its columns; -/
theorem lhs0_col (j : S512x3072.Idx) (k : dot_S512x1024_S1024x3072_S512x3072_1_0_0_1_n_n.contr.Idx) :
    (dot_S512x1024_S1024x3072_S512x3072_1_0_0_1_n_n.lhsIdx j k 1).val = (k ⟨0, by decide⟩).val :=
  dot_S512x1024_S1024x3072_S512x3072_1_0_0_1_n_n.lhsIdx_val_of_single rfl j k
/-- the right operand at the contraction position on its rows, -/
theorem rhs0_row (j : S512x3072.Idx) (k : dot_S512x1024_S1024x3072_S512x3072_1_0_0_1_n_n.contr.Idx) :
    (dot_S512x1024_S1024x3072_S512x3072_1_0_0_1_n_n.rhsIdx j k 0).val = (k ⟨0, by decide⟩).val :=
  dot_S512x1024_S1024x3072_S512x3072_1_0_0_1_n_n.rhsIdx_val_of_single rfl j k
/-- and at the result's column. -/
theorem rhs0_col (j : S512x3072.Idx) (k : dot_S512x1024_S1024x3072_S512x3072_1_0_0_1_n_n.contr.Idx) :
    (dot_S512x1024_S1024x3072_S512x3072_1_0_0_1_n_n.rhsIdx j k 1).val = (j 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-! ## The body's payloads at an index -/

/-- The product of a row block with the packed weights, at row "p" and column "q": the sum over the 1024 inner
    positions (at the ideal instance the rounding of the rows to the narrower format is the identity, and the
    accumulator starts at zero). -/
theorem proj_pay1_apply (x : Vec Ideal S512x1024 .f32) (w : Vec Ideal S1024x3072 .bf16) (p : Fin 512) (q : Fin 3072) :
    (k0_pay1 x w (ix2 p q) : EReal) = ∑ d : Fin 1024, (x (ix2 p d) : EReal) * (w (ix2 d q) : EReal) := by
  unfold k0_pay1
  simp only [matmul]
  rw [Ideal.matmul_constant_zero_apply,
    ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q)
      ((contrEquiv1 dot_S512x1024_S1024x3072_S512x3072_1_0_0_1_n_n 1024 rfl rfl).symm k) = ix2 p k :=
    funext fun a => Fin.ext (by
      match a with
      | ⟨0, _⟩ => exact lhs0_row _ _
      | ⟨1, _⟩ => exact (lhs0_col _ _).trans hk)
  have er : dot_S512x1024_S1024x3072_S512x3072_1_0_0_1_n_n.rhsIdx (ix2 p q)
      ((contrEquiv1 dot_S512x1024_S1024x3072_S512x3072_1_0_0_1_n_n 1024 rfl rfl).symm k) = ix2 k q :=
    funext fun a => Fin.ext (by
      match a with
      | ⟨0, _⟩ => exact (rhs0_row _ _).trans hk
      | ⟨1, _⟩ => exact rhs0_col _ _)
  rw [el, er, truncf_apply, shapeCast_self, shapeCast_self]

/-- Output "j"'s payload (j = 0, 1, 2) at row "p" and column "q" is the product at column "1024 j + q": the column
    third is cut out of the product, and the last rounding is the identity at the ideal instance. -/
theorem proj_pay2_apply (x : Vec Ideal S512x1024 .f32) (w : Vec Ideal S1024x3072 .bf16) (p : Fin 512) (q : Fin 1024) :
    (k0_pay2 x w (ix2 p q) : EReal)
      = ∑ d : Fin 1024, (x (ix2 p d) : EReal) * (w (ix2 d (⟨0 + q.val, by omega⟩ : Fin 3072)) : EReal) := by
  unfold k0_pay2
  rw [truncf_apply]
  refine (extractStridedSlice_apply _ _ _ (ix2 p q) (ix2 p (⟨0 + q.val, by omega⟩ : Fin 3072)) fun a => ?_).trans (proj_pay1_apply x w p _)
  match a with
  | ⟨0, _⟩ => show p.val = 0 + p.val; omega
  | ⟨1, _⟩ => show 0 + q.val = 0 + q.val; rfl

theorem proj_pay3_apply (x : Vec Ideal S512x1024 .f32) (w : Vec Ideal S1024x3072 .bf16) (p : Fin 512) (q : Fin 1024) :
    (k0_pay3 x w (ix2 p q) : EReal)
      = ∑ d : Fin 1024, (x (ix2 p d) : EReal) * (w (ix2 d (⟨1024 + q.val, by omega⟩ : Fin 3072)) : EReal) := by
  unfold k0_pay3
  rw [truncf_apply]
  refine (extractStridedSlice_apply _ _ _ (ix2 p q) (ix2 p (⟨1024 + q.val, by omega⟩ : Fin 3072)) fun a => ?_).trans (proj_pay1_apply x w p _)
  match a with
  | ⟨0, _⟩ => show p.val = 0 + p.val; omega
  | ⟨1, _⟩ => show 1024 + q.val = 1024 + q.val; rfl

theorem proj_pay4_apply (x : Vec Ideal S512x1024 .f32) (w : Vec Ideal S1024x3072 .bf16) (p : Fin 512) (q : Fin 1024) :
    (k0_pay4 x w (ix2 p q) : EReal)
      = ∑ d : Fin 1024, (x (ix2 p d) : EReal) * (w (ix2 d (⟨2048 + q.val, by omega⟩ : Fin 3072)) : EReal) := by
  unfold k0_pay4
  rw [truncf_apply]
  refine (extractStridedSlice_apply _ _ _ (ix2 p q) (ix2 p (⟨2048 + q.val, by omega⟩ : Fin 3072)) fun a => ?_).trans (proj_pay1_apply x w p _)
  match a with
  | ⟨0, _⟩ => show p.val = 0 + p.val; omega
  | ⟨1, _⟩ => show 2048 + q.val = 2048 + q.val; rfl

/-! ## The windows' blocks as rows of the arrays -/

/-- The printed index maps over the grid: the row block and the three outputs are at block row "t", first block column;
    the packed weights are always at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The row block at point "t" is rows "512 t … 512 t + 511" of the flattened input. -/
theorem rows0_apply (c : Dev nD) (t : Fin cfg0.N) (p : Fin 512) (d : Fin 1024) (k : S8192x1024.Idx)
    (hk0 : (k 0).val = 512 * t.val + p.val) (hk1 : (k 1).val = d.val) :
    (iblk0 V c 0 t : Vec Ideal S512x1024 .f32) (ix2 p d) = in0X V c k := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 512 + 1 * p.val = (k 0).val; rw [e0, hk0]; omega
  | ⟨1, _⟩ => show win0_0.index t (1 : Fin 2) * 1024 + 1 * d.val = (k 1).val; rw [e1, hk1]; omega

/-- The weights' block at every point is the whole packed weight matrix. -/
theorem weights0_apply (c : Dev nD) (t : Fin cfg0.N) (j : S1024x3072.Idx) :
    (iblk0 V c 1 t : Vec Ideal S1024x3072 .bf16) j = in0W V c j := by
  obtain ⟨-, -, e2, e3, -⟩ := idx_facts0 t
  unfold iblk0
  rw [View.read_apply]
  show V c main_v7 _ = V c main_v7 _
  congr 1
  funext a
  apply Fin.ext
  match a with
  | ⟨0, _⟩ => show win0_1.index t (0 : Fin 2) * 1024 + 1 * (j 0).val = (j 0).val; rw [e2]; omega
  | ⟨1, _⟩ => show win0_1.index t (1 : Fin 2) * 3072 + 1 * (j 1).val = (j 1).val; rw [e3]; omega

/-! ## The arrays after the region -/

/-- Row "i 0" of the flattened input times column "o + i 1" of the packed weights, as an array over the output's
    indices. -/
def proj0 (c : Dev nD) (o : Nat) (ho : o + 1024 ≤ 3072) : Vec Ideal S8192x1024 .bf16 := fun i =>
  ∑ d : Fin 1024, (in0X V c (ix2 (⟨(i 0).val, idx2_lt0 i⟩ : Fin 8192) d) : EReal)
    * (in0W V c (ix2 d (⟨o + (i 1).val, by have := idx2_lt1 i; omega⟩ : Fin 3072)) : EReal)

/-- The sum over a row block "x" and a weight block "w", at row "p" and column "o + q", is that array at the index
    "i", when row "p" of "x" is row "i 0" of the flattened input, "w" is the packed weights, and "i 1" is "q". -/
theorem proj0_of_blocks (c : Dev nD) (o : Nat) (ho : o + 1024 ≤ 3072) (i : S8192x1024.Idx) (p : Fin 512) (q : Fin 1024)
    (x : Vec Ideal S512x1024 .f32) (w : Vec Ideal S1024x3072 .bf16)
    (hx : ∀ d : Fin 1024, x (ix2 p d) = in0X V c (ix2 (⟨(i 0).val, idx2_lt0 i⟩ : Fin 8192) d))
    (hw : ∀ j, w j = in0W V c j) (h1 : (i 1).val = q.val) :
    ∑ d : Fin 1024, (x (ix2 p d) : EReal) * (w (ix2 d (⟨o + q.val, by omega⟩ : Fin 3072)) : EReal)
      = proj0 V c o ho i := by
  unfold proj0
  refine Finset.sum_congr rfl fun d _ => ?_
  rw [hx, hw]
  have hq : (⟨o + q.val, by omega⟩ : Fin 3072) = ⟨o + (i 1).val, by have := idx2_lt1 i; omega⟩ := Fin.ext (by show o + q.val = o + (i 1).val; omega)
  rw [hq]

/-! ## Output window 2: columns 0 … 1023 of the product -/

/-- What point "t" writes back to the window's array is block "t" of the row-by-column sums. -/
theorem flushed0_2_eq (c : Dev nD) (t : Fin cfg0.N) :
    (dat0 V c).flushed 2 t = ((cfg0.win 2).blk t).view.read (Elt Ideal) (proj0 V c 0 (by omega)) := by
  show (cfg0.win 2).cut (grid0.coords t) ((dat0 V c).after 2 t) = _
  rw [after0_2]
  obtain ⟨-, -, -, -, eR, eC, -⟩ := idx_facts0 t
  funext j
  obtain ⟨p, q, rfl⟩ : ∃ (p : Fin 512) (q : Fin 1024), j = ix2 p q := ⟨j 0, j 1, eq_ix2 j⟩
  refine (proj_pay2_apply _ _ p q).trans ?_
  have h0 : ((((cfg0.win 2).blk t).view.emb (ix2 p q)) (0 : Fin 2)).val = 512 * t.val + p.val := by
    show win0_2.index t (0 : Fin 2) * 512 + 1 * p.val = _
    rw [eR]; omega
  have h1 : ((((cfg0.win 2).blk t).view.emb (ix2 p q)) (1 : Fin 2)).val = q.val := by
    show win0_2.index t (1 : Fin 2) * 1024 + 1 * q.val = _
    rw [eC]; omega
  show _ = proj0 V c 0 (by omega) (((cfg0.win 2).blk t).view.emb (ix2 p q))
  exact proj0_of_blocks V c 0 (by omega) _ p q _ _ (fun d => rows0_apply V c t p d _ h0 rfl) (weights0_apply V c t) h1

/-- An index of the array is in point "t"'s block iff each coordinate is in the block's range on its axis. -/
theorem mem_blk0_2 (t : Fin cfg0.N) (i : S8192x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v12_0).slice (win0_2.rect t)).set ↔ _
  rw [View.set_slice_whole, Rect.mem_set_unit]
  exact Iff.rfl

/-- Every index of the array is in the block of the point its row falls in. -/
theorem cover0_2 (i : S8192x1024.Idx) :
    ∃ t : Fin cfg0.N, (cfg0.win 2).flush t = true ∧ i ∈ ((cfg0.win 2).blk t).view.set := by
  have hi0 : (i 0).val < 8192 := idx2_lt0 i
  have hi1 : (i 1).val < 1024 := idx2_lt1 i
  have hN : cfg0.N = 16 := N_0
  obtain ⟨t, ht⟩ : ∃ t : Fin cfg0.N, t.val = (i 0).val / 512 := ⟨⟨(i 0).val / 512, by rw [hN]; omega⟩, rfl⟩
  obtain ⟨-, -, -, -, eR, eC, -⟩ := idx_facts0 t
  refine ⟨t, flush0_2 t, ?_⟩
  rw [mem_blk0_2]
  intro a
  match a with
  | ⟨0, _⟩ =>
    show win0_2.index t (0 : Fin 2) * 512 ≤ (i 0).val ∧ (i 0).val < win0_2.index t (0 : Fin 2) * 512 + 512
    rw [eR]; omega
  | ⟨1, _⟩ =>
    show win0_2.index t (1 : Fin 2) * 1024 ≤ (i 1).val ∧ (i 1).val < win0_2.index t (1 : Fin 2) * 1024 + 1024
    rw [eC]; omega

/-- So the array after the region is the row-by-column sums. -/
theorem final0_2 (c : Dev nD) : out0Q V c = proj0 V c 0 (by omega) :=
  (dat0 V c).arrAt_eq_of_cover 2 (proj0 V c 0 (by omega)) (fun t _ => flushed0_2_eq V c t) cover0_2

/-! ## Output window 3: columns 1024 … 2047 of the product -/

/-- What point "t" writes back to the window's array is block "t" of the row-by-column sums. -/
theorem flushed0_3_eq (c : Dev nD) (t : Fin cfg0.N) :
    (dat0 V c).flushed 3 t = ((cfg0.win 3).blk t).view.read (Elt Ideal) (proj0 V c 1024 (by omega)) := by
  show (cfg0.win 3).cut (grid0.coords t) ((dat0 V c).after 3 t) = _
  rw [after0_3]
  obtain ⟨-, -, -, -, -, -, eR, eC, -⟩ := idx_facts0 t
  funext j
  obtain ⟨p, q, rfl⟩ : ∃ (p : Fin 512) (q : Fin 1024), j = ix2 p q := ⟨j 0, j 1, eq_ix2 j⟩
  refine (proj_pay3_apply _ _ p q).trans ?_
  have h0 : ((((cfg0.win 3).blk t).view.emb (ix2 p q)) (0 : Fin 2)).val = 512 * t.val + p.val := by
    show win0_3.index t (0 : Fin 2) * 512 + 1 * p.val = _
    rw [eR]; omega
  have h1 : ((((cfg0.win 3).blk t).view.emb (ix2 p q)) (1 : Fin 2)).val = q.val := by
    show win0_3.index t (1 : Fin 2) * 1024 + 1 * q.val = _
    rw [eC]; omega
  show _ = proj0 V c 1024 (by omega) (((cfg0.win 3).blk t).view.emb (ix2 p q))
  exact proj0_of_blocks V c 1024 (by omega) _ p q _ _ (fun d => rows0_apply V c t p d _ h0 rfl) (weights0_apply V c t) h1

/-- An index of the array is in point "t"'s block iff each coordinate is in the block's range on its axis. -/
theorem mem_blk0_3 (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v12_1).slice (win0_3.rect t)).set ↔ _
  rw [View.set_slice_whole, Rect.mem_set_unit]
  exact Iff.rfl

/-- Every index of the array is in the block of the point its row falls in. -/
theorem cover0_3 (i : S8192x1024.Idx) :
    ∃ t : Fin cfg0.N, (cfg0.win 3).flush t = true ∧ i ∈ ((cfg0.win 3).blk t).view.set := by
  have hi0 : (i 0).val < 8192 := idx2_lt0 i
  have hi1 : (i 1).val < 1024 := idx2_lt1 i
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, eR, eC, -⟩ := idx_facts0 t
  refine ⟨t, flush0_3 t, ?_⟩
  rw [mem_blk0_3]
  intro a
  match a with
  | ⟨0, _⟩ =>
    show win0_3.index t (0 : Fin 2) * 512 ≤ (i 0).val ∧ (i 0).val < win0_3.index t (0 : Fin 2) * 512 + 512
    rw [eR]; omega
  | ⟨1, _⟩ =>
    show win0_3.index t (1 : Fin 2) * 1024 ≤ (i 1).val ∧ (i 1).val < win0_3.index t (1 : Fin 2) * 1024 + 1024
    rw [eC]; omega

/-- So the array after the region is the row-by-column sums. -/
theorem final0_3 (c : Dev nD) : out0K V c = proj0 V c 1024 (by omega) :=
  (dat0 V c).arrAt_eq_of_cover 3 (proj0 V c 1024 (by omega)) (fun t _ => flushed0_3_eq V c t) cover0_3

/-! ## Output window 4: columns 2048 … 3071 of the product -/

/-- What point "t" writes back to the window's array is block "t" of the row-by-column sums. -/
theorem flushed0_4_eq (c : Dev nD) (t : Fin cfg0.N) :
    (dat0 V c).flushed 4 t = ((cfg0.win 4).blk t).view.read (Elt Ideal) (proj0 V c 2048 (by omega)) := by
  show (cfg0.win 4).cut (grid0.coords t) ((dat0 V c).after 4 t) = _
  rw [after0_4]
  obtain ⟨-, -, -, -, -, -, -, -, eR, eC⟩ := idx_facts0 t
  funext j
  obtain ⟨p, q, rfl⟩ : ∃ (p : Fin 512) (q : Fin 1024), j = ix2 p q := ⟨j 0, j 1, eq_ix2 j⟩
  refine (proj_pay4_apply _ _ p q).trans ?_
  have h0 : ((((cfg0.win 4).blk t).view.emb (ix2 p q)) (0 : Fin 2)).val = 512 * t.val + p.val := by
    show win0_4.index t (0 : Fin 2) * 512 + 1 * p.val = _
    rw [eR]; omega
  have h1 : ((((cfg0.win 4).blk t).view.emb (ix2 p q)) (1 : Fin 2)).val = q.val := by
    show win0_4.index t (1 : Fin 2) * 1024 + 1 * q.val = _
    rw [eC]; omega
  show _ = proj0 V c 2048 (by omega) (((cfg0.win 4).blk t).view.emb (ix2 p q))
  exact proj0_of_blocks V c 2048 (by omega) _ p q _ _ (fun d => rows0_apply V c t p d _ h0 rfl) (weights0_apply V c t) h1

/-- An index of the array is in point "t"'s block iff each coordinate is in the block's range on its axis. -/
theorem mem_blk0_4 (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v12_2).slice (win0_4.rect t)).set ↔ _
  rw [View.set_slice_whole, Rect.mem_set_unit]
  exact Iff.rfl

/-- Every index of the array is in the block of the point its row falls in. -/
theorem cover0_4 (i : S8192x1024.Idx) :
    ∃ t : Fin cfg0.N, (cfg0.win 4).flush t = true ∧ i ∈ ((cfg0.win 4).blk t).view.set := by
  have hi0 : (i 0).val < 8192 := idx2_lt0 i
  have hi1 : (i 1).val < 1024 := idx2_lt1 i
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, -, -, eR, eC⟩ := idx_facts0 t
  refine ⟨t, flush0_4 t, ?_⟩
  rw [mem_blk0_4]
  intro a
  match a with
  | ⟨0, _⟩ =>
    show win0_4.index t (0 : Fin 2) * 512 ≤ (i 0).val ∧ (i 0).val < win0_4.index t (0 : Fin 2) * 512 + 512
    rw [eR]; omega
  | ⟨1, _⟩ =>
    show win0_4.index t (1 : Fin 2) * 1024 ≤ (i 1).val ∧ (i 1).val < win0_4.index t (1 : Fin 2) * 1024 + 1024
    rw [eC]; omega

/-- So the array after the region is the row-by-column sums. -/
theorem final0_4 (c : Dev nD) : out0V V c = proj0 V c 2048 (by omega) :=
  (dat0 V c).arrAt_eq_of_cover 4 (proj0 V c 2048 (by omega)) (fun t _ => flushed0_4_eq V c t) cover0_4

/-! ## The three arrays, entry by entry -/

theorem arr0_2 (c : Dev nD) (r : Fin 8192) (e : Fin 1024) :
    (out0Q V c (ix2 r e) : EReal)
      = ∑ d : Fin 1024, (in0X V c (ix2 r d) : EReal) * (in0W V c (ix2 d (⟨e.val, by omega⟩ : Fin 3072)) : EReal) := by
  rw [final0_2]
  show ∑ d : Fin 1024, (in0X V c (ix2 r d) : EReal) * (in0W V c (ix2 d (⟨0 + e.val, by omega⟩ : Fin 3072)) : EReal) = _
  simp only [Nat.zero_add]
theorem arr0_3 (c : Dev nD) (r : Fin 8192) (e : Fin 1024) :
    (out0K V c (ix2 r e) : EReal)
      = ∑ d : Fin 1024, (in0X V c (ix2 r d) : EReal) * (in0W V c (ix2 d (⟨1024 + e.val, by omega⟩ : Fin 3072)) : EReal) := by
  rw [final0_3]
  rfl
theorem arr0_4 (c : Dev nD) (r : Fin 8192) (e : Fin 1024) :
    (out0V V c (ix2 r e) : EReal)
      = ∑ d : Fin 1024, (in0X V c (ix2 r d) : EReal) * (in0W V c (ix2 d (⟨2048 + e.val, by omega⟩ : Fin 3072)) : EReal) := by
  rw [final0_4]
  rfl

end Cert.KernelIdeal.Hand

end
-- ==== Proof.KI.Val1Pay.lean ====
/-
  Region 1's payloads read at an index, at the ideal instance: the reset values; the masked, scaled score tile of a
  query block against a key block; the running maximum, the rescaling factor, the exponentiated tile, the running sum and
  the running weighted sum after one key tile; the finalised output block.
-/
import proofs.«408005_j88158498718040_3_alg».proof.Proof.KI.Core
import proofs.«408005_j88158498718040_3_alg».proof.Proof.Spec
import proofs.«408005_j88158498718040_3_alg».proof.Proof.KI.Arr
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The score of query row r of the query block against key row j of the key block, at query tile qi and key tile ki:
    the scaled dot product where the key's position 256·ki + j is not after the query's 512·qi + r, and −∞ where it is. -/
def tileScore (qi : Fin 4) (ki : Fin 8) (q : Vec Ideal S1x512x1024 .bf16) (k : Vec Ideal S1x256x1024 .bf16)
    (r : Fin 512) (j : Fin 256) : EReal :=
  if 256 * ki.val + j.val ≤ 512 * qi.val + r.val then
    (∑ d : Fin 1024, (q (ix3 (0 : Fin 1) r d) : EReal) * (k (ix3 (0 : Fin 1) j d) : EReal)) * (((1 : ℝ) / 32 : ℝ) : EReal)
  else ⊥

/-! ## The constants' values -/

/-- The word 0xFF800000 denotes −∞. -/
theorem ofBits_neg_inf : Ideal.ofBits .f32 0xFF800000#32 = ⊥ := by
  simp [Ideal.ofBits, Ideal.ieee]

/-- The word 0x3D000000 denotes 1/32. -/
theorem ofBits_inv32 : Ideal.ofBits .f32 0x3D000000#32 = (((1 : ℝ) / 32 : ℝ) : EReal) := by
  simp [Ideal.ofBits, Ideal.ieee, -EReal.coe_mul]; norm_num

/-- The mask's named constant denotes −∞. -/
theorem neg_big_bot : Named.named (F := Ideal) κ "neg_big" (φ := .f32) 0xFF333332#32 = (⊥ : EReal) :=
  IdealRules.named_const.ideal_named_scalar _ _ _ _ rfl

/-! ## The reset values, and the casts that move no element -/

theorem pay1_apply (r : Fin 512) : (k1_pay1 (F := Ideal) (ix2 r (0 : Fin 1)) : EReal) = ⊥ := by
  unfold k1_pay1
  simp only [shapeCast_self]
  exact ofBits_neg_inf

theorem pay2_apply (r : Fin 512) : (k1_pay2 (F := Ideal) (ix2 r (0 : Fin 1)) : EReal) = 0 := by
  unfold k1_pay2
  simp only [shapeCast_self]
  exact Ideal.ofBits_zero_f32

theorem pay3_apply (r : Fin 512) (d : Fin 1024) : (k1_pay3 (F := Ideal) (ix2 r d) : EReal) = 0 := by
  unfold k1_pay3
  simp only [shapeCast_self]
  exact Ideal.ofBits_zero_f32

theorem pay5_eq (x : Vec Ideal S512x1 .f32) : k1_pay5 (F := Ideal) x = x := by
  unfold k1_pay5
  exact shapeCast_self _ _

/-- A [1, n, m] block viewed [n, m] reads (0, a, b) at (a, b). -/
theorem dropLead_apply {α : Type} {n m : Nat} (v : (⟨3, ![1, n, m]⟩ : Shape).Idx → α)
    (h : (⟨3, ![1, n, m]⟩ : Shape).ShapeCasts ⟨2, ![n, m]⟩) (a : Fin n) (b : Fin m) :
    shapeCast ⟨2, ![n, m]⟩ v h (ix2 a b) = v (ix3 (0 : Fin 1) a b) := by
  refine shapeCast_apply v h (ix2 a b) (ix3 (0 : Fin 1) a b) ?_
  rw [Shape.rowMajor_val_three, Shape.rowMajor_val_two]
  show ((0 : ℕ) * n + a.val) * m + b.val = a.val * m + b.val
  rw [Nat.zero_mul, Nat.zero_add]

theorem pay7_apply (v : Vec Ideal S1x256x1024 .bf16) (j : Fin 256) (d : Fin 1024) :
    (k1_pay7 (F := Ideal) v (ix2 j d) : EReal) = v (ix3 (0 : Fin 1) j d) := by
  unfold k1_pay7
  exact dropLead_apply v _ j d

/-- An [n, m] array viewed as a [1, n, m] block reads (a, b) at (0, a, b). -/
theorem addLead_apply {α : Type} {n m : Nat} (v : (⟨2, ![n, m]⟩ : Shape).Idx → α)
    (h : (⟨2, ![n, m]⟩ : Shape).ShapeCasts ⟨3, ![1, n, m]⟩) (a : Fin n) (b : Fin m) :
    shapeCast ⟨3, ![1, n, m]⟩ v h (ix3 (0 : Fin 1) a b) = v (ix2 a b) := by
  refine shapeCast_apply v h (ix3 (0 : Fin 1) a b) (ix2 a b) ?_
  rw [Shape.rowMajor_val_three, Shape.rowMajor_val_two]
  show a.val * m + b.val = ((0 : ℕ) * n + a.val) * m + b.val
  rw [Nat.zero_mul, Nat.zero_add]

/-- A length-n vector viewed as an [n, 1] column reads a at (a, 0). -/
theorem addTrail_apply {α : Type} {n : Nat} (v : (⟨1, ![n]⟩ : Shape).Idx → α)
    (h : (⟨1, ![n]⟩ : Shape).ShapeCasts ⟨2, ![n, 1]⟩) (a : Fin n) :
    shapeCast ⟨2, ![n, 1]⟩ v h (ix2 a (0 : Fin 1)) = v (ix1 a) := by
  refine shapeCast_apply v h (ix2 a (0 : Fin 1)) (ix1 a) ?_
  rw [Shape.rowMajor_val_one, Shape.rowMajor_val_two]
  show a.val = a.val * 1 + 0
  omega

/-- A [512, 1] column broadcast along 256 lanes reads row r's entry at (r, j). -/
theorem colBroadcast256_apply {α : Type} (v : S512x1.Idx → α) (h : S512x1.Broadcasts S512x256) (r : Fin 512) (j : Fin 256) :
    broadcastTo S512x256 v h (ix2 r j) = v (ix2 r (0 : Fin 1)) := by
  refine broadcastTo_apply v h (ix2 r j) (ix2 r (0 : Fin 1)) fun a => ?_
  match a with
  | ⟨0, _⟩ => rfl
  | ⟨1, _⟩ => rfl

/-- A [512, 1] column broadcast along 1024 lanes reads row r's entry at (r, d). -/
theorem colBroadcast1024_apply {α : Type} (v : S512x1.Idx → α) (h : S512x1.Broadcasts S512x1024) (r : Fin 512) (d : Fin 1024) :
    broadcastTo S512x1024 v h (ix2 r d) = v (ix2 r (0 : Fin 1)) := by
  refine broadcastTo_apply v h (ix2 r d) (ix2 r (0 : Fin 1)) fun a => ?_
  match a with
  | ⟨0, _⟩ => rfl
  | ⟨1, _⟩ => rfl

/-- The index of a [512, 256] tile over row r whose lane coordinate is j. -/
theorem lane_lift (h : S512x256.Reduces [1] S512) (r : Fin 512) (j : Fin 256) : h.lift (ix1 r) j = ix2 r j := by
  funext a
  refine Fin.ext ?_
  match a with
  | ⟨0, _⟩ => rfl
  | ⟨1, _⟩ => rfl

/-! ## The causal compare on 32-bit words -/

/-- With qi < 4, ki < 8, r < 512, j < 256 neither side of the compare wraps: the signed compare of the two words is the
    compare of the two positions as natural numbers. -/
theorem causal_bit (qi : Fin 4) (ki : Fin 8) (r : Fin 512) (j : Fin 256) :
    IntOp.cmpi .sge (IntOp.addi (Scalar.muli (BitVec.ofNat 32 qi.val) 512#32) (BitVec.ofNat 32 r.val))
        (IntOp.addi (Scalar.muli (BitVec.ofNat 32 ki.val) 256#32) (BitVec.ofNat 32 j.val)) = 1#1
      ↔ 256 * ki.val + j.val ≤ 512 * qi.val + r.val := by
  have hq := qi.isLt; have hk := ki.isLt; have hr := r.isLt; have hj := j.isLt
  have ea : (IntOp.addi (Scalar.muli (BitVec.ofNat 32 qi.val) 512#32) (BitVec.ofNat 32 r.val)).toNat = 512 * qi.val + r.val := by
    show ((BitVec.ofNat 32 qi.val) * 512#32 + BitVec.ofNat 32 r.val).toNat = _
    simp only [BitVec.toNat_add, BitVec.toNat_mul, BitVec.toNat_ofNat]
    omega
  have eb : (IntOp.addi (Scalar.muli (BitVec.ofNat 32 ki.val) 256#32) (BitVec.ofNat 32 j.val)).toNat = 256 * ki.val + j.val := by
    show ((BitVec.ofNat 32 ki.val) * 256#32 + BitVec.ofNat 32 j.val).toNat = _
    simp only [BitVec.toNat_add, BitVec.toNat_mul, BitVec.toNat_ofNat]
    omega
  rw [StableHlo.Predicate.sge_iff_toNat (by rw [ea]; omega) (by rw [eb]; omega), ea, eb]

/-! ## The query block against the key block -/

theorem qk_lhs_0 (i : S512x256.Idx) (c : dot_S512x1024_S256x1024_S512x256_1_1_0_0_n_n.contr.Idx) :
    (dot_S512x1024_S256x1024_S512x256_1_1_0_0_n_n.lhsIdx i c 0).val = (i 0).val := by
  unfold DotDims.lhsIdx
  rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
  rfl
theorem qk_lhs_1 (i : S512x256.Idx) (c : dot_S512x1024_S256x1024_S512x256_1_1_0_0_n_n.contr.Idx) :
    (dot_S512x1024_S256x1024_S512x256_1_1_0_0_n_n.lhsIdx i c 1).val = (c ⟨0, by decide⟩).val :=
  dot_S512x1024_S256x1024_S512x256_1_1_0_0_n_n.lhsIdx_val_of_single rfl i c
theorem qk_rhs_0 (i : S512x256.Idx) (c : dot_S512x1024_S256x1024_S512x256_1_1_0_0_n_n.contr.Idx) :
    (dot_S512x1024_S256x1024_S512x256_1_1_0_0_n_n.rhsIdx i c 0).val = (i 1).val := by
  unfold DotDims.rhsIdx
  rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
  rfl
theorem qk_rhs_1 (i : S512x256.Idx) (c : dot_S512x1024_S256x1024_S512x256_1_1_0_0_n_n.contr.Idx) :
    (dot_S512x1024_S256x1024_S512x256_1_1_0_0_n_n.rhsIdx i c 1).val = (c ⟨0, by decide⟩).val :=
  dot_S512x1024_S256x1024_S512x256_1_1_0_0_n_n.rhsIdx_val_of_single rfl i c

/-- The product of the query block with the transposed key block into a zero accumulator, at (r, j): the dot product of
    query row r with key row j. -/
theorem qk_apply (q : Vec Ideal S1x512x1024 .bf16) (k : Vec Ideal S1x256x1024 .bf16) (r : Fin 512) (j : Fin 256) :
    (FloatOps.matmul dot_S512x1024_S256x1024_S512x256_1_1_0_0_n_n none
        (shapeCast S512x1024 q shapeCasts_S1x512x1024_S512x1024 : FVec Ideal S512x1024 .bf16)
        (shapeCast S256x1024 k shapeCasts_S1x256x1024_S256x1024 : FVec Ideal S256x1024 .bf16)
        (constant S512x256 .f32 0x00000000#32) (ix2 r j) : EReal)
      = ∑ d : Fin 1024, (q (ix3 (0 : Fin 1) r d) : EReal) * (k (ix3 (0 : Fin 1) j d) : EReal) := by
  rw [Ideal.matmul_constant_zero_apply, ← Equiv.sum_comp (contrEquiv1 dot_S512x1024_S256x1024_S512x256_1_1_0_0_n_n 1024 rfl rfl).symm]
  refine Finset.sum_congr rfl fun d _ => ?_
  have hd := contrEquiv1_symm_val dot_S512x1024_S256x1024_S512x256_1_1_0_0_n_n 1024 rfl rfl d
  have el : dot_S512x1024_S256x1024_S512x256_1_1_0_0_n_n.lhsIdx (ix2 r j) ((contrEquiv1 dot_S512x1024_S256x1024_S512x256_1_1_0_0_n_n 1024 rfl rfl).symm d) = ix2 r d := funext fun a => Fin.ext (by
    match a with
    | ⟨0, _⟩ => exact qk_lhs_0 _ _
    | ⟨1, _⟩ => exact (qk_lhs_1 _ _).trans hd)
  have er : dot_S512x1024_S256x1024_S512x256_1_1_0_0_n_n.rhsIdx (ix2 r j) ((contrEquiv1 dot_S512x1024_S256x1024_S512x256_1_1_0_0_n_n 1024 rfl rfl).symm d) = ix2 j d := funext fun a => Fin.ext (by
    match a with
    | ⟨0, _⟩ => exact qk_rhs_0 _ _
    | ⟨1, _⟩ => exact (qk_rhs_1 _ _).trans hd)
  rw [el, er, dropLead_apply, dropLead_apply]

theorem pay8_apply (qi : Fin 4) (ki : Fin 8) (q : Vec Ideal S1x512x1024 .bf16) (k : Vec Ideal S1x256x1024 .bf16)
    (r : Fin 512) (j : Fin 256) :
    (k1_pay8 (F := Ideal) (BitVec.ofNat 32 qi.val) (BitVec.ofNat 32 ki.val) q k (ix2 r j) : EReal) = tileScore qi ki q k r j := by
  unfold k1_pay8 tileScore
  simp only [matmul, select_apply, mulf_apply, broadcast_apply, cmpi, addi]
  have e0 : iota Kind.tc S512x256 32 [0] iota_S512x256_d0_w32 (ix2 r j) = BitVec.ofNat 32 r.val := iota_single_apply _ _ _ _ _ _
  have e1 : iota Kind.tc S512x256 32 [1] iota_S512x256_d1_w32 (ix2 r j) = BitVec.ofNat 32 j.val := iota_single_apply _ _ _ _ _ _
  rw [e0, e1, qk_apply, neg_big_bot]
  by_cases h : 256 * ki.val + j.val ≤ 512 * qi.val + r.val
  · rw [if_pos h, (causal_bit qi ki r j).mpr h, select_one]
    exact congrArg (_ * ·) ofBits_inv32
  · rw [if_neg h, eq_zero_of_ne_one (mt (causal_bit qi ki r j).mp h), select_zero]

/-! ## The running maximum, the rescaling factor, the exponentiated tile and the running sum after one key tile -/

theorem pay9_apply (qi : Fin 4) (ki : Fin 8) (q : Vec Ideal S1x512x1024 .bf16) (k : Vec Ideal S1x256x1024 .bf16)
    (m : Vec Ideal S512x1 .f32) (r : Fin 512) :
    (k1_pay9 (F := Ideal) (BitVec.ofNat 32 qi.val) (BitVec.ofNat 32 ki.val) q k m (ix2 r (0 : Fin 1)) : EReal)
      = max (m (ix2 r (0 : Fin 1)) : EReal) (Finset.univ.sup fun j : Fin 256 => tileScore qi ki q k r j) := by
  unfold k1_pay9
  simp only [maximumf_apply]
  rw [addTrail_apply]
  refine congrArg (max _) ?_
  refine (Ideal.multiReduction_maximumf_single _ _ _ _ _ _).trans ?_
  rw [Ideal.ofBits_def, ofBits_neg_inf]
  refine (Finset.fold_congr (g := fun j : Fin 256 => tileScore qi ki q k r j) fun j _ => ?_).trans rfl
  exact (congrArg _ (lane_lift _ r j)).trans (pay8_apply qi ki q k r j)

theorem pay10_apply (qi : Fin 4) (ki : Fin 8) (q : Vec Ideal S1x512x1024 .bf16) (k : Vec Ideal S1x256x1024 .bf16)
    (m : Vec Ideal S512x1 .f32) (r : Fin 512) :
    (k1_pay10 (F := Ideal) (BitVec.ofNat 32 qi.val) (BitVec.ofNat 32 ki.val) q k m (ix2 r (0 : Fin 1)) : EReal)
      = Ideal.exp ((m (ix2 r (0 : Fin 1)) : EReal)
          - (k1_pay9 (F := Ideal) (BitVec.ofNat 32 qi.val) (BitVec.ofNat 32 ki.val) q k m (ix2 r (0 : Fin 1)) : EReal)) := by
  unfold k1_pay10
  rfl

theorem pay11_apply (qi : Fin 4) (ki : Fin 8) (q : Vec Ideal S1x512x1024 .bf16) (k : Vec Ideal S1x256x1024 .bf16)
    (m : Vec Ideal S512x1 .f32) (r : Fin 512) (j : Fin 256) :
    (k1_pay11 (F := Ideal) (BitVec.ofNat 32 qi.val) (BitVec.ofNat 32 ki.val) q k m (ix2 r j) : EReal)
      = Ideal.exp (tileScore qi ki q k r j
          - (k1_pay9 (F := Ideal) (BitVec.ofNat 32 qi.val) (BitVec.ofNat 32 ki.val) q k m (ix2 r (0 : Fin 1)) : EReal)) := by
  unfold k1_pay11
  show Ideal.exp ((k1_pay8 (F := Ideal) (BitVec.ofNat 32 qi.val) (BitVec.ofNat 32 ki.val) q k (ix2 r j) : EReal)
      - broadcastTo S512x256 (k1_pay9 (F := Ideal) (BitVec.ofNat 32 qi.val) (BitVec.ofNat 32 ki.val) q k m) broadcasts_S512x1_S512x256 (ix2 r j)) = _
  rw [pay8_apply, colBroadcast256_apply]

theorem pay12_apply (qi : Fin 4) (ki : Fin 8) (q : Vec Ideal S1x512x1024 .bf16) (k : Vec Ideal S1x256x1024 .bf16)
    (m l : Vec Ideal S512x1 .f32) (r : Fin 512) :
    (k1_pay12 (F := Ideal) (BitVec.ofNat 32 qi.val) (BitVec.ofNat 32 ki.val) q k m l (ix2 r (0 : Fin 1)) : EReal)
      = (k1_pay10 (F := Ideal) (BitVec.ofNat 32 qi.val) (BitVec.ofNat 32 ki.val) q k m (ix2 r (0 : Fin 1)) : EReal)
          * (l (ix2 r (0 : Fin 1)) : EReal)
        + ∑ j : Fin 256, (k1_pay11 (F := Ideal) (BitVec.ofNat 32 qi.val) (BitVec.ofNat 32 ki.val) q k m (ix2 r j) : EReal) := by
  unfold k1_pay12
  simp only [shapeCast_self, addf_apply, mulf_apply]
  rw [addTrail_apply]
  congr 1
  refine (Ideal.multiReduction_add_single _ _ _ _ _ _).trans ?_
  exact Finset.sum_congr rfl fun j _ => congrArg _ (lane_lift _ r j)

/-! ## The running weighted sum after one key tile, and the finalised output block -/

theorem pv_lhs_0 (i : S512x1024.Idx) (c : dot_S512x256_S256x1024_S512x1024_1_0_0_1_n_n.contr.Idx) :
    (dot_S512x256_S256x1024_S512x1024_1_0_0_1_n_n.lhsIdx i c 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem pv_lhs_1 (i : S512x1024.Idx) (c : dot_S512x256_S256x1024_S512x1024_1_0_0_1_n_n.contr.Idx) :
    (dot_S512x256_S256x1024_S512x1024_1_0_0_1_n_n.lhsIdx i c 1).val = (c ⟨0, by decide⟩).val :=
  dot_S512x256_S256x1024_S512x1024_1_0_0_1_n_n.lhsIdx_val_of_single rfl i c
theorem pv_rhs_0 (i : S512x1024.Idx) (c : dot_S512x256_S256x1024_S512x1024_1_0_0_1_n_n.contr.Idx) :
    (dot_S512x256_S256x1024_S512x1024_1_0_0_1_n_n.rhsIdx i c 0).val = (c ⟨0, by decide⟩).val :=
  dot_S512x256_S256x1024_S512x1024_1_0_0_1_n_n.rhsIdx_val_of_single rfl i c
theorem pv_rhs_1 (i : S512x1024.Idx) (c : dot_S512x256_S256x1024_S512x1024_1_0_0_1_n_n.contr.Idx) :
    (dot_S512x256_S256x1024_S512x1024_1_0_0_1_n_n.rhsIdx i c 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- The product of the exponentiated tile with the value block into a zero accumulator, at (r, d): the sum over the
    tile's lanes of the weight at (r, j) times the value at (j, d). -/
theorem pv_apply (p : FVec Ideal S512x256 .bf16) (v' : FVec Ideal S256x1024 .bf16) (r : Fin 512) (d : Fin 1024) :
    (FloatOps.matmul dot_S512x256_S256x1024_S512x1024_1_0_0_1_n_n none p v'
        (constant S512x1024 .f32 0x00000000#32) (ix2 r d) : EReal)
      = ∑ j : Fin 256, (p (ix2 r j) : EReal) * (v' (ix2 j d) : EReal) := by
  rw [Ideal.matmul_constant_zero_apply, ← Equiv.sum_comp (contrEquiv1 dot_S512x256_S256x1024_S512x1024_1_0_0_1_n_n 256 rfl rfl).symm]
  refine Finset.sum_congr rfl fun j _ => ?_
  have hj := contrEquiv1_symm_val dot_S512x256_S256x1024_S512x1024_1_0_0_1_n_n 256 rfl rfl j
  have el : dot_S512x256_S256x1024_S512x1024_1_0_0_1_n_n.lhsIdx (ix2 r d) ((contrEquiv1 dot_S512x256_S256x1024_S512x1024_1_0_0_1_n_n 256 rfl rfl).symm j) = ix2 r j := funext fun a => Fin.ext (by
    match a with
    | ⟨0, _⟩ => exact pv_lhs_0 _ _
    | ⟨1, _⟩ => exact (pv_lhs_1 _ _).trans hj)
  have er : dot_S512x256_S256x1024_S512x1024_1_0_0_1_n_n.rhsIdx (ix2 r d) ((contrEquiv1 dot_S512x256_S256x1024_S512x1024_1_0_0_1_n_n 256 rfl rfl).symm j) = ix2 j d := funext fun a => Fin.ext (by
    match a with
    | ⟨0, _⟩ => exact (pv_rhs_0 _ _).trans hj
    | ⟨1, _⟩ => exact pv_rhs_1 _ _)
  rw [el, er]

theorem pay4_apply (v' : Vec Ideal S256x1024 .bf16) (a : Vec Ideal S512x1 .f32) (p : Vec Ideal S512x256 .f32)
    (acc : Vec Ideal S512x1024 .f32) (r : Fin 512) (d : Fin 1024) :
    (k1_pay4 (F := Ideal) v' a p acc (ix2 r d) : EReal)
      = (a (ix2 r (0 : Fin 1)) : EReal) * (acc (ix2 r d) : EReal)
        + ∑ j : Fin 256, (p (ix2 r j) : EReal) * (v' (ix2 j d) : EReal) := by
  unfold k1_pay4
  simp only [matmul, shapeCast_self, addf_apply, mulf_apply]
  rw [colBroadcast1024_apply, pv_apply]
  rfl

theorem pay6_apply (x : Vec Ideal S1x512x1024 .f32) (acc : Vec Ideal S512x1024 .f32) (l : Vec Ideal S512x1 .f32)
    (r : Fin 512) (d : Fin 1024) :
    (k1_pay6 (F := Ideal) x acc l (ix3 (0 : Fin 1) r d) : EReal)
      = (x (ix3 (0 : Fin 1) r d) : EReal) + Ideal.div (acc (ix2 r d) : EReal) (l (ix2 r (0 : Fin 1)) : EReal) := by
  unfold k1_pay6
  rw [addLead_apply]
  simp only [addf_apply, divf_apply]
  rw [dropLead_apply, colBroadcast1024_apply]

end Cert.KernelIdeal.Hand
end
-- ==== Proof.KI.Val1Blk.lean ====
/-
  Region 1's blocks read at a symbolic grid point t = 32·batch + 8·query tile + key tile: the query and residual
  blocks are rows 512·(query tile) … of the batch; the key and value blocks rows 256·min(key tile, 2·query tile + 1) …
  (the index map clamps the key tile to the last one the query tile needs); and the output array, whose block
  (batch, query tile) is what the last key tile's point stores.
-/
import proofs.«408005_j88158498718040_3_alg».proof.Proof.KI.Core
import proofs.«408005_j88158498718040_3_alg».proof.Proof.Spec
import proofs.«408005_j88158498718040_3_alg».proof.Proof.KI.Arr
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The grid coordinates of point t as numbers. -/
abbrev bOf (t : Fin cfg1.N) : ℕ := t.val / 32
abbrev qOf (t : Fin cfg1.N) : ℕ := t.val / 8 % 4
abbrev kOf (t : Fin cfg1.N) : ℕ := t.val % 8

theorem bOf_lt (t : Fin cfg1.N) : bOf t < 4 := by
  have h : t.val < 128 := lt_of_lt_of_eq t.isLt N_1
  show t.val / 32 < 4
  omega
theorem qOf_lt (t : Fin cfg1.N) : qOf t < 4 := by
  show t.val / 8 % 4 < 4
  omega
theorem kOf_lt (t : Fin cfg1.N) : kOf t < 8 := by
  show t.val % 8 < 8
  omega

/-- The coordinates the body computes with are these numbers. -/
theorem coords1_1 (t : Fin cfg1.N) : ((grid1.coords t) 1).val = qOf t :=
  (by decide +kernel : ∀ t : Fin grid1.N, ((grid1.coords t) 1).val = t.val / 8 % 4) t
theorem coords1_2 (t : Fin cfg1.N) : ((grid1.coords t) 2).val = kOf t :=
  (by decide +kernel : ∀ t : Fin grid1.N, ((grid1.coords t) 2).val = t.val % 8) t

/-- The index maps in closed form, decided over the 128 points: the query, residual and output blocks are at
    (batch, query tile, 0); the key and value blocks at (batch, the key tile clamped to 2·(query tile) + 1, 0). -/
theorem idx1_0 : ∀ t : Fin cfg1.N, win1_0.index t (0 : Fin 3) = t.val / 32 ∧ win1_0.index t (1 : Fin 3) = t.val / 8 % 4
    ∧ win1_0.index t (2 : Fin 3) = 0 :=
  (by decide +kernel : ∀ t : Fin grid1.N, win1_0.index t (0 : Fin 3) = t.val / 32 ∧ win1_0.index t (1 : Fin 3) = t.val / 8 % 4
    ∧ win1_0.index t (2 : Fin 3) = 0)
theorem idx1_3 : ∀ t : Fin cfg1.N, win1_3.index t (0 : Fin 3) = t.val / 32 ∧ win1_3.index t (1 : Fin 3) = t.val / 8 % 4
    ∧ win1_3.index t (2 : Fin 3) = 0 :=
  (by decide +kernel : ∀ t : Fin grid1.N, win1_3.index t (0 : Fin 3) = t.val / 32 ∧ win1_3.index t (1 : Fin 3) = t.val / 8 % 4
    ∧ win1_3.index t (2 : Fin 3) = 0)
theorem idx1_4 : ∀ t : Fin cfg1.N, win1_4.index t (0 : Fin 3) = t.val / 32 ∧ win1_4.index t (1 : Fin 3) = t.val / 8 % 4
    ∧ win1_4.index t (2 : Fin 3) = 0 :=
  (by decide +kernel : ∀ t : Fin grid1.N, win1_4.index t (0 : Fin 3) = t.val / 32 ∧ win1_4.index t (1 : Fin 3) = t.val / 8 % 4
    ∧ win1_4.index t (2 : Fin 3) = 0)
theorem idx1_1 : ∀ t : Fin cfg1.N, win1_1.index t (0 : Fin 3) = t.val / 32
    ∧ win1_1.index t (1 : Fin 3) = min (t.val % 8) (2 * (t.val / 8 % 4) + 1) ∧ win1_1.index t (2 : Fin 3) = 0 :=
  (by decide +kernel : ∀ t : Fin grid1.N, win1_1.index t (0 : Fin 3) = t.val / 32
    ∧ win1_1.index t (1 : Fin 3) = min (t.val % 8) (2 * (t.val / 8 % 4) + 1) ∧ win1_1.index t (2 : Fin 3) = 0)
theorem idx1_2 : ∀ t : Fin cfg1.N, win1_2.index t (0 : Fin 3) = t.val / 32
    ∧ win1_2.index t (1 : Fin 3) = min (t.val % 8) (2 * (t.val / 8 % 4) + 1) ∧ win1_2.index t (2 : Fin 3) = 0 :=
  (by decide +kernel : ∀ t : Fin grid1.N, win1_2.index t (0 : Fin 3) = t.val / 32
    ∧ win1_2.index t (1 : Fin 3) = min (t.val % 8) (2 * (t.val / 8 % 4) + 1) ∧ win1_2.index t (2 : Fin 3) = 0)

theorem blkQ (c : Dev nD) (t : Fin cfg1.N) (r : Fin 512) (d : Fin 1024) :
    (iblk1 (F := Ideal) V c 0 t (ix3 (0 : Fin 1) r d) : EReal)
      = in1Q V c (ix3 (⟨bOf t, bOf_lt t⟩ : Fin 4) (⟨512 * qOf t + r.val, by have := qOf_lt t; omega⟩ : Fin 2048) d) := by
  obtain ⟨e0, e1, e2⟩ := idx1_0 t
  unfold iblk1
  rw [View.read_apply]
  show V c main_v13 _ = V c main_v13 _
  congr 1
  funext a
  apply Fin.ext
  match a with
  | ⟨0, _⟩ => show win1_0.index t (0 : Fin 3) * 1 + 1 * 0 = t.val / 32; omega
  | ⟨1, _⟩ => show win1_0.index t (1 : Fin 3) * 512 + 1 * r.val = 512 * (t.val / 8 % 4) + r.val; omega
  | ⟨2, _⟩ => show win1_0.index t (2 : Fin 3) * 1024 + 1 * d.val = d.val; omega
theorem blkX (c : Dev nD) (t : Fin cfg1.N) (r : Fin 512) (d : Fin 1024) :
    (iblk1 (F := Ideal) V c 3 t (ix3 (0 : Fin 1) r d) : EReal)
      = in1X V c (ix3 (⟨bOf t, bOf_lt t⟩ : Fin 4) (⟨512 * qOf t + r.val, by have := qOf_lt t; omega⟩ : Fin 2048) d) := by
  obtain ⟨e0, e1, e2⟩ := idx1_3 t
  unfold iblk1
  rw [View.read_apply]
  show V c main_arg0 _ = V c main_arg0 _
  congr 1
  funext a
  apply Fin.ext
  match a with
  | ⟨0, _⟩ => show win1_3.index t (0 : Fin 3) * 1 + 1 * 0 = t.val / 32; omega
  | ⟨1, _⟩ => show win1_3.index t (1 : Fin 3) * 512 + 1 * r.val = 512 * (t.val / 8 % 4) + r.val; omega
  | ⟨2, _⟩ => show win1_3.index t (2 : Fin 3) * 1024 + 1 * d.val = d.val; omega
theorem blkK (c : Dev nD) (t : Fin cfg1.N) (j : Fin 256) (d : Fin 1024) :
    (iblk1 (F := Ideal) V c 1 t (ix3 (0 : Fin 1) j d) : EReal)
      = in1K V c (ix3 (⟨bOf t, bOf_lt t⟩ : Fin 4)
          (⟨256 * min (kOf t) (2 * qOf t + 1) + j.val, by have := qOf_lt t; have := kOf_lt t; omega⟩ : Fin 2048) d) := by
  obtain ⟨e0, e1, e2⟩ := idx1_1 t
  unfold iblk1
  rw [View.read_apply]
  show V c main_v14 _ = V c main_v14 _
  congr 1
  funext a
  apply Fin.ext
  match a with
  | ⟨0, _⟩ => show win1_1.index t (0 : Fin 3) * 1 + 1 * 0 = t.val / 32; omega
  | ⟨1, _⟩ => show win1_1.index t (1 : Fin 3) * 256 + 1 * j.val = 256 * min (t.val % 8) (2 * (t.val / 8 % 4) + 1) + j.val; omega
  | ⟨2, _⟩ => show win1_1.index t (2 : Fin 3) * 1024 + 1 * d.val = d.val; omega
theorem blkV (c : Dev nD) (t : Fin cfg1.N) (j : Fin 256) (d : Fin 1024) :
    (iblk1 (F := Ideal) V c 2 t (ix3 (0 : Fin 1) j d) : EReal)
      = in1V V c (ix3 (⟨bOf t, bOf_lt t⟩ : Fin 4)
          (⟨256 * min (kOf t) (2 * qOf t + 1) + j.val, by have := qOf_lt t; have := kOf_lt t; omega⟩ : Fin 2048) d) := by
  obtain ⟨e0, e1, e2⟩ := idx1_2 t
  unfold iblk1
  rw [View.read_apply]
  show V c main_v15 _ = V c main_v15 _
  congr 1
  funext a
  apply Fin.ext
  match a with
  | ⟨0, _⟩ => show win1_2.index t (0 : Fin 3) * 1 + 1 * 0 = t.val / 32; omega
  | ⟨1, _⟩ => show win1_2.index t (1 : Fin 3) * 256 + 1 * j.val = 256 * min (t.val % 8) (2 * (t.val / 8 % 4) + 1) + j.val; omega
  | ⟨2, _⟩ => show win1_2.index t (2 : Fin 3) * 1024 + 1 * d.val = d.val; omega

/-- What the finalize branch stores depends on the point through its number only. -/
theorem out1_congr (c : Dev nD) (t t' : Fin cfg1.N) (h : t.val = t'.val) (x y : S1x512x1024.Idx) (hxy : x = y) :
    (out1 (F := Ideal) V c t x : EReal) = out1 (F := Ideal) V c t' y := by
  obtain rfl : t = t' := Fin.ext h
  rw [hxy]

/-- The output array as one function of its index: at (b, s, d), what the point of batch b, query tile s / 512 and the
    last key tile stores at row s % 512 of its block. -/
def outAll1 (c : Dev nD) : Vec Ideal S4x2048x1024 .f32 := fun i =>
  out1 (F := Ideal) V c
    (⟨32 * (i 0).val + 8 * ((i 1).val / 512) + 7, by
        have h0 : (i 0).val < 4 := (i 0).isLt
        have h1 : (i 1).val < 2048 := (i 1).isLt
        rw [show cfg1.N = 128 from N_1]; omega⟩ : Fin cfg1.N)
    (ix3 (0 : Fin 1) (⟨(i 1).val % 512, Nat.mod_lt _ (by norm_num)⟩ : Fin 512) (⟨(i 2).val, (i 2).isLt⟩ : Fin 1024))

/-- What a point of the last key tile writes back is its block of that function. -/
theorem flushed1_4_eq (c : Dev nD) (t : Fin cfg1.N) (hf : (cfg1.win 4).flush t = true) :
    (dat1 (F := Ideal) V c).flushed 4 t = ((cfg1.win 4).blk t).view.read (Elt Ideal) (outAll1 V c) := by
  have hk : t.val % 8 = 7 := (flush1_4 t).mp hf
  have hN : t.val < 128 := lt_of_lt_of_eq t.isLt N_1
  obtain ⟨e0, e1, e2⟩ := idx1_4 t
  show (cfg1.win 4).cut (grid1.coords t) ((dat1 (F := Ideal) V c).after 4 t) = _
  rw [after1_4]
  funext j
  rw [View.read_apply]
  have hj0 : (j 0).val < 1 := (j 0).isLt
  have hj1 : (j 1).val < 512 := (j 1).isLt
  have hj2 : (j 2).val < 1024 := (j 2).isLt
  show (out1 (F := Ideal) V c t _ : EReal) = outAll1 V c _
  unfold outAll1
  refine out1_congr V c _ _ ?_ _ _ ?_
  · show t.val = 32 * (win1_4.index t (0 : Fin 3) * 1 + 1 * (j 0).val) + 8 * ((win1_4.index t (1 : Fin 3) * 512 + 1 * (j 1).val) / 512) + 7
    omega
  · funext a
    apply Fin.ext
    match a with
    | ⟨0, _⟩ => show (j 0).val = 0; omega
    | ⟨1, _⟩ => show (j 1).val = (win1_4.index t (1 : Fin 3) * 512 + 1 * (j 1).val) % 512; omega
    | ⟨2, _⟩ => show (j 2).val = win1_4.index t (2 : Fin 3) * 1024 + 1 * (j 2).val; omega

/-- An index of the array is in the block of point t iff each coordinate is in the block's range on its axis. -/
theorem mem_blk1_4 (t : Fin cfg1.N) (i : S4x2048x1024.Idx) :
    i ∈ ((cfg1.win 4).blk t).view.set ↔ ∀ a : Fin 3, win1_4.index t a * S1x512x1024.size a ≤ (i a).val
      ∧ (i a).val < win1_4.index t a * S1x512x1024.size a + S1x512x1024.size a := by
  show i ∈ ((View.whole main_v16).slice (win1_4.rect t)).set ↔ _
  rw [View.set_slice_whole, Rect.mem_set_unit]
  exact Iff.rfl

/-- Every index of the array is in the block some point of the last key tile writes back. -/
theorem cover1_4 (i : S4x2048x1024.Idx) :
    ∃ t : Fin cfg1.N, (cfg1.win 4).flush t = true ∧ i ∈ ((cfg1.win 4).blk t).view.set := by
  have h0 : (i 0).val < 4 := (i 0).isLt
  have h1 : (i 1).val < 2048 := (i 1).isLt
  have h2 : (i 2).val < 1024 := (i 2).isLt
  refine ⟨⟨32 * (i 0).val + 8 * ((i 1).val / 512) + 7, by rw [show cfg1.N = 128 from N_1]; omega⟩, ?_, ?_⟩
  · rw [flush1_4]; show (32 * (i 0).val + 8 * ((i 1).val / 512) + 7) % 8 = 7; omega
  · rw [mem_blk1_4]
    obtain ⟨e0, e1, e2⟩ := idx1_4 ⟨32 * (i 0).val + 8 * ((i 1).val / 512) + 7, by rw [show cfg1.N = 128 from N_1]; omega⟩
    intro a
    match a with
    | ⟨0, _⟩ =>
      show win1_4.index _ (0 : Fin 3) * 1 ≤ (i 0).val ∧ (i 0).val < win1_4.index _ (0 : Fin 3) * 1 + 1
      rw [e0]; show (32 * (i 0).val + 8 * ((i 1).val / 512) + 7) / 32 * 1 ≤ (i 0).val ∧ (i 0).val < (32 * (i 0).val + 8 * ((i 1).val / 512) + 7) / 32 * 1 + 1
      omega
    | ⟨1, _⟩ =>
      show win1_4.index _ (1 : Fin 3) * 512 ≤ (i 1).val ∧ (i 1).val < win1_4.index _ (1 : Fin 3) * 512 + 512
      rw [e1]; show (32 * (i 0).val + 8 * ((i 1).val / 512) + 7) / 8 % 4 * 512 ≤ (i 1).val ∧ (i 1).val < (32 * (i 0).val + 8 * ((i 1).val / 512) + 7) / 8 % 4 * 512 + 512
      omega
    | ⟨2, _⟩ =>
      show win1_4.index _ (2 : Fin 3) * 1024 ≤ (i 2).val ∧ (i 2).val < win1_4.index _ (2 : Fin 3) * 1024 + 1024
      rw [e2]; omega

/-- So the output array after the region is that function. -/
theorem out1A_eq (c : Dev nD) : out1A V c = outAll1 V c :=
  (dat1 (F := Ideal) V c).arrAt_eq_of_cover 4 (outAll1 V c) (flushed1_4_eq V c) cover1_4

/-- The output array's block (b, qi) is what the point of the last key tile stores. -/
theorem out1_block (c : Dev nD) (b : Fin 4) (qi : Fin 4) (r : Fin 512) (d : Fin 1024) :
    (out1A V c (ix3 b (⟨512 * qi.val + r.val, by omega⟩ : Fin 2048) d) : EReal)
      = (out1 (F := Ideal) V c (⟨32 * b.val + 8 * qi.val + 7, by rw [show cfg1.N = 128 from N_1]; omega⟩ : Fin cfg1.N)
          (ix3 (0 : Fin 1) r d) : EReal) := by
  rw [out1A_eq]
  unfold outAll1
  refine out1_congr V c _ _ ?_ _ _ ?_
  · show 32 * b.val + 8 * ((512 * qi.val + r.val) / 512) + 7 = 32 * b.val + 8 * qi.val + 7
    omega
  · funext a
    apply Fin.ext
    match a with
    | ⟨0, _⟩ => rfl
    | ⟨1, _⟩ => show (512 * qi.val + r.val) % 512 = r.val; omega
    | ⟨2, _⟩ => rfl

end Cert.KernelIdeal.Hand

end
-- ==== Proof.Math.Softmax.lean ====
/-
  The running softmax. Keys are taken in disjoint batches; the state after a set S of keys is the triple
  (maximum of the scores over S, sum over S of exp(score − maximum), sum over S of exp(score − maximum) · value).
  Adding a batch T rescales the two sums by exp(old maximum − new maximum) and adds T's terms at the new maximum; the
  empty set's state is (−∞, 0, 0). After all keys the quotient of the two sums is the softmax-weighted sum of the values.
  Scores are real numbers or −∞ (a masked key), values real numbers; exp(−∞) = 0.
-/
import Idealize.ShloMosaic.PureOps.Ideal

noncomputable section

namespace Cert.Softmax

open Idealize.ShloMosaic

variable {κ : Type} [DecidableEq κ]

/-- The maximum of the scores over a set of keys (−∞ over the empty set). -/
def mx (S : Finset κ) (s : κ → EReal) : EReal := S.sup s
/-- The sum over a set of keys of the exponentiated scores shifted by "M". -/
def sm (S : Finset κ) (s : κ → EReal) (M : EReal) : EReal := ∑ k ∈ S, Ideal.exp (s k - M)
/-- The same, each term times the key's value. -/
def wsm (S : Finset κ) (s v : κ → EReal) (M : EReal) : EReal := ∑ k ∈ S, Ideal.exp (s k - M) * v k

/-! ### Moving to the real numbers -/

/-- The coercion of the reals into the extended reals goes through a finite sum. -/
theorem coe_sum (S : Finset κ) (f : κ → ℝ) : ((∑ k ∈ S, f k : ℝ) : EReal) = ∑ k ∈ S, (f k : EReal) := by
  induction S using Finset.induction_on with
  | empty => simp
  | insert a S ha ih => rw [Finset.sum_insert ha, Finset.sum_insert ha, EReal.coe_add, ih]

/-- The exponential of a difference "x − M" with "x ≤ M" and "x" not +∞ is a nonnegative real number. -/
theorem exp_sub_eq_coe (x M : EReal) (hx : x ≠ ⊤) (hxM : x ≤ M) :
    ∃ r : ℝ, 0 ≤ r ∧ Ideal.exp (x - M) = (r : EReal) := by
  induction x using EReal.rec with
  | bot => exact ⟨0, le_refl _, by rw [EReal.bot_sub]; rfl⟩
  | top => exact absurd rfl hx
  | coe x =>
    induction M using EReal.rec with
    | bot => exact absurd hxM (by simp)
    | top =>
      refine ⟨0, le_refl _, ?_⟩
      have : (x : EReal) - ⊤ = ⊥ := by rw [sub_eq_add_neg, EReal.neg_top, EReal.add_bot]
      rw [this]; rfl
    | coe m =>
      refine ⟨Real.exp (x - m), (Real.exp_pos _).le, ?_⟩
      rw [← EReal.coe_sub]; rfl

/-- The real number that "exp (s k − M)" is, when it is one. -/
def er (s : κ → EReal) (M : EReal) (k : κ) : ℝ := (Ideal.exp (s k - M)).toReal

theorem exp_eq_er (s : κ → EReal) (M : EReal) (k : κ) (hs : s k ≠ ⊤) (h : s k ≤ M) :
    Ideal.exp (s k - M) = (er s M k : EReal) := by
  obtain ⟨r, _, hr⟩ := exp_sub_eq_coe (s k) M hs h
  unfold er; rw [hr, EReal.toReal_coe]

theorem er_nonneg (s : κ → EReal) (M : EReal) (k : κ) (hs : s k ≠ ⊤) (h : s k ≤ M) : 0 ≤ er s M k := by
  obtain ⟨r, h0, hr⟩ := exp_sub_eq_coe (s k) M hs h
  unfold er; rw [hr, EReal.toReal_coe]; exact h0

/-- A real value as the coercion of its real part. -/
theorem val_eq_coe (v : κ → EReal) (hv : ∀ k, v k ≠ ⊤ ∧ v k ≠ ⊥) (k : κ) : v k = ((v k).toReal : EReal) :=
  (EReal.coe_toReal (hv k).1 (hv k).2).symm

theorem sm_eq_coe (S : Finset κ) (s : κ → EReal) (hs : ∀ k, s k ≠ ⊤) (M : EReal) (hM : ∀ k ∈ S, s k ≤ M) :
    sm S s M = ((∑ k ∈ S, er s M k : ℝ) : EReal) := by
  rw [coe_sum]; unfold sm
  exact Finset.sum_congr rfl fun k hk => exp_eq_er s M k (hs k) (hM k hk)

theorem wsm_eq_coe (S : Finset κ) (s v : κ → EReal) (hs : ∀ k, s k ≠ ⊤) (hv : ∀ k, v k ≠ ⊤ ∧ v k ≠ ⊥) (M : EReal)
    (hM : ∀ k ∈ S, s k ≤ M) : wsm S s v M = ((∑ k ∈ S, er s M k * (v k).toReal : ℝ) : EReal) := by
  rw [coe_sum]; unfold wsm
  refine Finset.sum_congr rfl fun k hk => ?_
  rw [exp_eq_er s M k (hs k) (hM k hk), EReal.coe_mul, ← val_eq_coe v hv k]

/-! ### The maximum -/

theorem mx_ne_top (S : Finset κ) (s : κ → EReal) (hs : ∀ k, s k ≠ ⊤) : mx S s ≠ ⊤ := by
  have : mx S s < ⊤ := (Finset.sup_lt_iff (bot_lt_top)).2 fun k _ => lt_top_iff_ne_top.2 (hs k)
  exact this.ne

theorem le_mx (S : Finset κ) (s : κ → EReal) (k : κ) (hk : k ∈ S) : s k ≤ mx S s := Finset.le_sup hk

theorem mx_le_mx_union (S T : Finset κ) (s : κ → EReal) : mx S s ≤ mx (S ∪ T) s :=
  Finset.sup_mono Finset.subset_union_left

/-- Shifting by the old maximum and rescaling is shifting by the new one:
    "exp (M − M') · exp (x − M) = exp (x − M')" for "x ≤ M ≤ M' < +∞". -/
theorem exp_rescale (x M M' : EReal) (hxM : x ≤ M) (hMM' : M ≤ M') (hM' : M' ≠ ⊤) :
    Ideal.exp (M - M') * Ideal.exp (x - M) = Ideal.exp (x - M') := by
  induction x using EReal.rec with
  | bot => rw [EReal.bot_sub, EReal.bot_sub]; simp
  | top =>
    have h1 : M = ⊤ := top_le_iff.1 hxM
    exact absurd (top_le_iff.1 (h1 ▸ hMM')) hM'
  | coe x =>
    induction M' using EReal.rec with
    | top => exact absurd rfl hM'
    | bot =>
      have : M = ⊥ := le_bot_iff.1 hMM'
      subst this
      exact absurd hxM (by simp)
    | coe m' =>
      induction M using EReal.rec with
      | bot => exact absurd hxM (by simp)
      | top => exact absurd hMM' (by simp)
      | coe m =>
        rw [← EReal.coe_sub, ← EReal.coe_sub, ← EReal.coe_sub]
        show ((Real.exp (m - m') : ℝ) : EReal) * ((Real.exp (x - m) : ℝ) : EReal) = ((Real.exp (x - m') : ℝ) : EReal)
        rw [← EReal.coe_mul, ← Real.exp_add]
        congr 2; ring

theorem mx_empty (s : κ → EReal) : mx (∅ : Finset κ) s = ⊥ := by
  simp [mx]
theorem sm_empty (s : κ → EReal) (M : EReal) : sm (∅ : Finset κ) s M = 0 := by
  simp [sm]
theorem wsm_empty (s v : κ → EReal) (M : EReal) : wsm (∅ : Finset κ) s v M = 0 := by
  simp [wsm]

/-- One batch: the new maximum, and the two rescaled sums. -/
theorem step_mx (S T : Finset κ) (s : κ → EReal) : max (mx S s) (mx T s) = mx (S ∪ T) s := by
  unfold mx; rw [Finset.sup_union]

/-- The rescaling factor and the rescaled terms, as real numbers. -/
theorem rescale_real (S T : Finset κ) (s : κ → EReal) (hs : ∀ k, s k ≠ ⊤) :
    ∃ c : ℝ, Ideal.exp (mx S s - mx (S ∪ T) s) = (c : EReal) ∧
      ∀ k ∈ S, er s (mx (S ∪ T) s) k = c * er s (mx S s) k := by
  obtain ⟨c, _, hc⟩ := exp_sub_eq_coe (mx S s) (mx (S ∪ T) s) (mx_ne_top S s hs) (mx_le_mx_union S T s)
  refine ⟨c, hc, fun k hk => ?_⟩
  have h1 := exp_rescale (s k) (mx S s) (mx (S ∪ T) s) (le_mx S s k hk) (mx_le_mx_union S T s)
    (mx_ne_top (S ∪ T) s hs)
  rw [hc, exp_eq_er s (mx S s) k (hs k) (le_mx S s k hk),
    exp_eq_er s (mx (S ∪ T) s) k (hs k) (le_mx (S ∪ T) s k (Finset.mem_union_left T hk)), ← EReal.coe_mul] at h1
  exact (EReal.coe_eq_coe_iff.1 h1).symm

theorem step_sm (S T : Finset κ) (hdisj : Disjoint S T) (s : κ → EReal) (hs : ∀ k, s k ≠ ⊤) :
    Ideal.exp (mx S s - mx (S ∪ T) s) * sm S s (mx S s) + sm T s (mx (S ∪ T) s) = sm (S ∪ T) s (mx (S ∪ T) s) := by
  obtain ⟨c, hc, hk⟩ := rescale_real S T s hs
  rw [hc, sm_eq_coe S s hs _ (le_mx S s),
    sm_eq_coe T s hs _ (fun k hk => le_mx (S ∪ T) s k (Finset.mem_union_right S hk)),
    sm_eq_coe (S ∪ T) s hs _ (le_mx (S ∪ T) s), ← EReal.coe_mul, ← EReal.coe_add, EReal.coe_eq_coe_iff,
    Finset.sum_union hdisj, Finset.mul_sum]
  congr 1
  exact Finset.sum_congr rfl fun k h => (hk k h).symm

theorem step_wsm (S T : Finset κ) (hdisj : Disjoint S T) (s v : κ → EReal) (hs : ∀ k, s k ≠ ⊤)
    (hv : ∀ k, v k ≠ ⊤ ∧ v k ≠ ⊥) :
    Ideal.exp (mx S s - mx (S ∪ T) s) * wsm S s v (mx S s) + wsm T s v (mx (S ∪ T) s)
      = wsm (S ∪ T) s v (mx (S ∪ T) s) := by
  obtain ⟨c, hc, hk⟩ := rescale_real S T s hs
  rw [hc, wsm_eq_coe S s v hs hv _ (le_mx S s),
    wsm_eq_coe T s v hs hv _ (fun k hk => le_mx (S ∪ T) s k (Finset.mem_union_right S hk)),
    wsm_eq_coe (S ∪ T) s v hs hv _ (le_mx (S ∪ T) s), ← EReal.coe_mul, ← EReal.coe_add, EReal.coe_eq_coe_iff,
    Finset.sum_union hdisj, Finset.mul_sum]
  congr 1
  exact Finset.sum_congr rfl fun k h => by rw [hk k h, mul_assoc]

/-- The running sums are real numbers. -/
theorem sm_real (S : Finset κ) (s : κ → EReal) (hs : ∀ k, s k ≠ ⊤) (M : EReal) (hM : ∀ k ∈ S, s k ≤ M) :
    sm S s M ≠ ⊤ ∧ sm S s M ≠ ⊥ := by
  rw [sm_eq_coe S s hs M hM]; exact ⟨EReal.coe_ne_top _, EReal.coe_ne_bot _⟩
theorem wsm_real (S : Finset κ) (s v : κ → EReal) (hs : ∀ k, s k ≠ ⊤) (hv : ∀ k, v k ≠ ⊤ ∧ v k ≠ ⊥) (M : EReal)
    (hM : ∀ k ∈ S, s k ≤ M) : wsm S s v M ≠ ⊤ ∧ wsm S s v M ≠ ⊥ := by
  rw [wsm_eq_coe S s v hs hv M hM]; exact ⟨EReal.coe_ne_top _, EReal.coe_ne_bot _⟩

/-- With some key not masked, the sum at the overall maximum is at least the maximal key's term, which is 1. -/
theorem one_le_sum_er [Fintype κ] (s : κ → EReal) (hs : ∀ k, s k ≠ ⊤) (hex : ∃ k, s k ≠ ⊥) :
    1 ≤ ∑ k, er s (mx Finset.univ s) k := by
  obtain ⟨k0, hk0⟩ := hex
  obtain ⟨i, _, hi⟩ := Finset.exists_mem_eq_sup Finset.univ ⟨k0, Finset.mem_univ k0⟩ s
  have hM : mx Finset.univ s = s i := hi
  have hbot : s i ≠ ⊥ := by
    intro h
    have : s k0 ≤ ⊥ := h ▸ hM ▸ le_mx Finset.univ s k0 (Finset.mem_univ k0)
    exact hk0 (le_bot_iff.1 this)
  have h1 : er s (mx Finset.univ s) i = 1 := by
    unfold er; rw [hM]
    lift s i to ℝ using ⟨hs i, hbot⟩ with x
    rw [← EReal.coe_sub, sub_self]
    show (((Real.exp 0 : ℝ) : EReal)).toReal = 1
    rw [EReal.toReal_coe, Real.exp_zero]
  calc (1 : ℝ) = er s (mx Finset.univ s) i := h1.symm
    _ ≤ ∑ k, er s (mx Finset.univ s) k :=
      Finset.single_le_sum (f := fun k => er s (mx Finset.univ s) k)
        (fun k _ => er_nonneg s _ k (hs k) (le_mx Finset.univ s k (Finset.mem_univ k))) (Finset.mem_univ i)

/-- After all keys: the quotient of the weighted sum by the sum is the sum of the values weighted by the normalised
    exponentiated scores, when some key is not masked. -/
theorem quotient [Fintype κ] (s v : κ → EReal) (hs : ∀ k, s k ≠ ⊤) (hv : ∀ k, v k ≠ ⊤ ∧ v k ≠ ⊥) (hex : ∃ k, s k ≠ ⊥) :
    Ideal.div (wsm Finset.univ s v (mx Finset.univ s)) (sm Finset.univ s (mx Finset.univ s))
      = ∑ k, Ideal.div (Ideal.exp (s k - mx Finset.univ s)) (sm Finset.univ s (mx Finset.univ s)) * v k := by
  have hle : ∀ k ∈ (Finset.univ : Finset κ), s k ≤ mx Finset.univ s := le_mx Finset.univ s
  have hL : (∑ k, er s (mx Finset.univ s) k) ≠ 0 := by
    have := one_le_sum_er s hs hex
    intro h; rw [h] at this; exact absurd this (by norm_num)
  rw [sm_eq_coe Finset.univ s hs _ hle, wsm_eq_coe Finset.univ s v hs hv _ hle, Ideal.div_coe hL, ← EReal.coe_mul]
  have hterm : ∀ k ∈ (Finset.univ : Finset κ),
      Ideal.div (Ideal.exp (s k - mx Finset.univ s)) ((∑ k, er s (mx Finset.univ s) k : ℝ) : EReal) * v k
        = ((er s (mx Finset.univ s) k * (v k).toReal * (1 / ∑ k, er s (mx Finset.univ s) k) : ℝ) : EReal) := by
    intro k hk
    rw [Ideal.div_coe hL, exp_eq_er s _ k (hs k) (hle k hk), ← EReal.coe_mul]
    conv_lhs => rw [val_eq_coe v hv k]
    rw [← EReal.coe_mul, EReal.coe_eq_coe_iff]; ring
  rw [Finset.sum_congr rfl hterm, ← coe_sum, EReal.coe_eq_coe_iff, Finset.sum_mul]

end Cert.Softmax

end
-- ==== Proof.KI.Val1.lean ====
/-
  Region 1's output array after the region, index by index: the residual plus the softmax attention of the region's
  query, key and value arrays, when these hold real numbers.

  The body carries, per query row, a running maximum, a running sum and a running weighted sum over the key tiles taken
  so far; the specification takes one maximum and one sum over all keys. The carried triple after key tile j of a query
  tile is the softmax state of the keys before position 256·min (j + 1, 2·(query tile) + 2); after the last key tile
  every key outside that set is masked, and the quotient of the two sums is the specification's weighted sum.
-/
import proofs.«408005_j88158498718040_3_alg».proof.Proof.KI.Core
import proofs.«408005_j88158498718040_3_alg».proof.Proof.Spec
import proofs.«408005_j88158498718040_3_alg».proof.Proof.KI.Arr
import proofs.«408005_j88158498718040_3_alg».proof.Proof.KI.Val1Pay
import proofs.«408005_j88158498718040_3_alg».proof.Proof.KI.Val1Blk
import proofs.«408005_j88158498718040_3_alg».proof.Proof.KI.R1Facts
import proofs.«408005_j88158498718040_3_alg».proof.Proof.Math.Softmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Softmax

variable (V : (c : Dev nD) → (b : Ref sig .tc) → Buf (Elt Ideal) ((c : Thread nD τ).loc b))

/-! ## The three input arrays as the specification's rows, and their scores -/

abbrev rowsQ (c : Dev nD) : Cert.Spec.Rows := fun b s d => (in1Q V c (ix3 b s d) : EReal)
abbrev rowsK (c : Dev nD) : Cert.Spec.Rows := fun b s d => (in1K V c (ix3 b s d) : EReal)
abbrev rowsV (c : Dev nD) : Cert.Spec.Rows := fun b s d => (in1V V c (ix3 b s d) : EReal)

/-- A score of real queries against real keys is a real number where the key is not after the query. -/
theorem score_real (Q K : Cert.Spec.Rows) (hQ : ∀ b s d, Q b s d ≠ ⊤ ∧ Q b s d ≠ ⊥) (hK : ∀ b s d, K b s d ≠ ⊤ ∧ K b s d ≠ ⊥)
    (b : Fin 4) (q k : Fin 2048) (hkq : k.val ≤ q.val) : ∃ x : ℝ, Cert.Spec.score Q K b q k = (x : EReal) := by
  refine ⟨(∑ d : Fin 1024, (Q b q d).toReal * (K b k d).toReal) * (1 / 32), ?_⟩
  unfold Cert.Spec.score
  rw [if_pos hkq, EReal.coe_mul, Cert.Softmax.coe_sum]
  congr 1
  refine Finset.sum_congr rfl fun d _ => ?_
  rw [EReal.coe_mul, EReal.coe_toReal (hQ b q d).1 (hQ b q d).2, EReal.coe_toReal (hK b k d).1 (hK b k d).2]

/-- A score is never +∞: a real number, or −∞ at a masked key. -/
theorem score_ne_top (Q K : Cert.Spec.Rows) (hQ : ∀ b s d, Q b s d ≠ ⊤ ∧ Q b s d ≠ ⊥) (hK : ∀ b s d, K b s d ≠ ⊤ ∧ K b s d ≠ ⊥)
    (b : Fin 4) (q k : Fin 2048) : Cert.Spec.score Q K b q k ≠ ⊤ := by
  by_cases hkq : k.val ≤ q.val
  · obtain ⟨x, hx⟩ := score_real Q K hQ hK b q k hkq
    rw [hx]; exact EReal.coe_ne_top x
  · unfold Cert.Spec.score; rw [if_neg hkq]; exact bot_ne_top

/-- The first key is masked for no query. -/
theorem score_first_ne_bot (Q K : Cert.Spec.Rows) (hQ : ∀ b s d, Q b s d ≠ ⊤ ∧ Q b s d ≠ ⊥) (hK : ∀ b s d, K b s d ≠ ⊤ ∧ K b s d ≠ ⊥)
    (b : Fin 4) (q : Fin 2048) : Cert.Spec.score Q K b q ⟨0, by omega⟩ ≠ ⊥ := by
  obtain ⟨x, hx⟩ := score_real Q K hQ hK b q ⟨0, by omega⟩ (Nat.zero_le _)
  rw [hx]; exact EReal.coe_ne_bot x

/-- A key after the query is masked. -/
theorem score_masked (Q K : Cert.Spec.Rows) (b : Fin 4) (q k : Fin 2048) (h : q.val < k.val) : Cert.Spec.score Q K b q k = ⊥ := by
  unfold Cert.Spec.score; rw [if_neg (by omega)]

/-! ## Sets of keys -/

/-- The keys before position 256·n. -/
def keysBelow (n : ℕ) : Finset (Fin 2048) := Finset.univ.filter fun k => k.val < 256 * n

/-- Key tile j's rows as keys: row jj is the key at position 256·j + jj. -/
def tileKey (j : ℕ) (hj : j < 8) : Fin 256 ↪ Fin 2048 :=
  ⟨fun jj => ⟨256 * j + jj.val, by omega⟩, fun x y h => Fin.ext (by have := congrArg Fin.val h; simp only at this; omega)⟩

theorem tileKey_val (j : ℕ) (hj : j < 8) (jj : Fin 256) : (tileKey j hj jj).val = 256 * j + jj.val := rfl

theorem keysBelow_zero : keysBelow 0 = ∅ := by
  ext k; simp [keysBelow]

theorem mem_keysBelow (n : ℕ) (k : Fin 2048) : k ∈ keysBelow n ↔ k.val < 256 * n := by
  simp [keysBelow]

/-- The keys before tile j + 1 are those before tile j and tile j's own. -/
theorem keysBelow_succ (j : ℕ) (hj : j < 8) : keysBelow (j + 1) = keysBelow j ∪ Finset.univ.map (tileKey j hj) := by
  ext k
  rw [Finset.mem_union, mem_keysBelow, mem_keysBelow, Finset.mem_map]
  constructor
  · intro h
    by_cases hk : k.val < 256 * j
    · exact Or.inl hk
    · exact Or.inr ⟨⟨k.val - 256 * j, by omega⟩, Finset.mem_univ _, Fin.ext (by rw [tileKey_val]; simp only; omega)⟩
  · rintro (h | ⟨jj, _, rfl⟩)
    · omega
    · rw [tileKey_val]; omega

theorem keysBelow_disjoint (j : ℕ) (hj : j < 8) : Disjoint (keysBelow j) (Finset.univ.map (tileKey j hj)) := by
  rw [Finset.disjoint_left]
  intro k hk hmem
  obtain ⟨jj, _, rfl⟩ := Finset.mem_map.1 hmem
  rw [mem_keysBelow, tileKey_val] at hk
  omega

/-! ## One key tile on one query row

  From the softmax state of a set S of keys, the body's update with a tile whose scores are those of the keys "e jj"
  (disjoint from S) gives the softmax state of S with those keys. -/

theorem tile_max (S : Finset (Fin 2048)) (e : Fin 256 ↪ Fin 2048) (sc : Fin 2048 → EReal)
    (qi : Fin 4) (ki : Fin 8) (q : Vec Ideal S1x512x1024 .bf16) (k : Vec Ideal S1x256x1024 .bf16)
    (m : Vec Ideal S512x1 .f32) (r : Fin 512)
    (hts : ∀ jj, tileScore qi ki q k r jj = sc (e jj))
    (hm : (m (ix2 r (0 : Fin 1)) : EReal) = mx S sc) :
    (k1_pay9 (F := Ideal) (BitVec.ofNat 32 qi.val) (BitVec.ofNat 32 ki.val) q k m (ix2 r (0 : Fin 1)) : EReal)
      = mx (S ∪ Finset.univ.map e) sc := by
  rw [pay9_apply, hm, ← step_mx]
  congr 1
  unfold mx
  rw [Finset.sup_map]
  exact Finset.sup_congr rfl fun jj _ => hts jj

theorem tile_sum (S : Finset (Fin 2048)) (e : Fin 256 ↪ Fin 2048) (hdisj : Disjoint S (Finset.univ.map e))
    (sc : Fin 2048 → EReal) (hsc : ∀ k, sc k ≠ ⊤)
    (qi : Fin 4) (ki : Fin 8) (q : Vec Ideal S1x512x1024 .bf16) (k : Vec Ideal S1x256x1024 .bf16)
    (m l : Vec Ideal S512x1 .f32) (r : Fin 512)
    (hts : ∀ jj, tileScore qi ki q k r jj = sc (e jj))
    (hm : (m (ix2 r (0 : Fin 1)) : EReal) = mx S sc)
    (hl : (l (ix2 r (0 : Fin 1)) : EReal) = sm S sc (mx S sc)) :
    (k1_pay12 (F := Ideal) (BitVec.ofNat 32 qi.val) (BitVec.ofNat 32 ki.val) q k m l (ix2 r (0 : Fin 1)) : EReal)
      = sm (S ∪ Finset.univ.map e) sc (mx (S ∪ Finset.univ.map e) sc) := by
  have h9 := tile_max S e sc qi ki q k m r hts hm
  rw [pay12_apply, pay10_apply, h9, hm, hl, ← step_sm S (Finset.univ.map e) hdisj sc hsc]
  congr 1
  unfold sm
  rw [Finset.sum_map]
  exact Finset.sum_congr rfl fun jj _ => by rw [pay11_apply, h9, hts]

theorem tile_wsum (S : Finset (Fin 2048)) (e : Fin 256 ↪ Fin 2048) (hdisj : Disjoint S (Finset.univ.map e))
    (sc vc : Fin 2048 → EReal) (hsc : ∀ k, sc k ≠ ⊤) (hvc : ∀ k, vc k ≠ ⊤ ∧ vc k ≠ ⊥)
    (qi : Fin 4) (ki : Fin 8) (q : Vec Ideal S1x512x1024 .bf16) (k v : Vec Ideal S1x256x1024 .bf16)
    (m : Vec Ideal S512x1 .f32) (acc : Vec Ideal S512x1024 .f32) (r : Fin 512) (d : Fin 1024)
    (hts : ∀ jj, tileScore qi ki q k r jj = sc (e jj))
    (hv : ∀ jj, (v (ix3 (0 : Fin 1) jj d) : EReal) = vc (e jj))
    (hm : (m (ix2 r (0 : Fin 1)) : EReal) = mx S sc)
    (hacc : (acc (ix2 r d) : EReal) = wsm S sc vc (mx S sc)) :
    (k1_pay4 (F := Ideal) (k1_pay7 (F := Ideal) v)
        (k1_pay10 (F := Ideal) (BitVec.ofNat 32 qi.val) (BitVec.ofNat 32 ki.val) q k m)
        (k1_pay11 (F := Ideal) (BitVec.ofNat 32 qi.val) (BitVec.ofNat 32 ki.val) q k m) acc (ix2 r d) : EReal)
      = wsm (S ∪ Finset.univ.map e) sc vc (mx (S ∪ Finset.univ.map e) sc) := by
  have h9 := tile_max S e sc qi ki q k m r hts hm
  rw [pay4_apply, pay10_apply, h9, hm, hacc, ← step_wsm S (Finset.univ.map e) hdisj sc vc hsc hvc]
  congr 1
  unfold wsm
  rw [Finset.sum_map]
  exact Finset.sum_congr rfl fun jj _ => by rw [pay11_apply, h9, hts, pay7_apply, hv]

/-! ## The carried scratch as a softmax state -/

/-- The position of row r of query tile qi. -/
abbrev rowPos (qi : Fin 4) (r : Fin 512) : Fin 2048 := ⟨512 * qi.val + r.val, by omega⟩

/-- The carried scratch "st" is, for every row of query tile qi of batch b, the softmax state of the keys S: the row's
    maximum score over S, the sum of its exponentiated shifted scores, and per column that sum weighted by the values. -/
def StateIs (c : Dev nD) (b qi : Fin 4) (S : Finset (Fin 2048)) (st : Sc Ideal) : Prop :=
  ∀ r : Fin 512,
    (st.1 (ix2 r (0 : Fin 1)) : EReal) = mx S (Cert.Spec.score (rowsQ V c) (rowsK V c) b (rowPos qi r))
    ∧ (st.2.1 (ix2 r (0 : Fin 1)) : EReal)
        = sm S (Cert.Spec.score (rowsQ V c) (rowsK V c) b (rowPos qi r)) (mx S (Cert.Spec.score (rowsQ V c) (rowsK V c) b (rowPos qi r)))
    ∧ ∀ d : Fin 1024, (st.2.2 (ix2 r d) : EReal)
        = wsm S (Cert.Spec.score (rowsQ V c) (rowsK V c) b (rowPos qi r)) (fun k => rowsV V c b k d)
            (mx S (Cert.Spec.score (rowsQ V c) (rowsK V c) b (rowPos qi r)))

theorem StateIs_congr (c : Dev nD) {b b' qi qi' : Fin 4} {S S' : Finset (Fin 2048)} {st : Sc Ideal}
    (hb : b.val = b'.val) (hq : qi.val = qi'.val) (hS : S = S') (h : StateIs V c b qi S st) : StateIs V c b' qi' S' st := by
  obtain rfl := Fin.ext hb
  obtain rfl := Fin.ext hq
  subst hS
  exact h

/-- What the reset stores is the state of no key. -/
theorem reset_state (c : Dev nD) (b qi : Fin 4) : StateIs V c b qi ∅ (scReset (F := Ideal)) := fun r =>
  ⟨by rw [mx_empty]; exact pay1_apply r, by rw [sm_empty]; exact pay2_apply r, fun d => by rw [wsm_empty]; exact pay3_apply r d⟩

/-- What the update branch stores, from the scratch it finds. -/
abbrev updOf (qw kw : BitVec 32) (q : Vec Ideal S1x512x1024 .bf16) (k v : Vec Ideal S1x256x1024 .bf16) (s1 : Sc Ideal) : Sc Ideal :=
  (k1_pay5 (k1_pay9 qw kw q k s1.1),
   k1_pay12 qw kw q k s1.1 s1.2.1,
   k1_pay4 (k1_pay7 v) (k1_pay10 qw kw q k s1.1) (k1_pay11 qw kw q k s1.1) s1.2.2)

theorem scStep_eq (i : grid1.Coords) (q : Vec Ideal S1x512x1024 .bf16) (k v : Vec Ideal S1x256x1024 .bf16) (s : Sc Ideal) :
    scStep i q k v s
      = if cond1_1 i then updOf (qw i) (kw i) q k v (if cond1_0 i then scReset else s) else (if cond1_0 i then scReset else s) := rfl

/-! ## One grid point -/

/-- At a point whose key tile starts before its query tile ends, the score tile the body computes is the specification's
    scores of the query tile's rows against the keys of that tile. -/
theorem tile_score_eq (c : Dev nD) (t : Fin cfg1.N) (hlt : kOf t < 2 * (qOf t + 1)) (r : Fin 512) (jj : Fin 256) :
    tileScore ⟨qOf t, qOf_lt t⟩ ⟨kOf t, kOf_lt t⟩ (iblk1 (F := Ideal) V c 0 t) (iblk1 (F := Ideal) V c 1 t) r jj
      = Cert.Spec.score (rowsQ V c) (rowsK V c) ⟨bOf t, bOf_lt t⟩ (rowPos ⟨qOf t, qOf_lt t⟩ r) (tileKey (kOf t) (kOf_lt t) jj) := by
  have hkey : ∀ h, (⟨256 * min (kOf t) (2 * qOf t + 1) + jj.val, h⟩ : Fin 2048) = tileKey (kOf t) (kOf_lt t) jj :=
    fun h => Fin.ext (by rw [tileKey_val]; show 256 * min (kOf t) (2 * qOf t + 1) + jj.val = _; rw [Nat.min_eq_left (by omega)])
  unfold tileScore Cert.Spec.score
  refine if_congr Iff.rfl ?_ rfl
  congr 1
  refine Finset.sum_congr rfl fun d _ => ?_
  rw [blkQ, blkK, hkey]

/-- The value block at such a point holds the values of that tile's keys. -/
theorem tile_value_eq (c : Dev nD) (t : Fin cfg1.N) (hlt : kOf t < 2 * (qOf t + 1)) (jj : Fin 256) (d : Fin 1024) :
    (iblk1 (F := Ideal) V c 2 t (ix3 (0 : Fin 1) jj d) : EReal) = rowsV V c ⟨bOf t, bOf_lt t⟩ (tileKey (kOf t) (kOf_lt t) jj) d := by
  have hkey : ∀ h, (⟨256 * min (kOf t) (2 * qOf t + 1) + jj.val, h⟩ : Fin 2048) = tileKey (kOf t) (kOf_lt t) jj :=
    fun h => Fin.ext (by rw [tileKey_val]; show 256 * min (kOf t) (2 * qOf t + 1) + jj.val = _; rw [Nat.min_eq_left (by omega)])
  rw [blkV, hkey]

/-- One grid point: if the scratch found is the state of the keys before this point's key tile (capped at the last tile
    the query tile needs) — or anything at key tile 0 —, the scratch left is the state of the keys before the next. -/
theorem point_state (c : Dev nD)
    (hQ : ∀ i, (in1Q V c i : EReal) ≠ ⊤ ∧ (in1Q V c i : EReal) ≠ ⊥)
    (hK : ∀ i, (in1K V c i : EReal) ≠ ⊤ ∧ (in1K V c i : EReal) ≠ ⊥)
    (hV : ∀ i, (in1V V c i : EReal) ≠ ⊤ ∧ (in1V V c i : EReal) ≠ ⊥)
    (t : Fin cfg1.N) (s : Sc Ideal)
    (hs : kOf t ≠ 0 → StateIs V c ⟨bOf t, bOf_lt t⟩ ⟨qOf t, qOf_lt t⟩ (keysBelow (min (kOf t) (2 * qOf t + 2))) s) :
    StateIs V c ⟨bOf t, bOf_lt t⟩ ⟨qOf t, qOf_lt t⟩ (keysBelow (min (kOf t + 1) (2 * qOf t + 2)))
      (scStep (grid1.coords t) (iblk1 (F := Ideal) V c 0 t) (iblk1 (F := Ideal) V c 1 t) (iblk1 (F := Ideal) V c 2 t) s) := by
  rw [scStep_eq]
  -- the scratch the update starts from: the reset's at key tile 0, the one found otherwise
  have hs1 : StateIs V c ⟨bOf t, bOf_lt t⟩ ⟨qOf t, qOf_lt t⟩ (keysBelow (min (kOf t) (2 * qOf t + 2)))
      (if cond1_0 (grid1.coords t) then scReset else s) := by
    by_cases h0 : kOf t = 0
    · rw [if_pos ((hcond1_0 t).2 h0), h0, Nat.zero_min, keysBelow_zero]
      exact reset_state V c _ _
    · rw [if_neg (fun h => h0 ((hcond1_0 t).1 h))]
      exact hs h0
  by_cases h1 : cond1_1 (grid1.coords t)
  · -- the key tile starts before the query tile ends: its keys join
    have hlt : kOf t < 2 * (qOf t + 1) := (hcond1_1 t).1 h1
    have hmin0 : min (kOf t) (2 * qOf t + 2) = kOf t := Nat.min_eq_left (by omega)
    have hmin1 : min (kOf t + 1) (2 * qOf t + 2) = kOf t + 1 := Nat.min_eq_left (by omega)
    have hqw : qw (grid1.coords t) = BitVec.ofNat 32 (⟨qOf t, qOf_lt t⟩ : Fin 4).val := by
      show BitVec.ofNat 32 ((grid1.coords t) 1).val = BitVec.ofNat 32 (qOf t)
      rw [coords1_1]
    have hkw : kw (grid1.coords t) = BitVec.ofNat 32 (⟨kOf t, kOf_lt t⟩ : Fin 8).val := by
      show BitVec.ofNat 32 ((grid1.coords t) 2).val = BitVec.ofNat 32 (kOf t)
      rw [coords1_2]
    rw [if_pos h1, hmin1, keysBelow_succ (kOf t) (kOf_lt t), hqw, hkw]
    rw [hmin0] at hs1
    intro r
    obtain ⟨hm, hl, hacc⟩ := hs1 r
    have hsc : ∀ k, Cert.Spec.score (rowsQ V c) (rowsK V c) ⟨bOf t, bOf_lt t⟩ (rowPos ⟨qOf t, qOf_lt t⟩ r) k ≠ ⊤ :=
      fun k => score_ne_top _ _ (fun b s d => hQ (ix3 b s d)) (fun b s d => hK (ix3 b s d)) _ _ k
    have hts := fun jj => tile_score_eq V c t hlt r jj
    refine ⟨?_, ?_, fun d => ?_⟩
    · show (k1_pay5 (F := Ideal) (k1_pay9 (F := Ideal) _ _ _ _ _) (ix2 r (0 : Fin 1)) : EReal) = _
      rw [pay5_eq]
      exact tile_max _ _ _ _ _ _ _ _ r hts hm
    · exact tile_sum _ _ (keysBelow_disjoint (kOf t) (kOf_lt t)) _ hsc _ _ _ _ _ _ r hts hm hl
    · exact tile_wsum _ _ (keysBelow_disjoint (kOf t) (kOf_lt t)) _ (fun k => rowsV V c ⟨bOf t, bOf_lt t⟩ k d) hsc
        (fun k => hV (ix3 _ k d)) _ _ _ _ _ _ _ r d hts (fun jj => tile_value_eq V c t hlt jj d) hm (hacc d)
  · -- the key tile lies wholly after the query tile: nothing changes, and no key joins
    have hge : ¬ kOf t < 2 * (qOf t + 1) := fun h => h1 ((hcond1_1 t).2 h)
    have hsame : min (kOf t + 1) (2 * qOf t + 2) = min (kOf t) (2 * qOf t + 2) := by
      rw [Nat.min_eq_right (by omega), Nat.min_eq_right (by omega)]
    rw [if_neg h1, hsame]
    exact hs1

/-! ## Every grid point -/

/-- After the point at position n the carried scratch is the state of the keys before the next key tile, capped. -/
theorem scAt_state (c : Dev nD)
    (hQ : ∀ i, (in1Q V c i : EReal) ≠ ⊤ ∧ (in1Q V c i : EReal) ≠ ⊥)
    (hK : ∀ i, (in1K V c i : EReal) ≠ ⊤ ∧ (in1K V c i : EReal) ≠ ⊥)
    (hV : ∀ i, (in1V V c i : EReal) ≠ ⊤ ∧ (in1V V c i : EReal) ≠ ⊥) :
    ∀ (n : ℕ) (hn : n < cfg1.N),
      StateIs V c ⟨bOf ⟨n, hn⟩, bOf_lt _⟩ ⟨qOf ⟨n, hn⟩, qOf_lt _⟩ (keysBelow (min (kOf ⟨n, hn⟩ + 1) (2 * qOf ⟨n, hn⟩ + 2)))
        (scAt (F := Ideal) V c n hn)
  | 0, hn => by
    rw [scAt_zero]
    exact point_state V c hQ hK hV ⟨0, hn⟩ scReset fun h => absurd (Nat.zero_mod 8) h
  | n + 1, hn => by
    rw [scAt_succ]
    refine point_state V c hQ hK hV ⟨n + 1, hn⟩ _ fun h => ?_
    have hne : (n + 1) % 8 ≠ 0 := h
    have ih := scAt_state c hQ hK hV n (Nat.lt_of_succ_lt hn)
    have e1 : (n + 1) % 8 = n % 8 + 1 := by omega
    have e2 : (n + 1) / 8 % 4 = n / 8 % 4 := by omega
    have e3 : (n + 1) / 32 = n / 32 := by omega
    refine StateIs_congr V c (show n / 32 = (n + 1) / 32 from e3.symm) (show n / 8 % 4 = (n + 1) / 8 % 4 from e2.symm) ?_ ih
    show keysBelow (min (n % 8 + 1) (2 * (n / 8 % 4) + 2)) = keysBelow (min ((n + 1) % 8) (2 * ((n + 1) / 8 % 4) + 2))
    rw [e1, e2]

/-! ## After the last key tile: all keys -/

theorem mx_of_masked (S : Finset (Fin 2048)) (sc : Fin 2048 → EReal) (hbot : ∀ k, k ∉ S → sc k = ⊥) :
    mx Finset.univ sc = mx S sc := by
  unfold mx
  refine le_antisymm (Finset.sup_le fun k _ => ?_) (Finset.sup_mono (Finset.subset_univ S))
  by_cases hk : k ∈ S
  · exact Finset.le_sup hk
  · rw [hbot k hk]; exact bot_le

theorem sm_of_masked (S : Finset (Fin 2048)) (sc : Fin 2048 → EReal) (M : EReal) (hbot : ∀ k, k ∉ S → sc k = ⊥) :
    sm Finset.univ sc M = sm S sc M := by
  unfold sm
  exact (Finset.sum_subset (Finset.subset_univ S) fun k _ hk => by rw [hbot k hk, EReal.bot_sub, Ideal.exp_bot]).symm

theorem wsm_of_masked (S : Finset (Fin 2048)) (sc vc : Fin 2048 → EReal) (M : EReal) (hbot : ∀ k, k ∉ S → sc k = ⊥) :
    wsm Finset.univ sc vc M = wsm S sc vc M := by
  unfold wsm
  exact (Finset.sum_subset (Finset.subset_univ S) fun k _ hk => by rw [hbot k hk, EReal.bot_sub, Ideal.exp_bot, zero_mul]).symm

/-- Region 1's output array at batch b, row s, column d. -/
theorem arr1_4 (c : Dev nD)
    (hQ : ∀ i, (in1Q V c i : EReal) ≠ ⊤ ∧ (in1Q V c i : EReal) ≠ ⊥)
    (hK : ∀ i, (in1K V c i : EReal) ≠ ⊤ ∧ (in1K V c i : EReal) ≠ ⊥)
    (hV : ∀ i, (in1V V c i : EReal) ≠ ⊤ ∧ (in1V V c i : EReal) ≠ ⊥)
    (b : Fin 4) (s : Fin 2048) (d : Fin 1024) :
    (out1A V c (ix3 b s d) : EReal)
      = (in1X V c (ix3 b s d) : EReal)
        + Cert.Spec.attend (fun b s d => (in1Q V c (ix3 b s d) : EReal)) (fun b s d => (in1K V c (ix3 b s d) : EReal))
            (fun b s d => (in1V V c (ix3 b s d) : EReal)) b s d := by
  -- the row as a row of a query tile
  obtain ⟨qi, r, rfl⟩ : ∃ (qi : Fin 4) (r : Fin 512), s = rowPos qi r :=
    ⟨⟨s.val / 512, by omega⟩, ⟨s.val % 512, by omega⟩, Fin.ext (by show s.val = 512 * (s.val / 512) + s.val % 512; omega)⟩
  have hsc : ∀ k, Cert.Spec.score (rowsQ V c) (rowsK V c) b (rowPos qi r) k ≠ ⊤ :=
    fun k => score_ne_top _ _ (fun b s d => hQ (ix3 b s d)) (fun b s d => hK (ix3 b s d)) _ _ k
  have hvc : ∀ k, rowsV V c b k d ≠ ⊤ ∧ rowsV V c b k d ≠ ⊥ := fun k => hV (ix3 b k d)
  -- the carried scratch after the tile's last point is the state of the keys the query tile needs
  have hN : 32 * b.val + 8 * qi.val + 7 < cfg1.N := by rw [show cfg1.N = 128 from N_1]; omega
  have hst : StateIs V c b qi (keysBelow (2 * qi.val + 2)) (scAt (F := Ideal) V c (32 * b.val + 8 * qi.val + 7) hN) := by
    refine StateIs_congr V c (show (32 * b.val + 8 * qi.val + 7) / 32 = b.val by omega)
      (show (32 * b.val + 8 * qi.val + 7) / 8 % 4 = qi.val by omega) ?_ (scAt_state V c hQ hK hV _ hN)
    show keysBelow (min ((32 * b.val + 8 * qi.val + 7) % 8 + 1) (2 * ((32 * b.val + 8 * qi.val + 7) / 8 % 4) + 2)) = _
    rw [show (32 * b.val + 8 * qi.val + 7) % 8 = 7 by omega, show (32 * b.val + 8 * qi.val + 7) / 8 % 4 = qi.val by omega,
      Nat.min_eq_right (by omega)]
  obtain ⟨-, hl, hacc⟩ := hst r
  -- every other key is after the row
  have hbot : ∀ k, k ∉ keysBelow (2 * qi.val + 2) → Cert.Spec.score (rowsQ V c) (rowsK V c) b (rowPos qi r) k = ⊥ := fun k hk => by
    rw [mem_keysBelow] at hk
    exact score_masked _ _ b _ k (by show 512 * qi.val + r.val < k.val; omega)
  have hbt : ∀ h, (⟨bOf (⟨32 * b.val + 8 * qi.val + 7, hN⟩ : Fin cfg1.N), h⟩ : Fin 4) = b :=
    fun h => Fin.ext (by show (32 * b.val + 8 * qi.val + 7) / 32 = b.val; omega)
  have hrow : ∀ h, (⟨512 * qOf (⟨32 * b.val + 8 * qi.val + 7, hN⟩ : Fin cfg1.N) + r.val, h⟩ : Fin 2048) = rowPos qi r :=
    fun h => Fin.ext (by show 512 * ((32 * b.val + 8 * qi.val + 7) / 8 % 4) + r.val = 512 * qi.val + r.val; omega)
  -- the finalised block: the residual plus the quotient of the two carried sums
  have h6 : (out1 (F := Ideal) V c (⟨32 * b.val + 8 * qi.val + 7, hN⟩ : Fin cfg1.N) (ix3 (0 : Fin 1) r d) : EReal) = _ :=
    pay6_apply (iblk1 (F := Ideal) V c 3 (⟨32 * b.val + 8 * qi.val + 7, hN⟩ : Fin cfg1.N))
      (scAt (F := Ideal) V c (32 * b.val + 8 * qi.val + 7) hN).2.2 (scAt (F := Ideal) V c (32 * b.val + 8 * qi.val + 7) hN).2.1 r d
  rw [blkX, hbt, hrow, hacc d, hl, ← mx_of_masked _ _ hbot, ← sm_of_masked _ _ _ hbot, ← wsm_of_masked _ _ _ _ hbot,
    quotient _ _ hsc hvc ⟨⟨0, by omega⟩, score_first_ne_bot _ _ (fun b s d => hQ (ix3 b s d)) (fun b s d => hK (ix3 b s d)) b _⟩] at h6
  exact (out1_block V c b qi r d).trans h6

end Cert.KernelIdeal.Hand

end
-- ==== Proof.KI.Val2.lean ====
/-
  Region 2's output array after the region, index by index: each row of its input goes through the row block of the
  specification (normalise, feed forward, add back, normalise) with the transposed weights the region is handed.
-/
import proofs.«408005_j88158498718040_3_alg».proof.Proof.KI.Core
import proofs.«408005_j88158498718040_3_alg».proof.Proof.Spec
import proofs.«408005_j88158498718040_3_alg».proof.Proof.KI.Arr
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The layout operations of the body, read at an index -/

/-- A width-1024 vector laid as one row and repeated over 512 rows reads, at (p, q), the vector at q. -/
theorem rowRepeat2_apply {α : Type} (v : S1024.Idx → α) (hc : S1024.ShapeCasts S1x1024) (hb : S1x1024.Broadcasts S512x1024)
    (p : Fin 512) (q : Fin 1024) : broadcastTo S512x1024 (shapeCast S1x1024 v hc) hb (ix2 p q) = v (ix1 q) := by
  rw [broadcastTo_1b_ab_apply, shapeCast_a_1a_apply]

/-- A length-512 vector laid as a column reads, at (p, u), the vector at p. -/
theorem colCast2_apply {α : Type} (x : S512.Idx → α) (hc : S512.ShapeCasts S512x1) (p : Fin 512) (u : Fin 1) :
    shapeCast S512x1 x hc (ix2 p u) = x (ix1 p) :=
  shapeCast_apply x hc _ _ (by
    have hu : u.val = 0 := by omega
    rw [Shape.rowMajor_val_two, Shape.rowMajor_val_one]
    show p.val = p.val * 1 + u.val
    rw [hu, Nat.mul_one, Nat.add_zero])

/-- A column of 512 entries repeated over 1024 columns reads, at (p, q), the column at p. -/
theorem colRepeat2_apply {α : Type} (v : S512x1.Idx → α) (hb : S512x1.Broadcasts S512x1024) (p : Fin 512) (q : Fin 1024) :
    broadcastTo S512x1024 v hb (ix2 p q) = v (ix2 p (0 : Fin 1)) := by
  refine broadcastTo_apply v hb (ix2 p q) (ix2 p (0 : Fin 1)) fun ax => ?_
  match ax with
  | ⟨0, _⟩ => rfl
  | ⟨1, _⟩ => rfl

/-- The sum over the columns of a 512 by 1024 block, at row p. -/
theorem laneSum2_apply (src : FVec Ideal S512x1024 .f32) (h : S512x1024.Reduces [1] S512) (hφ : FKind.Formats .f32)
    (hacc : (0x00000000#32 : BitVec 32) = FKind.add.neutral .f32 hφ) (p : Fin 512) :
    multiReduction .add [1] S512 src 0x00000000#32 h hφ hacc (ix1 p) = ∑ k : Fin 1024, src (ix2 p k) := by
  rw [Ideal.multiReduction_add_single]
  refine Finset.sum_congr rfl fun k _ => congrArg src ?_
  funext a
  match a with
  | ⟨0, _⟩ => rfl
  | ⟨1, _⟩ => rfl

/-! ## The payloads, read at an index -/

/-- The reciprocal square root of a vector, at an index. -/
theorem rsqrt2_apply {s : Shape} {φ : FTy} (v : FVec Ideal s φ) (i : s.Idx) : rsqrt v i = Ideal.rsqrt (v i) := rfl

/-- The first normalisation of a row block, at (p, q): the row p normalised, at q. -/
theorem ffn_pay2_apply (x : Vec Ideal S512x1024 .f32) (g be : Vec Ideal S1024 .f32) (p : Fin 512) (q : Fin 1024) :
    (k2_pay2 x g be (ix2 p q) : EReal)
      = Cert.Spec.normRow (fun d => (g (ix1 d) : EReal)) (fun d => (be (ix1 d) : EReal)) (fun d => (x (ix2 p d) : EReal)) q := by
  unfold k2_pay2
  simp only [addf_apply, mulf_apply, subf_apply, divf_apply, rowRepeat2_apply, colRepeat2_apply, colCast2_apply,
    shapeCast_self, broadcast_apply, rsqrt2_apply]
  erw [laneSum2_apply, laneSum2_apply]
  simp only [addf_apply, mulf_apply, subf_apply, divf_apply, rowRepeat2_apply, colRepeat2_apply, colCast2_apply,
    shapeCast_self, broadcast_apply, rsqrt2_apply]
  erw [laneSum2_apply]
  simp only [Ideal.ofBits_def]
  rfl

/-! ## The body's matrix product, read at an index -/

theorem dot2_lhs_0 (j : S512x1024.Idx) (k : dot_S512x1024_S1024x1024_S512x1024_1_0_0_1_n_n.contr.Idx) :
    (dot_S512x1024_S1024x1024_S512x1024_1_0_0_1_n_n.lhsIdx j k 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dot2_lhs_1 (j : S512x1024.Idx) (k : dot_S512x1024_S1024x1024_S512x1024_1_0_0_1_n_n.contr.Idx) :
    (dot_S512x1024_S1024x1024_S512x1024_1_0_0_1_n_n.lhsIdx j k 1).val = (k ⟨0, by decide⟩).val :=
  dot_S512x1024_S1024x1024_S512x1024_1_0_0_1_n_n.lhsIdx_val_of_single rfl j k
theorem dot2_rhs_0 (j : S512x1024.Idx) (k : dot_S512x1024_S1024x1024_S512x1024_1_0_0_1_n_n.contr.Idx) :
    (dot_S512x1024_S1024x1024_S512x1024_1_0_0_1_n_n.rhsIdx j k 0).val = (k ⟨0, by decide⟩).val :=
  dot_S512x1024_S1024x1024_S512x1024_1_0_0_1_n_n.rhsIdx_val_of_single rfl j k
theorem dot2_rhs_1 (j : S512x1024.Idx) (k : dot_S512x1024_S1024x1024_S512x1024_1_0_0_1_n_n.contr.Idx) :
    (dot_S512x1024_S1024x1024_S512x1024_1_0_0_1_n_n.rhsIdx j k 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A 512 by 1024 block times a 1024 by 1024 matrix into zero accumulators, at (p, e): the row p against the column e. -/
theorem matmul2_apply (lhs : FVec Ideal S512x1024 .bf16) (rhs : FVec Ideal S1024x1024 .bf16) (p : Fin 512) (e : Fin 1024) :
    matmul dot_S512x1024_S1024x1024_S512x1024_1_0_0_1_n_n none lhs rhs (constant S512x1024 .f32 0x00000000#32) (ix2 p e)
      = ∑ k : Fin 1024, lhs (ix2 p k) * rhs (ix2 k e) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p e) ((contrEquiv1 dot_S512x1024_S1024x1024_S512x1024_1_0_0_1_n_n 1024 rfl rfl).symm k) = ix2 p k := funext fun a => Fin.ext (by
    match a with
    | ⟨0, _⟩ => exact dot2_lhs_0 _ _
    | ⟨1, _⟩ => exact (dot2_lhs_1 _ _).trans hk)
  have er : dot_S512x1024_S1024x1024_S512x1024_1_0_0_1_n_n.rhsIdx (ix2 p e) ((contrEquiv1 dot_S512x1024_S1024x1024_S512x1024_1_0_0_1_n_n 1024 rfl rfl).symm k) = ix2 k e := funext fun a => Fin.ext (by
    match a with
    | ⟨0, _⟩ => exact (dot2_rhs_0 _ _).trans hk
    | ⟨1, _⟩ => exact dot2_rhs_1 _ _)
  rw [el, er]

/-- The feed-forward product of a row block, at (p, e): the hidden row of the normalised row p against the column e of
    the second weight array. The first weight array is read transposed. -/
theorem ffn_pay3_apply (x : Vec Ideal S512x1024 .f32) (g be : Vec Ideal S1024 .f32) (w1 : Vec Ideal S1024x1024 .bf16)
    (b1 : Vec Ideal S1024 .f32) (w2 : Vec Ideal S1024x1024 .bf16) (p : Fin 512) (e : Fin 1024) :
    (k2_pay3 x g be w1 b1 w2 (ix2 p e) : EReal)
      = ∑ d : Fin 1024, Cert.Spec.hiddenRow (fun d d' => (w1 (ix2 d' d) : EReal)) (fun d => (b1 (ix1 d) : EReal))
          (Cert.Spec.normRow (fun d => (g (ix1 d) : EReal)) (fun d => (be (ix1 d) : EReal)) (fun d => (x (ix2 p d) : EReal))) d
          * (w2 (ix2 d e) : EReal) := by
  unfold k2_pay3
  simp only [matmul2_apply, truncf_apply, maximumf_apply, addf_apply, rowRepeat2_apply, shapeCast_self, broadcast_apply,
    ffn_pay2_apply, Ideal.ofBits_def, Ideal.ofBits_zero_f32]
  rfl

/-- The second normalisation, at (p, q): the row p of the first normalisation plus the feed-forward product plus the
    second bias, normalised, at q. -/
theorem ffn_pay1_apply (h f : FVec Ideal S512x1024 .f32) (b2 g be : Vec Ideal S1024 .f32) (p : Fin 512) (q : Fin 1024) :
    (k2_pay1 h f b2 g be (ix2 p q) : EReal)
      = Cert.Spec.normRow (fun d => (g (ix1 d) : EReal)) (fun d => (be (ix1 d) : EReal))
          (fun d => (h (ix2 p d) : EReal) + ((f (ix2 p d) : EReal) + (b2 (ix1 d) : EReal))) q := by
  unfold k2_pay1
  simp only [addf_apply, mulf_apply, subf_apply, divf_apply, rowRepeat2_apply, colRepeat2_apply, colCast2_apply,
    shapeCast_self, broadcast_apply, rsqrt2_apply]
  erw [laneSum2_apply, laneSum2_apply]
  simp only [addf_apply, mulf_apply, subf_apply, divf_apply, rowRepeat2_apply, colRepeat2_apply, colCast2_apply,
    shapeCast_self, broadcast_apply, rsqrt2_apply]
  erw [laneSum2_apply]
  simp only [addf_apply, rowRepeat2_apply, Ideal.ofBits_def]
  rfl

/-- What the body stores, at (p, e): the row block of the specification on row p, at e. -/
theorem out2_apply (x : Vec Ideal S512x1024 .f32) (w1 : Vec Ideal S1024x1024 .bf16) (b1 : Vec Ideal S1024 .f32)
    (w2 : Vec Ideal S1024x1024 .bf16) (b2 g be : Vec Ideal S1024 .f32) (p : Fin 512) (e : Fin 1024) :
    (out2 x w1 b1 w2 b2 g be (ix2 p e) : EReal)
      = Cert.Spec.blockRow (fun d d' => (w1 (ix2 d' d) : EReal)) (fun d => (b1 (ix1 d) : EReal))
          (fun e' d => (w2 (ix2 d e') : EReal)) (fun d => (b2 (ix1 d) : EReal))
          (fun d => (g (ix1 d) : EReal)) (fun d => (be (ix1 d) : EReal)) (fun d => (x (ix2 p d) : EReal)) e := by
  unfold out2
  rw [ffn_pay1_apply]
  simp only [ffn_pay2_apply, ffn_pay3_apply]
  rfl

/-! ## The blocks of the region's windows -/

/-- The printed index maps, decided over the grid: the rows' window and the output's are at block (t, 0), the six whole
    arrays at block 0. -/
theorem idx_facts2 : ∀ t : Fin cfg2.N,
    win2_0.index t (0 : Fin 2) = t.val ∧ win2_0.index t (1 : Fin 2) = 0
    ∧ win2_7.index t (0 : Fin 2) = t.val ∧ win2_7.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0 ∧ win2_5.index t (0 : Fin 1) = 0 ∧ win2_6.index t (0 : Fin 1) = 0 :=
  (by decide +kernel : ∀ t : Fin grid2.N, _)

/-- The rows' block at point t, at (p, d): row 512 t + p of the rows' array, at d. -/
theorem iblk2_0_apply (c : Dev nD) (t : Fin cfg2.N) (p : Fin 512) (d : Fin 1024) (r : Fin 8192) (hr : r.val = 512 * t.val + p.val) :
    (iblk2 V c 0 t : Vec Ideal S512x1024 .f32) (ix2 p d) = in2S V c (ix2 r d) := by
  obtain ⟨e0, e1, -⟩ := idx_facts2 t
  unfold iblk2
  rw [View.read_apply]
  show V c main_v17 _ = V c main_v17 _
  congr 1
  funext a
  apply Fin.ext
  match a with
  | ⟨0, _⟩ => show win2_0.index t (0 : Fin 2) * 512 + 1 * p.val = r.val; rw [e0, hr]; omega
  | ⟨1, _⟩ => show win2_0.index t (1 : Fin 2) * 1024 + 1 * d.val = d.val; rw [e1]; omega

/-- Each of the six whole arrays' blocks, at any point, is the array. -/
theorem iblk2_1_eq (c : Dev nD) (t : Fin cfg2.N) : (iblk2 V c 1 t : Vec Ideal S1024x1024 .bf16) = in2W1 V c := by
  obtain ⟨-, -, -, -, e0, e1, -⟩ := idx_facts2 t
  funext j
  unfold iblk2
  rw [View.read_apply]
  show V c main_v9 _ = V c main_v9 j
  congr 1
  funext a
  apply Fin.ext
  match a with
  | ⟨0, _⟩ => show win2_1.index t (0 : Fin 2) * 1024 + 1 * (j 0).val = (j 0).val; rw [e0]; omega
  | ⟨1, _⟩ => show win2_1.index t (1 : Fin 2) * 1024 + 1 * (j 1).val = (j 1).val; rw [e1]; omega
theorem iblk2_2_eq (c : Dev nD) (t : Fin cfg2.N) : (iblk2 V c 2 t : Vec Ideal S1024 .f32) = in2B1 V c := by
  obtain ⟨-, -, -, -, -, -, e0, -⟩ := idx_facts2 t
  funext j
  unfold iblk2
  rw [View.read_apply]
  show V c main_arg5 _ = V c main_arg5 j
  congr 1
  funext a
  apply Fin.ext
  match a with
  | ⟨0, _⟩ => show win2_2.index t (0 : Fin 1) * 1024 + 1 * (j 0).val = (j 0).val; rw [e0]; omega
theorem iblk2_3_eq (c : Dev nD) (t : Fin cfg2.N) : (iblk2 V c 3 t : Vec Ideal S1024x1024 .bf16) = in2W2 V c := by
  obtain ⟨-, -, -, -, -, -, -, e0, e1, -⟩ := idx_facts2 t
  funext j
  unfold iblk2
  rw [View.read_apply]
  show V c main_v11 _ = V c main_v11 j
  congr 1
  funext a
  apply Fin.ext
  match a with
  | ⟨0, _⟩ => show win2_3.index t (0 : Fin 2) * 1024 + 1 * (j 0).val = (j 0).val; rw [e0]; omega
  | ⟨1, _⟩ => show win2_3.index t (1 : Fin 2) * 1024 + 1 * (j 1).val = (j 1).val; rw [e1]; omega
theorem iblk2_4_eq (c : Dev nD) (t : Fin cfg2.N) : (iblk2 V c 4 t : Vec Ideal S1024 .f32) = in2B2 V c := by
  obtain ⟨-, -, -, -, -, -, -, -, -, e0, -⟩ := idx_facts2 t
  funext j
  unfold iblk2
  rw [View.read_apply]
  show V c main_arg7 _ = V c main_arg7 j
  congr 1
  funext a
  apply Fin.ext
  match a with
  | ⟨0, _⟩ => show win2_4.index t (0 : Fin 1) * 1024 + 1 * (j 0).val = (j 0).val; rw [e0]; omega
theorem iblk2_5_eq (c : Dev nD) (t : Fin cfg2.N) : (iblk2 V c 5 t : Vec Ideal S1024 .f32) = in2G V c := by
  obtain ⟨-, -, -, -, -, -, -, -, -, -, e0, -⟩ := idx_facts2 t
  funext j
  unfold iblk2
  rw [View.read_apply]
  show V c main_arg8 _ = V c main_arg8 j
  congr 1
  funext a
  apply Fin.ext
  match a with
  | ⟨0, _⟩ => show win2_5.index t (0 : Fin 1) * 1024 + 1 * (j 0).val = (j 0).val; rw [e0]; omega
theorem iblk2_6_eq (c : Dev nD) (t : Fin cfg2.N) : (iblk2 V c 6 t : Vec Ideal S1024 .f32) = in2Be V c := by
  obtain ⟨-, -, -, -, -, -, -, -, -, -, -, e0⟩ := idx_facts2 t
  funext j
  unfold iblk2
  rw [View.read_apply]
  show V c main_arg9 _ = V c main_arg9 j
  congr 1
  funext a
  apply Fin.ext
  match a with
  | ⟨0, _⟩ => show win2_6.index t (0 : Fin 1) * 1024 + 1 * (j 0).val = (j 0).val; rw [e0]; omega

/-! ## What a point writes back, and the array after the region -/

/-- The array the region leaves, as one function of the arrays it is handed: at (r, e), the row block of the
    specification on row r of the rows' array, at e. -/
def G2 (c : Dev nD) : Vec Ideal S8192x1024 .f32 := fun i =>
  Cert.Spec.blockRow (fun d d' => (in2W1 V c (ix2 d' d) : EReal)) (fun d => (in2B1 V c (ix1 d) : EReal))
    (fun e' d => (in2W2 V c (ix2 d e') : EReal)) (fun d => (in2B2 V c (ix1 d) : EReal))
    (fun d => (in2G V c (ix1 d) : EReal)) (fun d => (in2Be V c (ix1 d) : EReal))
    (fun d => (in2S V c (ix2 (i 0 : Fin 8192) d) : EReal)) (i 1 : Fin 1024)

/-- What point t writes back is block t of that function. -/
theorem flushed2_eq (c : Dev nD) (t : Fin cfg2.N) :
    (dat2 (F := Ideal) V c).flushed 7 t = ((cfg2.win 7).blk t).view.read (Elt Ideal) (G2 V c) := by
  show (cfg2.win 7).cut (grid2.coords t) ((dat2 (F := Ideal) V c).after 7 t) = _
  rw [after2_7]
  obtain ⟨-, -, e70, e71, -⟩ := idx_facts2 t
  refine funext fun (j : S512x1024.Idx) => ?_
  obtain ⟨p, q, rfl⟩ : ∃ (p : Fin 512) (q : Fin 1024), j = ix2 p q := ⟨j 0, j 1, eq_ix2 j⟩
  show out2 (iblk2 V c 0 t) (iblk2 V c 1 t) (iblk2 V c 2 t) (iblk2 V c 3 t) (iblk2 V c 4 t) (iblk2 V c 5 t) (iblk2 V c 6 t) (ix2 p q)
    = G2 V c (((cfg2.win 7).blk t).view.emb (ix2 p q))
  refine (out2_apply _ _ _ _ _ _ _ p q).trans ?_
  rw [iblk2_1_eq, iblk2_2_eq, iblk2_3_eq, iblk2_4_eq, iblk2_5_eq, iblk2_6_eq]
  have hr : ((((cfg2.win 7).blk t).view.emb (ix2 p q)) 0 : Fin 8192).val = 512 * t.val + p.val := by
    show win2_7.index t (0 : Fin 2) * 512 + 1 * p.val = _
    rw [e70]; omega
  have hq : ((((cfg2.win 7).blk t).view.emb (ix2 p q)) 1 : Fin 1024) = q := by
    apply Fin.ext
    show win2_7.index t (1 : Fin 2) * 1024 + 1 * q.val = _
    rw [e71]; omega
  unfold G2
  rw [hq]
  congr 1
  funext d
  exact iblk2_0_apply V c t p d _ hr

/-- An index of the array is in point t's block iff each coordinate is in the block's range on its axis. -/
theorem mem_blk2 (t : Fin cfg2.N) (i : S8192x1024.Idx) :
    i ∈ ((cfg2.win 7).blk t).view.set ↔ ∀ a : Fin 2, win2_7.index t a * S512x1024.size a ≤ (i a).val ∧ (i a).val < win2_7.index t a * S512x1024.size a + S512x1024.size a := by
  show i ∈ ((View.whole main_v18).slice (win2_7.rect t)).set ↔ _
  rw [View.set_slice_whole, Rect.mem_set_unit]
  exact Iff.rfl

/-- Every index of the array is in the block of the point its row falls in. -/
theorem cover2 (i : S8192x1024.Idx) : ∃ t : Fin cfg2.N, (cfg2.win 7).flush t = true ∧ i ∈ ((cfg2.win 7).blk t).view.set := by
  have h0 : (i 0).val < 8192 := (i 0).isLt
  have h1 : (i 1).val < 1024 := (i 1).isLt
  have hN : grid2.N = 16 := N_2
  refine ⟨⟨(i 0).val / 512, by show _ < grid2.N; omega⟩, flush2_7 _, ?_⟩
  rw [mem_blk2]
  obtain ⟨-, -, e70, e71, -⟩ := idx_facts2 ⟨(i 0).val / 512, by show _ < grid2.N; omega⟩
  intro a
  match a with
  | ⟨0, _⟩ =>
    show win2_7.index _ (0 : Fin 2) * 512 ≤ (i 0).val ∧ (i 0).val < win2_7.index _ (0 : Fin 2) * 512 + 512
    rw [e70]; show (i 0).val / 512 * 512 ≤ (i 0).val ∧ (i 0).val < (i 0).val / 512 * 512 + 512; omega
  | ⟨1, _⟩ =>
    show win2_7.index _ (1 : Fin 2) * 1024 ≤ (i 1).val ∧ (i 1).val < win2_7.index _ (1 : Fin 2) * 1024 + 1024
    rw [e71]; omega

/-- The array after the region is that function. -/
theorem final2 (c : Dev nD) : (dat2 (F := Ideal) V c).arrAt 7 cfg2.N = G2 V c :=
  (dat2 (F := Ideal) V c).arrAt_eq_of_cover 7 (G2 V c) (fun t _ => flushed2_eq V c t) cover2

/-- Region 2's output array at row r, column e. The region is handed the weights transposed: its first weight array at
    (d', d) is the first weight matrix at (d, d'), its second at (d, e) the second weight matrix at (e, d). -/
theorem arr2_7 (c : Dev nD) (r : Fin 8192) (e : Fin 1024) :
    (out2A V c (ix2 r e) : EReal)
      = Cert.Spec.blockRow (fun d d' => (in2W1 V c (ix2 d' d) : EReal)) (fun d => (in2B1 V c (ix1 d) : EReal))
          (fun e' d => (in2W2 V c (ix2 d e') : EReal)) (fun d => (in2B2 V c (ix1 d) : EReal))
          (fun d => (in2G V c (ix1 d) : EReal)) (fun d => (in2Be V c (ix1 d) : EReal))
          (fun d => (in2S V c (ix2 r d) : EReal)) e := by
  show (dat2 (F := Ideal) V c).arrAt 7 cfg2.N (ix2 r e) = _
  rw [final2]
  rfl

end Cert.KernelIdeal.Hand

end
-- ==== Proof.KI.Glue.lean ====
/-
  The kernel program's result array, index by index, is the specification's layer of the ten argument arrays: the three
  regions' output arrays chained through the host stretches between them (reshapes between 8192 x 1024 and
  4 x 2048 x 1024, the transposed and narrowed weight matrices, the packed projection weights).
-/
import proofs.«408005_j88158498718040_3_alg».proof.Proof.KI.Core
import proofs.«408005_j88158498718040_3_alg».proof.Proof.Spec
import proofs.«408005_j88158498718040_3_alg».proof.Proof.SpecIdx
import proofs.«408005_j88158498718040_3_alg».proof.Proof.KI.Arr
import proofs.«408005_j88158498718040_3_alg».proof.Proof.KI.Chain
import proofs.«408005_j88158498718040_3_alg».proof.Proof.KI.Val0
import proofs.«408005_j88158498718040_3_alg».proof.Proof.KI.Val1
import proofs.«408005_j88158498718040_3_alg».proof.Proof.KI.Val2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

open Cert.Spec

variable (m : (ℓ : Loc nD τ sig) → Buf (Elt Ideal) ℓ) (ρ : Dev nD → PrngReg)

/-! ## The argument arrays and the result, named at their literal types -/
abbrev argX (c : Dev nD) : Vec Ideal S4x2048x1024 .f32 := m ((c : Thread nD τ).loc main_arg0)
abbrev argWq (c : Dev nD) : Vec Ideal S1024x1024 .f32 := m ((c : Thread nD τ).loc main_arg1)
abbrev argWk (c : Dev nD) : Vec Ideal S1024x1024 .f32 := m ((c : Thread nD τ).loc main_arg2)
abbrev argWv (c : Dev nD) : Vec Ideal S1024x1024 .f32 := m ((c : Thread nD τ).loc main_arg3)
abbrev argW1 (c : Dev nD) : Vec Ideal S1024x1024 .f32 := m ((c : Thread nD τ).loc main_arg4)
abbrev argB1 (c : Dev nD) : Vec Ideal S1024 .f32 := m ((c : Thread nD τ).loc main_arg5)
abbrev argW2 (c : Dev nD) : Vec Ideal S1024x1024 .f32 := m ((c : Thread nD τ).loc main_arg6)
abbrev argB2 (c : Dev nD) : Vec Ideal S1024 .f32 := m ((c : Thread nD τ).loc main_arg7)
abbrev argG (c : Dev nD) : Vec Ideal S1024 .f32 := m ((c : Thread nD τ).loc main_arg8)
abbrev argBe (c : Dev nD) : Vec Ideal S1024 .f32 := m ((c : Thread nD τ).loc main_arg9)
/-- The result buffer at the return. -/
abbrev resOut (c : Dev nD) : Vec Ideal S4x2048x1024 .f32 := W7 (F := Ideal) m ρ c (Proc.devRef .tc main_v19)

/-! ## Layout operations read at an index -/

/-- Row 2048 b + s of the flattened array: sequence b's row s. -/
abbrev flatRow (b : Fin 4) (s : Fin 2048) : Fin 8192 := ⟨2048 * b.val + s.val, by omega⟩

/-- The flattened array at row 2048 b + s is the batch at (b, s). -/
theorem flatten_apply {α : Type} (x : S4x2048x1024.Idx → α) (h : S4x2048x1024.ShapeCasts S8192x1024)
    (b : Fin 4) (s : Fin 2048) (d : Fin 1024) :
    shapeCast S8192x1024 x h (ix2 (flatRow b s) d) = x (ix3 b s d) :=
  shapeCast_apply x h _ _ (by
    rw [Shape.rowMajor_val_three, Shape.rowMajor_val_two]
    show (b.val * 2048 + s.val) * 1024 + d.val = (2048 * b.val + s.val) * 1024 + d.val
    omega)

/-- The batch at (b, s) is the flat array at row 2048 b + s. -/
theorem unflatten_apply {α : Type} (y : S8192x1024.Idx → α) (h : S8192x1024.ShapeCasts S4x2048x1024)
    (b : Fin 4) (s : Fin 2048) (d : Fin 1024) :
    shapeCast S4x2048x1024 y h (ix3 b s d) = y (ix2 (flatRow b s) d) :=
  shapeCast_apply y h _ _ (by
    rw [Shape.rowMajor_val_three, Shape.rowMajor_val_two]
    show (2048 * b.val + s.val) * 1024 + d.val = (b.val * 2048 + s.val) * 1024 + d.val
    omega)

/-- A transposed, narrowed weight matrix at (i, j) is the matrix at (j, i): narrowing changes no ideal value. -/
theorem wT_apply (w : Vec Ideal S1024x1024 .f32) (i j : Fin 1024) : (wT w (ix2 i j) : EReal) = w (ix2 j i) := by
  unfold wT
  rw [truncf_apply]
  exact transpose_ix2_apply w _ i j

/-- The three matrices side by side read at a column: the first 1024 columns are the first matrix, -/
theorem packed_apply0 {α : Type} (w0 w1 w2 : S1024x1024.Idx → α)
    (h : Shape.Concatenates [S1024x1024, S1024x1024, S1024x1024] S1024x3072 1)
    (d : Fin 1024) (j : Fin 3072) (e : Fin 1024) (hj : j.val = e.val) :
    concatenate S1024x3072 1 [⟨S1024x1024, w0⟩, ⟨S1024x1024, w1⟩, ⟨S1024x1024, w2⟩] h (ix2 d j) = w0 (ix2 d e) :=
  concatenate_apply_piece 1 [⟨S1024x1024, w0⟩, ⟨S1024x1024, w1⟩, ⟨S1024x1024, w2⟩] h (ix2 d j) 0 (by show (0 : ℕ) < 3; omega)
    S1024x1024 w0 rfl rfl 0 rfl (ix2 d e)
    (fun a => match a with | ⟨0, _⟩ => fun _ => rfl | ⟨1, _⟩ => fun ne => absurd rfl ne)
    (by show 0 + e.val = j.val; omega)
/-- the next 1024 the second, -/
theorem packed_apply1 {α : Type} (w0 w1 w2 : S1024x1024.Idx → α)
    (h : Shape.Concatenates [S1024x1024, S1024x1024, S1024x1024] S1024x3072 1)
    (d : Fin 1024) (j : Fin 3072) (e : Fin 1024) (hj : j.val = 1024 + e.val) :
    concatenate S1024x3072 1 [⟨S1024x1024, w0⟩, ⟨S1024x1024, w1⟩, ⟨S1024x1024, w2⟩] h (ix2 d j) = w1 (ix2 d e) :=
  concatenate_apply_piece 1 [⟨S1024x1024, w0⟩, ⟨S1024x1024, w1⟩, ⟨S1024x1024, w2⟩] h (ix2 d j) 1 (by show (1 : ℕ) < 3; omega)
    S1024x1024 w1 rfl rfl 1024 rfl (ix2 d e)
    (fun a => match a with | ⟨0, _⟩ => fun _ => rfl | ⟨1, _⟩ => fun ne => absurd rfl ne)
    (by show 1024 + e.val = j.val; omega)
/-- the last 1024 the third. -/
theorem packed_apply2 {α : Type} (w0 w1 w2 : S1024x1024.Idx → α)
    (h : Shape.Concatenates [S1024x1024, S1024x1024, S1024x1024] S1024x3072 1)
    (d : Fin 1024) (j : Fin 3072) (e : Fin 1024) (hj : j.val = 2048 + e.val) :
    concatenate S1024x3072 1 [⟨S1024x1024, w0⟩, ⟨S1024x1024, w1⟩, ⟨S1024x1024, w2⟩] h (ix2 d j) = w2 (ix2 d e) :=
  concatenate_apply_piece 1 [⟨S1024x1024, w0⟩, ⟨S1024x1024, w1⟩, ⟨S1024x1024, w2⟩] h (ix2 d j) 2 (by show (2 : ℕ) < 3; omega)
    S1024x1024 w2 rfl rfl 2048 rfl (ix2 d e)
    (fun a => match a with | ⟨0, _⟩ => fun _ => rfl | ⟨1, _⟩ => fun ne => absurd rfl ne)
    (by show 2048 + e.val = j.val; omega)

/-! ## A finite sum of products of real numbers is a real number -/

theorem real_sum_mul {ι : Type} (S : Finset ι) (f g : ι → EReal) (hf : ∀ i, f i ≠ ⊤ ∧ f i ≠ ⊥)
    (hg : ∀ i, g i ≠ ⊤ ∧ g i ≠ ⊥) : (∑ i ∈ S, f i * g i) ≠ ⊤ ∧ (∑ i ∈ S, f i * g i) ≠ ⊥ := by
  classical
  have hc : ∀ T : Finset ι, ((∑ i ∈ T, (f i).toReal * (g i).toReal : ℝ) : EReal) = ∑ i ∈ T, f i * g i := by
    intro T
    induction T using Finset.induction_on with
    | empty => simp
    | insert a T ha ih =>
      rw [Finset.sum_insert ha, Finset.sum_insert ha, EReal.coe_add, ih, EReal.coe_mul,
        EReal.coe_toReal (hf a).1 (hf a).2, EReal.coe_toReal (hg a).1 (hg a).2]
  rw [← hc S]
  exact ⟨EReal.coe_ne_top _, EReal.coe_ne_bot _⟩

/-! ## The boundary contents at the regions' arrays, at their literal types -/

theorem res_eq (c : Dev nD) :
    resOut m ρ c = shapeCast S4x2048x1024 (out2A (V5 m ρ) c) shapeCasts_S8192x1024_S4x2048x1024 := W7_main_v19 m ρ c
theorem in2S_eq (c : Dev nD) :
    in2S (V5 m ρ) c = shapeCast S8192x1024 (out1A (V3 m ρ) c) shapeCasts_S4x2048x1024_S8192x1024 := V5_main_v17 m ρ c
theorem in2W1_eq (c : Dev nD) : in2W1 (V5 m ρ) c = wT (argW1 m c) := V5_main_v9 m ρ c
theorem in2W2_eq (c : Dev nD) : in2W2 (V5 m ρ) c = wT (argW2 m c) := V5_main_v11 m ρ c
theorem in2B1_eq (c : Dev nD) : in2B1 (V5 m ρ) c = argB1 m c := V5_main_arg5 m ρ c
theorem in2B2_eq (c : Dev nD) : in2B2 (V5 m ρ) c = argB2 m c := V5_main_arg7 m ρ c
theorem in2G_eq (c : Dev nD) : in2G (V5 m ρ) c = argG m c := V5_main_arg8 m ρ c
theorem in2Be_eq (c : Dev nD) : in2Be (V5 m ρ) c = argBe m c := V5_main_arg9 m ρ c
theorem in1X_eq (c : Dev nD) : in1X (V3 m ρ) c = argX m c := V3_main_arg0 m ρ c
theorem in1Q_eq (c : Dev nD) :
    in1Q (V3 m ρ) c = shapeCast S4x2048x1024 (out0Q (V1 m ρ) c) shapeCasts_S8192x1024_S4x2048x1024 := V3_main_v13 m ρ c
theorem in1K_eq (c : Dev nD) :
    in1K (V3 m ρ) c = shapeCast S4x2048x1024 (out0K (V1 m ρ) c) shapeCasts_S8192x1024_S4x2048x1024 := V3_main_v14 m ρ c
theorem in1V_eq (c : Dev nD) :
    in1V (V3 m ρ) c = shapeCast S4x2048x1024 (out0V (V1 m ρ) c) shapeCasts_S8192x1024_S4x2048x1024 := V3_main_v15 m ρ c
theorem in0X_eq (c : Dev nD) :
    in0X (V1 m ρ) c = shapeCast S8192x1024 (argX m c) shapeCasts_S4x2048x1024_S8192x1024 := V1_main_v0 m ρ c
theorem in0W_eq (c : Dev nD) :
    in0W (V1 m ρ) c = concatenate S1024x3072 1 [⟨S1024x1024, wT (argWq m c)⟩, ⟨S1024x1024, wT (argWk m c)⟩,
        ⟨S1024x1024, wT (argWv m c)⟩] concatenates_S1024x1024_S1024x1024_S1024x1024_S1024x3072_d1 := V1_main_v7 m ρ c

/-! ## Region 0: the three projections -/

/-- The flattened input at row 2048 b + s is the input at (b, s). -/
theorem in0X_at (c : Dev nD) (b : Fin 4) (s : Fin 2048) (d : Fin 1024) :
    (in0X (V1 m ρ) c (ix2 (flatRow b s) d) : EReal) = argX m c (ix3 b s d) := by
  rw [in0X_eq, flatten_apply]

/-- The packed weights at (d', e), (d', 1024 + e), (d', 2048 + e): the three projection matrices at (e, d'). -/
theorem in0W_at0 (c : Dev nD) (d' e : Fin 1024) (j : Fin 3072) (hj : j.val = e.val) :
    (in0W (V1 m ρ) c (ix2 d' j) : EReal) = argWq m c (ix2 e d') := by
  rw [in0W_eq, packed_apply0 _ _ _ _ d' j e hj, wT_apply]
theorem in0W_at1 (c : Dev nD) (d' e : Fin 1024) (j : Fin 3072) (hj : j.val = 1024 + e.val) :
    (in0W (V1 m ρ) c (ix2 d' j) : EReal) = argWk m c (ix2 e d') := by
  rw [in0W_eq, packed_apply1 _ _ _ _ d' j e hj, wT_apply]
theorem in0W_at2 (c : Dev nD) (d' e : Fin 1024) (j : Fin 3072) (hj : j.val = 2048 + e.val) :
    (in0W (V1 m ρ) c (ix2 d' j) : EReal) = argWv m c (ix2 e d') := by
  rw [in0W_eq, packed_apply2 _ _ _ _ d' j e hj, wT_apply]

/-- Region 1's queries, keys and values are the input's projections. -/
theorem in1Q_at (c : Dev nD) (b : Fin 4) (s : Fin 2048) (e : Fin 1024) :
    (in1Q (V3 m ρ) c (ix3 b s e) : EReal)
      = ∑ d' : Fin 1024, (argX m c (ix3 b s d') : EReal) * (argWq m c (ix2 e d') : EReal) := by
  rw [in1Q_eq, unflatten_apply, arr0_2]
  exact Finset.sum_congr rfl fun d' _ => by rw [in0X_at, in0W_at0 m ρ c d' e _ rfl]
theorem in1K_at (c : Dev nD) (b : Fin 4) (s : Fin 2048) (e : Fin 1024) :
    (in1K (V3 m ρ) c (ix3 b s e) : EReal)
      = ∑ d' : Fin 1024, (argX m c (ix3 b s d') : EReal) * (argWk m c (ix2 e d') : EReal) := by
  rw [in1K_eq, unflatten_apply, arr0_3]
  exact Finset.sum_congr rfl fun d' _ => by rw [in0X_at, in0W_at1 m ρ c d' e _ rfl]
theorem in1V_at (c : Dev nD) (b : Fin 4) (s : Fin 2048) (e : Fin 1024) :
    (in1V (V3 m ρ) c (ix3 b s e) : EReal)
      = ∑ d' : Fin 1024, (argX m c (ix3 b s d') : EReal) * (argWv m c (ix2 e d') : EReal) := by
  rw [in1V_eq, unflatten_apply, arr0_4]
  exact Finset.sum_congr rfl fun d' _ => by rw [in0X_at, in0W_at2 m ρ c d' e _ rfl]

theorem in1Q_fun (c : Dev nD) :
    (fun b s d => (in1Q (V3 m ρ) c (ix3 b s d) : EReal)) = proj (rowsOf (argX m c)) (matOf (argWq m c)) := by
  funext b s e; rw [in1Q_at]; rfl
theorem in1K_fun (c : Dev nD) :
    (fun b s d => (in1K (V3 m ρ) c (ix3 b s d) : EReal)) = proj (rowsOf (argX m c)) (matOf (argWk m c)) := by
  funext b s e; rw [in1K_at]; rfl
theorem in1V_fun (c : Dev nD) :
    (fun b s d => (in1V (V3 m ρ) c (ix3 b s d) : EReal)) = proj (rowsOf (argX m c)) (matOf (argWv m c)) := by
  funext b s e; rw [in1V_at]; rfl

/-! ## Region 1: the attention sub-layer with its residual -/

section Real
variable (c : Dev nD)
  (hx : ∀ i, (argX m c i : EReal) ≠ ⊤ ∧ (argX m c i : EReal) ≠ ⊥)
  (hq : ∀ i, (argWq m c i : EReal) ≠ ⊤ ∧ (argWq m c i : EReal) ≠ ⊥)
  (hk : ∀ i, (argWk m c i : EReal) ≠ ⊤ ∧ (argWk m c i : EReal) ≠ ⊥)
  (hv : ∀ i, (argWv m c i : EReal) ≠ ⊤ ∧ (argWv m c i : EReal) ≠ ⊥)
include hx

/-- Real inputs and real projection weights make real queries, keys and values. -/
theorem in1Q_real (hq : ∀ i, (argWq m c i : EReal) ≠ ⊤ ∧ (argWq m c i : EReal) ≠ ⊥) :
    ∀ i, (in1Q (V3 m ρ) c i : EReal) ≠ ⊤ ∧ (in1Q (V3 m ρ) c i : EReal) ≠ ⊥ := by
  intro i
  obtain ⟨b, s, e, rfl⟩ : ∃ (b : Fin 4) (s : Fin 2048) (e : Fin 1024), i = ix3 b s e :=
    ⟨i 0, i 1, i 2, eq_ix3 (n0 := 4) (n1 := 2048) (n2 := 1024) i⟩
  rw [in1Q_at]
  exact real_sum_mul _ _ _ (fun d' => hx _) (fun d' => hq _)
theorem in1K_real (hk : ∀ i, (argWk m c i : EReal) ≠ ⊤ ∧ (argWk m c i : EReal) ≠ ⊥) :
    ∀ i, (in1K (V3 m ρ) c i : EReal) ≠ ⊤ ∧ (in1K (V3 m ρ) c i : EReal) ≠ ⊥ := by
  intro i
  obtain ⟨b, s, e, rfl⟩ : ∃ (b : Fin 4) (s : Fin 2048) (e : Fin 1024), i = ix3 b s e :=
    ⟨i 0, i 1, i 2, eq_ix3 (n0 := 4) (n1 := 2048) (n2 := 1024) i⟩
  rw [in1K_at]
  exact real_sum_mul _ _ _ (fun d' => hx _) (fun d' => hk _)
theorem in1V_real (hv : ∀ i, (argWv m c i : EReal) ≠ ⊤ ∧ (argWv m c i : EReal) ≠ ⊥) :
    ∀ i, (in1V (V3 m ρ) c i : EReal) ≠ ⊤ ∧ (in1V (V3 m ρ) c i : EReal) ≠ ⊥ := by
  intro i
  obtain ⟨b, s, e, rfl⟩ : ∃ (b : Fin 4) (s : Fin 2048) (e : Fin 1024), i = ix3 b s e :=
    ⟨i 0, i 1, i 2, eq_ix3 (n0 := 4) (n1 := 2048) (n2 := 1024) i⟩
  rw [in1V_at]
  exact real_sum_mul _ _ _ (fun d' => hx _) (fun d' => hv _)

include hq hk hv

/-- Region 2's input rows: row 2048 b + s is the attention sub-layer's result at (b, s). -/
theorem in2S_fun (b : Fin 4) (s : Fin 2048) :
    (fun d => (in2S (V5 m ρ) c (ix2 (flatRow b s) d) : EReal))
      = attnRes (rowsOf (argX m c)) (matOf (argWq m c)) (matOf (argWk m c)) (matOf (argWv m c)) b s := by
  funext d
  rw [in2S_eq, flatten_apply,
    arr1_4 (V3 m ρ) c (in1Q_real m ρ c hx hq) (in1K_real m ρ c hx hk) (in1V_real m ρ c hx hv) b s d,
    in1Q_fun, in1K_fun, in1V_fun, in1X_eq]
  rfl

end Real

/-! ## Region 2: the weights and the four vectors as the specification's functions -/

theorem in2W1_fun (c : Dev nD) : (fun d d' => (in2W1 (V5 m ρ) c (ix2 d' d) : EReal)) = matOf (argW1 m c) := by
  funext d d'; rw [in2W1_eq, wT_apply]; rfl
theorem in2W2_fun (c : Dev nD) : (fun e' d => (in2W2 (V5 m ρ) c (ix2 d e') : EReal)) = matOf (argW2 m c) := by
  funext e' d; rw [in2W2_eq, wT_apply]; rfl
theorem in2B1_fun (c : Dev nD) : (fun d => (in2B1 (V5 m ρ) c (ix1 d) : EReal)) = vecOf (argB1 m c) := by
  funext d; rw [in2B1_eq]; rfl
theorem in2B2_fun (c : Dev nD) : (fun d => (in2B2 (V5 m ρ) c (ix1 d) : EReal)) = vecOf (argB2 m c) := by
  funext d; rw [in2B2_eq]; rfl
theorem in2G_fun (c : Dev nD) : (fun d => (in2G (V5 m ρ) c (ix1 d) : EReal)) = vecOf (argG m c) := by
  funext d; rw [in2G_eq]; rfl
theorem in2Be_fun (c : Dev nD) : (fun d => (in2Be (V5 m ρ) c (ix1 d) : EReal)) = vecOf (argBe m c) := by
  funext d; rw [in2Be_eq]; rfl

/-! ## The whole layer -/

/-- The result array is the specification's layer of the argument arrays, when the input rows and the three projection
    matrices hold real numbers. -/
theorem result_eq (c : Dev nD)
    (hx : ∀ i, (argX m c i : EReal) ≠ ⊤ ∧ (argX m c i : EReal) ≠ ⊥)
    (hq : ∀ i, (argWq m c i : EReal) ≠ ⊤ ∧ (argWq m c i : EReal) ≠ ⊥)
    (hk : ∀ i, (argWk m c i : EReal) ≠ ⊤ ∧ (argWk m c i : EReal) ≠ ⊥)
    (hv : ∀ i, (argWv m c i : EReal) ≠ ⊤ ∧ (argWv m c i : EReal) ≠ ⊥)
    (b : Fin 4) (s : Fin 2048) (d : Fin 1024) :
    (resOut m ρ c (ix3 b s d) : EReal)
      = layer (rowsOf (argX m c)) (matOf (argWq m c)) (matOf (argWk m c)) (matOf (argWv m c)) (matOf (argW1 m c))
          (vecOf (argB1 m c)) (matOf (argW2 m c)) (vecOf (argB2 m c)) (vecOf (argG m c)) (vecOf (argBe m c)) b s d := by
  rw [res_eq, unflatten_apply, arr2_7, in2W1_fun, in2B1_fun, in2W2_fun, in2B2_fun, in2G_fun, in2Be_fun,
    in2S_fun m ρ c hx hq hk hv b s]
  rfl

end Cert.KernelIdeal.Hand

end
-- ==== Proof.Ref1.lean ====
/-
  The reference's attention sub-layer, stage by stage: the three projections, the scaled and causally masked scores,
  the softmax over each score row, the weighted values, the residual — index by index the specification's.
-/
import proofs.«408005_j88158498718040_3_alg».proof.Proof.RefRead
import proofs.«408005_j88158498718040_3_alg».proof.Proof.SpecIdx
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Reduce
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Spec

/-! ## The three projections -/

section Projections
variable (x0 : Vec Ideal S4x2048x1024 .f32) (x1 x2 x3 : Vec Ideal S1024x1024 .f32)

/-- Stage 0 at (b, s, e) is the query projection: the row times the e-th row of the query weights. -/
theorem queries_at (b : Fin 4) (s : Fin 2048) (e : Fin 1024) :
    (val_main_v0 (F := Ideal) x0 x1 (ix3 b s e) : EReal) = proj (rowsOf x0) (matOf x1) b s e := by
  rw [val_main_v0_apply]
  refine Finset.sum_congr rfl fun k _ => ?_
  have el : lidx_main_v0 (ix3 b s e) k = ix3 b s k :=
    funext fun a => Fin.ext (by match a with | ⟨0, _⟩ => rfl | ⟨1, _⟩ => rfl | ⟨2, _⟩ => rfl)
  have er : ridx_main_v0 (ix3 b s e) k = ix2 e k :=
    funext fun a => Fin.ext (by match a with | ⟨0, _⟩ => rfl | ⟨1, _⟩ => rfl)
  rw [el, er]
  rfl

/-- Stage 1 at (b, s, e) is the key projection. -/
theorem keys_at (b : Fin 4) (s : Fin 2048) (e : Fin 1024) :
    (val_main_v1 (F := Ideal) x0 x2 (ix3 b s e) : EReal) = proj (rowsOf x0) (matOf x2) b s e := by
  rw [val_main_v1_apply]
  refine Finset.sum_congr rfl fun k _ => ?_
  have el : lidx_main_v1 (ix3 b s e) k = ix3 b s k :=
    funext fun a => Fin.ext (by match a with | ⟨0, _⟩ => rfl | ⟨1, _⟩ => rfl | ⟨2, _⟩ => rfl)
  have er : ridx_main_v1 (ix3 b s e) k = ix2 e k :=
    funext fun a => Fin.ext (by match a with | ⟨0, _⟩ => rfl | ⟨1, _⟩ => rfl)
  rw [el, er]
  rfl

/-- Stage 2 at (b, s, e) is the value projection. -/
theorem values_at (b : Fin 4) (s : Fin 2048) (e : Fin 1024) :
    (val_main_v2 (F := Ideal) x0 x3 (ix3 b s e) : EReal) = proj (rowsOf x0) (matOf x3) b s e := by
  rw [val_main_v2_apply]
  refine Finset.sum_congr rfl fun k _ => ?_
  have el : lidx_main_v2 (ix3 b s e) k = ix3 b s k :=
    funext fun a => Fin.ext (by match a with | ⟨0, _⟩ => rfl | ⟨1, _⟩ => rfl | ⟨2, _⟩ => rfl)
  have er : ridx_main_v2 (ix3 b s e) k = ix2 e k :=
    funext fun a => Fin.ext (by match a with | ⟨0, _⟩ => rfl | ⟨1, _⟩ => rfl)
  rw [el, er]
  rfl

end Projections

/-! ## The scaled dot product -/

/-- The word 0x44800000 is the real 1024. -/
theorem width_word : Ideal.ofBits .f32 0x44800000#32 = ((1024 : ℝ) : EReal) := by
  simp [Ideal.ofBits, Ideal.ieee, -EReal.coe_mul]; norm_num

/-- The square root of 1024 is 32. -/
theorem sqrt_width : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-- Stage 5, the broadcast square root of the width, is 32 everywhere. -/
theorem scale_at (i : S4x2048x2048.Idx) : (val_main_v5 (F := Ideal) i : EReal) = ((32 : ℝ) : EReal) := by
  rw [val_main_v5_apply, val_main_v4_apply, val_main_cst_apply, Ideal.ofBits_def, Ideal.hostUnary_sqrt_def, width_word,
    sqrt_width]

section Scores
variable (x0 : Vec Ideal S4x2048x1024 .f32) (x1 x2 x3 : Vec Ideal S1024x1024 .f32)

/-- Stage 3 at (b, q, k) is the dot product of query row q with key row k. -/
theorem dots_at (b : Fin 4) (q k : Fin 2048) :
    (val_main_v3 (F := Ideal) x0 x1 x2 (ix3 b q k) : EReal)
      = ∑ d : Fin 1024, proj (rowsOf x0) (matOf x1) b q d * proj (rowsOf x0) (matOf x2) b k d := by
  rw [val_main_v3_apply]
  refine Finset.sum_congr rfl fun d _ => ?_
  have el : lidx_main_v3 (ix3 b q k) d = ix3 b q d :=
    funext fun a => Fin.ext (by match a with | ⟨0, _⟩ => rfl | ⟨1, _⟩ => rfl | ⟨2, _⟩ => rfl)
  have er : ridx_main_v3 (ix3 b q k) d = ix3 b k d :=
    funext fun a => Fin.ext (by match a with | ⟨0, _⟩ => rfl | ⟨1, _⟩ => rfl | ⟨2, _⟩ => rfl)
  rw [el, er, queries_at, keys_at]

/-- Stage 6 at (b, q, k) is the scaled dot product: the dot product times 1/32. -/
theorem scaled_at (b : Fin 4) (q k : Fin 2048) :
    (val_main_v6 (F := Ideal) x0 x1 x2 (ix3 b q k) : EReal)
      = (∑ d : Fin 1024, proj (rowsOf x0) (matOf x1) b q d * proj (rowsOf x0) (matOf x2) b k d)
          * (((1 : ℝ) / 32 : ℝ) : EReal) := by
  rw [val_main_v6_apply, Ideal.hostDivf_def, dots_at, scale_at, Ideal.div_coe (by norm_num)]

end Scores

/-! ## The causal mask and the masked score -/

/-- A coordinate below 2048, as a 32-bit word, reads back as itself. -/
theorem toNat_coord (q : Fin 2048) : (BitVec.ofNat 32 q.val).toNat = q.val := by
  rw [BitVec.toNat_ofNat]
  exact Nat.mod_eq_of_lt (by have := q.isLt; omega)

/-- Stage 8, the lower-triangular mask, at (q, k) is set exactly when k ≤ q: the row coordinate plus zero is compared,
    signed, against the column coordinate, and the comparison selects between the all-true and all-false masks. -/
theorem tril_at (q k : Fin 2048) :
    (val_main_v8 (F := Ideal) (ix2 q k) : BitVec 1) = if k.val ≤ q.val then 1#1 else 0#1 := by
  rw [val_main_v8_apply, val_main_v7_apply, val_main_c_apply, val_main_call0_v5_apply, val_main_call0_c_0_apply,
    val_main_call0_v4_apply, val_main_call0_v2_apply, val_main_call0_v0_apply, val_main_call0_v1_apply,
    val_main_call0_c_apply, val_main_call0_v3_apply]
  show Scalar.select (IntOp.cmpi .sge (IntOp.addi (BitVec.ofNat 32 q.val) 0#32) (BitVec.ofNat 32 k.val)) 1#1 0#1 = _
  have h0 : IntOp.addi (BitVec.ofNat 32 q.val) 0#32 = BitVec.ofNat 32 q.val := by
    show BitVec.ofNat 32 q.val + 0#32 = _
    exact BitVec.add_zero _
  rw [h0]
  have hq := toNat_coord q
  have hk := toNat_coord k
  have hiff := StableHlo.Predicate.sge_iff_toNat (a := BitVec.ofNat 32 q.val) (b := BitVec.ofNat 32 k.val)
    (by rw [hq]; have := q.isLt; omega) (by rw [hk]; have := k.isLt; omega)
  rw [hq, hk] at hiff
  by_cases h : k.val ≤ q.val
  · rw [if_pos h, hiff.mpr h]
    exact select_one _ _
  · rw [if_neg h, eq_zero_of_ne_one (fun e => h (hiff.mp e))]
    exact select_zero _ _

/-- The mask stage 10 selects by, at (b, q, k), is the lower-triangular mask at (q, k). -/
theorem mask_at (b : Fin 4) (q k : Fin 2048) :
    (val_main_call1_v1 (F := Ideal) (ix3 b q k) : BitVec 1) = if k.val ≤ q.val then 1#1 else 0#1 := by
  rw [val_main_call1_v1_apply, val_main_v9_apply]
  have e : idx_main_v9 (idx_main_call1_v1 (ix3 b q k)) = ix2 q k :=
    funext fun a => Fin.ext (by match a with | ⟨0, _⟩ => rfl | ⟨1, _⟩ => rfl)
  rw [e, tril_at]

/-- The word 0xFF800000 is −∞. -/
theorem neg_inf_word : Ideal.ofBits .f32 0xFF800000#32 = (⊥ : EReal) := by
  simp [Ideal.ofBits, Ideal.ieee]

/-- What stage 10 puts off the mask is −∞ everywhere. -/
theorem fill_at (i : S4x2048x2048.Idx) : (val_main_call1_v2 (F := Ideal) i : EReal) = ⊥ := by
  rw [val_main_call1_v2_apply, val_main_call1_v0_apply, val_main_cst_0_apply, Ideal.ofBits_def, neg_inf_word]

section Score
variable (x0 : Vec Ideal S4x2048x1024 .f32) (x1 x2 x3 : Vec Ideal S1024x1024 .f32)

/-- Stage 10 at (b, q, k) is the causally masked, scaled score. -/
theorem score_at (b : Fin 4) (q k : Fin 2048) :
    (val_main_v10 (F := Ideal) x0 x1 x2 (ix3 b q k) : EReal)
      = score (proj (rowsOf x0) (matOf x1)) (proj (rowsOf x0) (matOf x2)) b q k := by
  rw [val_main_v10_apply, mask_at, scaled_at, fill_at]
  unfold score
  by_cases h : k.val ≤ q.val
  · simp only [if_pos h]
    exact select_one _ _
  · simp only [if_neg h]
    exact select_zero _ _

end Score

/-! ## The softmax over each score row -/

/-- The score array reduces over its key axis to the (batch, query) array. -/
theorem reduces_keys : S4x2048x2048.Reduces [2] S4x2048 := by decide

/-- A fold of the maximum from −∞ is the supremum. -/
theorem fold_maximumf_bot {ι : Type} (s : Finset ι) (f : ι → EReal) :
    s.fold (FloatOps.maximumf (F := Ideal) (φ := .f32)) (⊥ : EReal) f = s.sup f := by
  classical
  induction s using Finset.induction_on with
  | empty => rfl
  | insert a s ha ih =>
    rw [Finset.fold_insert ha, Finset.sup_insert, ih]
    rfl

section Softmax
variable (x0 : Vec Ideal S4x2048x1024 .f32) (x1 x2 x3 : Vec Ideal S1024x1024 .f32)

/-- Stage 11, the fold of the maximum from −∞ along the key axis, at (b, q) is the maximum of the score row. -/
theorem rowmax_fold_at (b : Fin 4) (q : Fin 2048) :
    (val_main_v11 (F := Ideal) x0 x1 x2 (ix2 b q) : EReal)
      = rowMax (proj (rowsOf x0) (matOf x1)) (proj (rowsOf x0) (matOf x2)) b q := by
  unfold val_main_v11
  rw [Host.reduce_eq_fold_single FloatOps.maximumf _ _ reducesTo_S4x2048x2048_S4x2048_d2 reduces_keys h_S_,
    val_main_cst_1_apply, Ideal.ofBits_def, neg_inf_word]
  have e : (val_main_v10 (F := Ideal) x0 x1 x2 ∘ reduces_keys.lift (ix2 b q))
      = score (proj (rowsOf x0) (matOf x1)) (proj (rowsOf x0) (matOf x2)) b q := by
    funext k
    have ei : reduces_keys.lift (ix2 b q) k = ix3 b q k :=
      funext fun a => Fin.ext (by match a with | ⟨0, _⟩ => rfl | ⟨1, _⟩ => rfl | ⟨2, _⟩ => rfl)
    show val_main_v10 (F := Ideal) x0 x1 x2 (reduces_keys.lift (ix2 b q) k) = _
    rw [ei]
    exact score_at x0 x1 x2 b q k
  rw [e]
  exact fold_maximumf_bot _ _

/-- Stage 13, the maximum of −∞ and stage 11, at (b, q) is the row maximum. -/
theorem rowmax_at (b : Fin 4) (q : Fin 2048) :
    (val_main_v13 (F := Ideal) x0 x1 x2 (ix2 b q) : EReal)
      = rowMax (proj (rowsOf x0) (matOf x1)) (proj (rowsOf x0) (matOf x2)) b q := by
  rw [val_main_v13_apply, val_main_v12_apply, val_main_cst_2_apply, Ideal.ofBits_def, neg_inf_word, Ideal.maximumf_def,
    rowmax_fold_at]
  exact max_eq_right bot_le

/-- Stage 15, the row maximum spread along the key axis. -/
theorem rowmax_spread_at (b : Fin 4) (q k : Fin 2048) :
    (val_main_v15 (F := Ideal) x0 x1 x2 (ix3 b q k) : EReal)
      = rowMax (proj (rowsOf x0) (matOf x1)) (proj (rowsOf x0) (matOf x2)) b q := by
  rw [val_main_v15_apply, val_main_v14_apply]
  have e : idx_main_v14 (idx_main_v15 (ix3 b q k)) = ix2 b q :=
    funext fun a => Fin.ext (by match a with | ⟨0, _⟩ => rfl | ⟨1, _⟩ => rfl)
  rw [e, rowmax_at]

/-- Stage 17 at (b, q, k) is the exponential of the score less its row maximum. -/
theorem expo_at (b : Fin 4) (q k : Fin 2048) :
    (val_main_v17 (F := Ideal) x0 x1 x2 (ix3 b q k) : EReal)
      = expo (proj (rowsOf x0) (matOf x1)) (proj (rowsOf x0) (matOf x2)) b q k := by
  rw [val_main_v17_apply, val_main_v16_apply, Ideal.hostUnary_exp_def, Ideal.subf_def, score_at, rowmax_spread_at]
  rfl

/-- Stage 18, the sum from zero along the key axis, at (b, q) is the row sum of the exponentials. -/
theorem rowsum_at (b : Fin 4) (q : Fin 2048) :
    (val_main_v18 (F := Ideal) x0 x1 x2 (ix2 b q) : EReal)
      = rowSum (proj (rowsOf x0) (matOf x1)) (proj (rowsOf x0) (matOf x2)) b q := by
  rw [val_main_v18_apply, val_main_cst_3_apply, Ideal.ofBits_def, Ideal.ofBits_zero_f32, zero_add]
  refine Finset.sum_congr rfl fun k _ => ?_
  have e : idx_main_v18 (ix2 b q) k = ix3 b q k :=
    funext fun a => Fin.ext (by match a with | ⟨0, _⟩ => rfl | ⟨1, _⟩ => rfl | ⟨2, _⟩ => rfl)
  rw [e, expo_at]

/-- Stage 20, the row sum spread along the key axis. -/
theorem rowsum_spread_at (b : Fin 4) (q k : Fin 2048) :
    (val_main_v20 (F := Ideal) x0 x1 x2 (ix3 b q k) : EReal)
      = rowSum (proj (rowsOf x0) (matOf x1)) (proj (rowsOf x0) (matOf x2)) b q := by
  rw [val_main_v20_apply, val_main_v19_apply]
  have e : idx_main_v19 (idx_main_v20 (ix3 b q k)) = ix2 b q :=
    funext fun a => Fin.ext (by match a with | ⟨0, _⟩ => rfl | ⟨1, _⟩ => rfl)
  rw [e, rowsum_at]

/-- Stage 21 at (b, q, k) is the normalised weight: the exponential over its row sum. -/
theorem weight_at (b : Fin 4) (q k : Fin 2048) :
    (val_main_v21 (F := Ideal) x0 x1 x2 (ix3 b q k) : EReal)
      = Ideal.div (expo (proj (rowsOf x0) (matOf x1)) (proj (rowsOf x0) (matOf x2)) b q k)
          (rowSum (proj (rowsOf x0) (matOf x1)) (proj (rowsOf x0) (matOf x2)) b q) := by
  rw [val_main_v21_apply, Ideal.hostDivf_def, expo_at, rowsum_spread_at]

/-- Stage 22 at (b, s, d) is the attention output: the value rows weighted by the normalised weights. -/
theorem attend_at (b : Fin 4) (s : Fin 2048) (d : Fin 1024) :
    (val_main_v22 (F := Ideal) x0 x1 x2 x3 (ix3 b s d) : EReal)
      = attend (proj (rowsOf x0) (matOf x1)) (proj (rowsOf x0) (matOf x2)) (proj (rowsOf x0) (matOf x3)) b s d := by
  rw [val_main_v22_apply]
  unfold attend
  refine Finset.sum_congr rfl fun k _ => ?_
  have el : lidx_main_v22 (ix3 b s d) k = ix3 b s k :=
    funext fun a => Fin.ext (by match a with | ⟨0, _⟩ => rfl | ⟨1, _⟩ => rfl | ⟨2, _⟩ => rfl)
  have er : ridx_main_v22 (ix3 b s d) k = ix3 b k d :=
    funext fun a => Fin.ext (by match a with | ⟨0, _⟩ => rfl | ⟨1, _⟩ => rfl | ⟨2, _⟩ => rfl)
  rw [el, er, weight_at, values_at]

end Softmax

/-- The reference's stage 23 (the input plus the attention output) is the specification's attention sub-layer. -/
theorem ref_attn (x0 : Vec Ideal S4x2048x1024 .f32) (x1 x2 x3 : Vec Ideal S1024x1024 .f32)
    (b : Fin 4) (s : Fin 2048) (d : Fin 1024) :
    (val_main_v23 (F := Ideal) x0 x1 x2 x3 (ix3 b s d) : EReal)
      = attnRes (rowsOf x0) (matOf x1) (matOf x2) (matOf x3) b s d := by
  rw [val_main_v23_apply, Ideal.addf_def, attend_at]
  rfl

end Cert.ReferenceIdeal.RefValue

end
-- ==== Proof.Ref2.lean ====
/-
  The reference after its attention sub-layer, stage by stage: layer norm, feed-forward, residual, layer norm — row by
  row the specification's row block applied to stage 23's row.
-/
import proofs.«408005_j88158498718040_3_alg».proof.Proof.RefRead
import proofs.«408005_j88158498718040_3_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Spec

variable (x0 : Vec Ideal S4x2048x1024 .f32) (x1 x2 x3 x4 : Vec Ideal S1024x1024 .f32) (x5 : Vec Ideal S1024 .f32)
    (x6 : Vec Ideal S1024x1024 .f32) (x7 x8 x9 : Vec Ideal S1024 .f32)

/-! ## Index equations

  Each layout stage reads its operand at a composed index; at the coordinates (b, s, ·) these are the plain coordinate
  indices. -/

section Indices

variable (b : Fin 4) (s : Fin 2048) (z : Fin 1) (d k : Fin 1024)

/-- A feature sum into row (b, s) reads the operand's row (b, s) at feature k (first normalisation, the mean). -/
theorem sumIdx24 : idx_main_v24 (idx_main_v25 (ix3 b s z)) k = ix3 b s k :=
  funext fun a => by match a with | ⟨0, _⟩ => rfl | ⟨1, _⟩ => rfl | ⟨2, _⟩ => rfl
/-- The same for the sum of squares of the first normalisation. -/
theorem sumIdx31 : idx_main_v31 (idx_main_v32 (ix3 b s z)) k = ix3 b s k :=
  funext fun a => by match a with | ⟨0, _⟩ => rfl | ⟨1, _⟩ => rfl | ⟨2, _⟩ => rfl
/-- The same for the mean of the second normalisation. -/
theorem sumIdx58 : idx_main_v58 (idx_main_v59 (ix3 b s z)) k = ix3 b s k :=
  funext fun a => by match a with | ⟨0, _⟩ => rfl | ⟨1, _⟩ => rfl | ⟨2, _⟩ => rfl
/-- The same for the sum of squares of the second normalisation. -/
theorem sumIdx65 : idx_main_v65 (idx_main_v66 (ix3 b s z)) k = ix3 b s k :=
  funext fun a => by match a with | ⟨0, _⟩ => rfl | ⟨1, _⟩ => rfl | ⟨2, _⟩ => rfl

/-- A per-row scalar spread along the features is read at the row's one entry. -/
theorem unitIdx28 : idx_main_v28 (ix3 b s d) = ix3 b s (⟨0, Nat.one_pos⟩ : Fin 1) :=
  funext fun a => by match a with | ⟨0, _⟩ => rfl | ⟨1, _⟩ => rfl | ⟨2, _⟩ => rfl
theorem unitIdx35 : idx_main_v35 (ix3 b s d) = ix3 b s (⟨0, Nat.one_pos⟩ : Fin 1) :=
  funext fun a => by match a with | ⟨0, _⟩ => rfl | ⟨1, _⟩ => rfl | ⟨2, _⟩ => rfl
theorem unitIdx40 : idx_main_v40 (ix3 b s d) = ix3 b s (⟨0, Nat.one_pos⟩ : Fin 1) :=
  funext fun a => by match a with | ⟨0, _⟩ => rfl | ⟨1, _⟩ => rfl | ⟨2, _⟩ => rfl
theorem unitIdx62 : idx_main_v62 (ix3 b s d) = ix3 b s (⟨0, Nat.one_pos⟩ : Fin 1) :=
  funext fun a => by match a with | ⟨0, _⟩ => rfl | ⟨1, _⟩ => rfl | ⟨2, _⟩ => rfl
theorem unitIdx69 : idx_main_v69 (ix3 b s d) = ix3 b s (⟨0, Nat.one_pos⟩ : Fin 1) :=
  funext fun a => by match a with | ⟨0, _⟩ => rfl | ⟨1, _⟩ => rfl | ⟨2, _⟩ => rfl
theorem unitIdx74 : idx_main_v74 (ix3 b s d) = ix3 b s (⟨0, Nat.one_pos⟩ : Fin 1) :=
  funext fun a => by match a with | ⟨0, _⟩ => rfl | ⟨1, _⟩ => rfl | ⟨2, _⟩ => rfl

/-- A feature vector spread over all rows is read at the feature. -/
theorem featIdx43 : idx_main_v42 (idx_main_v43 (ix3 b s d)) = ix1 d :=
  funext fun a => by match a with | ⟨0, _⟩ => rfl
theorem featIdx46 : idx_main_v45 (idx_main_v46 (ix3 b s d)) = ix1 d :=
  funext fun a => by match a with | ⟨0, _⟩ => rfl
theorem featIdx50 : idx_main_v49 (idx_main_v50 (ix3 b s d)) = ix1 d :=
  funext fun a => by match a with | ⟨0, _⟩ => rfl
theorem featIdx55 : idx_main_v54 (idx_main_v55 (ix3 b s d)) = ix1 d :=
  funext fun a => by match a with | ⟨0, _⟩ => rfl
theorem featIdx77 : idx_main_v76 (idx_main_v77 (ix3 b s d)) = ix1 d :=
  funext fun a => by match a with | ⟨0, _⟩ => rfl
theorem featIdx80 : idx_main_v79 (idx_main_v80 (ix3 b s d)) = ix1 d :=
  funext fun a => by match a with | ⟨0, _⟩ => rfl

/-- A row-times-transposed-weights product at (b, s, d) reads the row at feature k and the weights at (d, k). -/
theorem lhsIdx48 : lidx_main_v48 (ix3 b s d) k = ix3 b s k :=
  funext fun a => by match a with | ⟨0, _⟩ => rfl | ⟨1, _⟩ => rfl | ⟨2, _⟩ => rfl
theorem rhsIdx48 : ridx_main_v48 (ix3 b s d) k = ix2 d k :=
  funext fun a => by match a with | ⟨0, _⟩ => rfl | ⟨1, _⟩ => rfl
theorem lhsIdx53 : lidx_main_v53 (ix3 b s d) k = ix3 b s k :=
  funext fun a => by match a with | ⟨0, _⟩ => rfl | ⟨1, _⟩ => rfl | ⟨2, _⟩ => rfl
theorem rhsIdx53 : ridx_main_v53 (ix3 b s d) k = ix2 d k :=
  funext fun a => by match a with | ⟨0, _⟩ => rfl | ⟨1, _⟩ => rfl

end Indices

/-! ## The first normalisation: stages 24 … 47 on stage 23's row -/

/-- Stage 27 is the mean of stage 23's row. -/
theorem mean1 (b : Fin 4) (s : Fin 2048) (z : Fin 1) :
    (val_main_v27 (F := Ideal) x0 x1 x2 x3 (ix3 b s z) : EReal)
      = meanRow (fun d' => (val_main_v23 (F := Ideal) x0 x1 x2 x3 (ix3 b s d') : EReal)) := by
  rw [val_main_v27_apply, val_main_v25_apply, val_main_v26_apply, val_main_cst_5_apply, val_main_v24_apply,
    val_main_cst_4_apply]
  simp only [sumIdx24, Ideal.hostDivf_def, Ideal.ofBits_def, Ideal.ofBits_zero_f32, zero_add]
  rfl

/-- Stage 34 is the variance of stage 23's row. -/
theorem var1 (b : Fin 4) (s : Fin 2048) (z : Fin 1) :
    (val_main_v34 (F := Ideal) x0 x1 x2 x3 (ix3 b s z) : EReal)
      = varRow (fun d' => (val_main_v23 (F := Ideal) x0 x1 x2 x3 (ix3 b s d') : EReal)) := by
  rw [val_main_v34_apply, val_main_v32_apply, val_main_v33_apply, val_main_cst_7_apply, val_main_v31_apply,
    val_main_cst_6_apply]
  simp only [sumIdx31, val_main_v30_apply, val_main_v29_apply, val_main_v28_apply, unitIdx28, mean1,
    Ideal.hostDivf_def, Ideal.mulf_def, Ideal.subf_def, Ideal.ofBits_def, Ideal.ofBits_zero_f32, zero_add]
  rfl

/-- Stage 39 is the reciprocal square root of the offset variance of stage 23's row. -/
theorem rstd1 (b : Fin 4) (s : Fin 2048) (z : Fin 1) :
    (val_main_v39 (F := Ideal) x0 x1 x2 x3 (ix3 b s z) : EReal)
      = Ideal.rsqrt (varRow (fun d' => (val_main_v23 (F := Ideal) x0 x1 x2 x3 (ix3 b s d') : EReal)) + cEps) := by
  rw [val_main_v39_apply, val_main_v38_apply, val_main_v37_apply, val_main_cst_8_apply, var1]
  simp only [Ideal.hostUnary_rsqrt_def, Ideal.addf_def, Ideal.ofBits_def]
  rfl

/-- Stage 47 is stage 23's row normalised, scaled by gamma and shifted by beta. -/
theorem norm1 (b : Fin 4) (s : Fin 2048) (d : Fin 1024) :
    (val_main_v47 (F := Ideal) x0 x1 x2 x3 x8 x9 (ix3 b s d) : EReal)
      = normRow (vecOf x8) (vecOf x9) (fun d' => (val_main_v23 (F := Ideal) x0 x1 x2 x3 (ix3 b s d') : EReal)) d := by
  simp only [val_main_v47_apply, val_main_v44_apply, val_main_v46_apply, val_main_v45_apply, val_main_v41_apply,
    val_main_v43_apply, val_main_v42_apply, val_main_v36_apply, val_main_v40_apply, val_main_v35_apply,
    unitIdx35, unitIdx40, featIdx43, featIdx46, mean1, rstd1, Ideal.addf_def, Ideal.mulf_def, Ideal.subf_def]
  rfl

/-! ## The feed-forward block: stages 48 … 56 on stage 47's row -/

/-- Stage 52 is the hidden row: the normalised row times the transposed first weights, plus the first bias, clamped at zero. -/
theorem hidden (b : Fin 4) (s : Fin 2048) (e : Fin 1024) :
    (val_main_v52 (F := Ideal) x0 x1 x2 x3 x4 x5 x8 x9 (ix3 b s e) : EReal)
      = hiddenRow (matOf x4) (vecOf x5)
          (normRow (vecOf x8) (vecOf x9) (fun d' => (val_main_v23 (F := Ideal) x0 x1 x2 x3 (ix3 b s d') : EReal))) e := by
  rw [val_main_v52_apply, val_main_v51_apply, val_main_v48_apply, val_main_v50_apply, val_main_v49_apply,
    val_main_call2_v0_apply, val_main_call2_cst_apply]
  simp only [lhsIdx48, rhsIdx48, featIdx50, norm1, Ideal.addf_def, Ideal.maximumf_def, Ideal.ofBits_def,
    Ideal.ofBits_zero_f32]
  rfl

/-- Stage 56 is the feed-forward row: the hidden row times the transposed second weights, plus the second bias. -/
theorem feed (b : Fin 4) (s : Fin 2048) (e : Fin 1024) :
    (val_main_v56 (F := Ideal) x0 x1 x2 x3 x4 x5 x6 x7 x8 x9 (ix3 b s e) : EReal)
      = feedRow (matOf x4) (vecOf x5) (matOf x6) (vecOf x7)
          (normRow (vecOf x8) (vecOf x9) (fun d' => (val_main_v23 (F := Ideal) x0 x1 x2 x3 (ix3 b s d') : EReal))) e := by
  rw [val_main_v56_apply, val_main_v53_apply, val_main_v55_apply, val_main_v54_apply]
  simp only [lhsIdx53, rhsIdx53, featIdx55, hidden, Ideal.addf_def]
  rfl

/-- Stage 57 adds the feed-forward row back to the normalised row. -/
theorem resid (b : Fin 4) (s : Fin 2048) (d : Fin 1024) :
    (val_main_v57 (F := Ideal) x0 x1 x2 x3 x4 x5 x6 x7 x8 x9 (ix3 b s d) : EReal)
      = normRow (vecOf x8) (vecOf x9) (fun d' => (val_main_v23 (F := Ideal) x0 x1 x2 x3 (ix3 b s d') : EReal)) d
        + feedRow (matOf x4) (vecOf x5) (matOf x6) (vecOf x7)
            (normRow (vecOf x8) (vecOf x9) (fun d' => (val_main_v23 (F := Ideal) x0 x1 x2 x3 (ix3 b s d') : EReal))) d := by
  rw [val_main_v57_apply, norm1, feed]
  rfl

/-! ## The second normalisation: stages 58 … 81 on stage 57's row -/

/-- Stage 61 is the mean of stage 57's row. -/
theorem mean2 (b : Fin 4) (s : Fin 2048) (z : Fin 1) :
    (val_main_v61 (F := Ideal) x0 x1 x2 x3 x4 x5 x6 x7 x8 x9 (ix3 b s z) : EReal)
      = meanRow (fun d' => (val_main_v57 (F := Ideal) x0 x1 x2 x3 x4 x5 x6 x7 x8 x9 (ix3 b s d') : EReal)) := by
  rw [val_main_v61_apply, val_main_v59_apply, val_main_v60_apply, val_main_cst_10_apply, val_main_v58_apply,
    val_main_cst_9_apply]
  simp only [sumIdx58, Ideal.hostDivf_def, Ideal.ofBits_def, Ideal.ofBits_zero_f32, zero_add]
  rfl

/-- Stage 68 is the variance of stage 57's row. -/
theorem var2 (b : Fin 4) (s : Fin 2048) (z : Fin 1) :
    (val_main_v68 (F := Ideal) x0 x1 x2 x3 x4 x5 x6 x7 x8 x9 (ix3 b s z) : EReal)
      = varRow (fun d' => (val_main_v57 (F := Ideal) x0 x1 x2 x3 x4 x5 x6 x7 x8 x9 (ix3 b s d') : EReal)) := by
  rw [val_main_v68_apply, val_main_v66_apply, val_main_v67_apply, val_main_cst_12_apply, val_main_v65_apply,
    val_main_cst_11_apply]
  simp only [sumIdx65, val_main_v64_apply, val_main_v63_apply, val_main_v62_apply, unitIdx62, mean2,
    Ideal.hostDivf_def, Ideal.mulf_def, Ideal.subf_def, Ideal.ofBits_def, Ideal.ofBits_zero_f32, zero_add]
  rfl

/-- Stage 73 is the reciprocal square root of the offset variance of stage 57's row. -/
theorem rstd2 (b : Fin 4) (s : Fin 2048) (z : Fin 1) :
    (val_main_v73 (F := Ideal) x0 x1 x2 x3 x4 x5 x6 x7 x8 x9 (ix3 b s z) : EReal)
      = Ideal.rsqrt (varRow (fun d' => (val_main_v57 (F := Ideal) x0 x1 x2 x3 x4 x5 x6 x7 x8 x9 (ix3 b s d') : EReal)) + cEps) := by
  rw [val_main_v73_apply, val_main_v72_apply, val_main_v71_apply, val_main_cst_13_apply, var2]
  simp only [Ideal.hostUnary_rsqrt_def, Ideal.addf_def, Ideal.ofBits_def]
  rfl

/-- Stage 81 is stage 57's row normalised, scaled by gamma and shifted by beta. -/
theorem norm2 (b : Fin 4) (s : Fin 2048) (d : Fin 1024) :
    (val_main_v81 (F := Ideal) x0 x1 x2 x3 x4 x5 x6 x7 x8 x9 (ix3 b s d) : EReal)
      = normRow (vecOf x8) (vecOf x9) (fun d' => (val_main_v57 (F := Ideal) x0 x1 x2 x3 x4 x5 x6 x7 x8 x9 (ix3 b s d') : EReal)) d := by
  simp only [val_main_v81_apply, val_main_v78_apply, val_main_v80_apply, val_main_v79_apply, val_main_v75_apply,
    val_main_v77_apply, val_main_v76_apply, val_main_v70_apply, val_main_v74_apply, val_main_v69_apply,
    unitIdx69, unitIdx74, featIdx77, featIdx80, mean2, rstd2, Ideal.addf_def, Ideal.mulf_def, Ideal.subf_def]
  rfl

/-! ## The assembly -/

/-- The reference's last stage is the specification's row block of stage 23's row. -/
theorem ref_block (x0 : Vec Ideal S4x2048x1024 .f32) (x1 x2 x3 x4 : Vec Ideal S1024x1024 .f32) (x5 : Vec Ideal S1024 .f32)
    (x6 : Vec Ideal S1024x1024 .f32) (x7 x8 x9 : Vec Ideal S1024 .f32) (b : Fin 4) (s : Fin 2048) (d : Fin 1024) :
    (val_main_v81 (F := Ideal) x0 x1 x2 x3 x4 x5 x6 x7 x8 x9 (ix3 b s d) : EReal)
      = blockRow (matOf x4) (vecOf x5) (matOf x6) (vecOf x7) (vecOf x8) (vecOf x9)
          (fun d' => (val_main_v23 (F := Ideal) x0 x1 x2 x3 (ix3 b s d') : EReal)) d := by
  rw [norm2]
  simp only [resid]
  rfl

end Cert.ReferenceIdeal.RefValue

end
-- ==== Proof.Finite.lean ====
/-
  From the precondition — every float input holds finite numbers — to: the input rows and the three projection matrices
  hold real numbers (neither +∞ nor −∞), entry by entry.
-/
import proofs.«408005_j88158498718040_3_alg».proof.Defs
import proofs.«408005_j88158498718040_3_alg».proof.Proof.Gen.Pre_finite_inputs
import Idealize.ShloMosaic.Lib.ReduceAll
import Idealize.ShloMosaic.Lib.ValueIdx
import Idealize.ShloMosaic.PureOps.Ideal.Laws

noncomputable section

namespace Cert.Proof.Finite

open Cert.KernelIdeal
open Idealize.ShloMosaic Idealize.ShloMosaic.TcCoe Idealize.ShloMosaic.ValueIdx

/-- The input rows and the three projection matrices as the launch memory holds them on core "c". -/
abbrev aX (m : (ℓ : Loc nD τ sig) → Buf (Elt Ideal) ℓ) (c : Dev nD) : Vec Ideal S4x2048x1024 .f32 := m ((c : Thread nD τ).loc main_arg0)
abbrev aWq (m : (ℓ : Loc nD τ sig) → Buf (Elt Ideal) ℓ) (c : Dev nD) : Vec Ideal S1024x1024 .f32 := m ((c : Thread nD τ).loc main_arg1)
abbrev aWk (m : (ℓ : Loc nD τ sig) → Buf (Elt Ideal) ℓ) (c : Dev nD) : Vec Ideal S1024x1024 .f32 := m ((c : Thread nD τ).loc main_arg2)
abbrev aWv (m : (ℓ : Loc nD τ sig) → Buf (Elt Ideal) ℓ) (c : Dev nD) : Vec Ideal S1024x1024 .f32 := m ((c : Thread nD τ).loc main_arg3)

/-- The shape of a single number has one index. -/
instance : Subsingleton Cert.Pre_finite_inputs.S_.Idx := ⟨fun a b => funext fun d => d.elim0⟩

/-- An extended real whose absolute value compares below the pattern of +∞ is a real number. -/
theorem real_of_abs_lt (x : EReal)
    (h : Ideal.cmp .olt (max x (-x)) (Ideal.ofBits .f32 0x7F800000#32) = 1#1) : x ≠ ⊤ ∧ x ≠ ⊥ := by
  have e : Ideal.ofBits .f32 0x7F800000#32 = (⊤ : EReal) := by simp [Ideal.ofBits, Ideal.ieee]
  rw [e] at h
  have h' : max x (-x) < ⊤ := by
    unfold Ideal.cmp at h
    by_contra hn
    simp [hn] at h
  constructor
  · rintro rfl; simp at h'
  · rintro rfl; simp at h'

/-- One test of the precondition, on an array of any shape: if the conjunction over all entries of
    "the absolute value is below +∞" came out one, every entry is a real number. -/
theorem real_of_all {S : Shape} {axes : List (Fin S.rank)}
    (hb : Cert.Pre_finite_inputs.S_.BroadcastsInDim S (![] : Fin 0 → Fin S.rank))
    (hr : S.ReducesTo axes Cert.Pre_finite_inputs.S_) (hS : 0 < Cert.Pre_finite_inputs.S_.numel)
    (x : FVec Ideal S .f32)
    (e : Host.reduce IntOp.andi
        (cmpf .olt (Host.absf x) (broadcastInDim S ![] hb (constant Cert.Pre_finite_inputs.S_ .f32 0x7F800000#32)))
        (constantI Cert.Pre_finite_inputs.S_ 1 1#1) hr hS ix0 = 1#1)
    (i : S.Idx) : (x i : EReal) ≠ ⊤ ∧ (x i : EReal) ≠ ⊥ :=
  real_of_abs_lt (x i) (Host.reduce_andi_all _ _ hr hS ix0 e i)

/-- Under the precondition the input rows and the three projection matrices hold real numbers. -/
theorem real_of_pre [hP : Cert.Pre_finite_inputs.Facts] (m : (ℓ : Loc nD τ sig) → Buf (Elt Ideal) ℓ)
    (h : Cert.Pre_KernelIdeal m) (c : Dev nD) :
    (∀ i, (aX m c i : EReal) ≠ ⊤ ∧ (aX m c i : EReal) ≠ ⊥)
    ∧ (∀ i, (aWq m c i : EReal) ≠ ⊤ ∧ (aWq m c i : EReal) ≠ ⊥)
    ∧ (∀ i, (aWk m c i : EReal) ≠ ⊤ ∧ (aWk m c i : EReal) ≠ ⊥)
    ∧ (∀ i, (aWv m c i : EReal) ≠ ⊤ ∧ (aWv m c i : EReal) ≠ ⊥) := by
  have e := congrFun (h c) ix0
  unfold Cert.Pre_finite_inputs.fn Cert.Pre_finite_inputs.fn_part1 Cert.Pre_finite_inputs.fn_part2 at e
  dsimp only at e
  simp only [andi, IntOp.andi_eq_one] at e
  obtain ⟨⟨⟨⟨⟨⟨⟨⟨⟨h0, h1⟩, h2⟩, h3⟩, -⟩, -⟩, -⟩, -⟩, -⟩, -⟩ := e
  exact ⟨fun i => real_of_all _ _ _ _ h0 i, fun i => real_of_all _ _ _ _ h1 i,
    fun i => real_of_all _ _ _ _ h2 i, fun i => real_of_all _ _ _ _ h3 i⟩

end Cert.Proof.Finite

end
-- ==== Proof.lean ====
/-
  The certificate's claim: the three frames, the one ideal-pass rewrite, and the equality of the idealized kernel program
  and the idealized reference over the extended reals.

  Both kernel programs (the word-level one and its idealization) are three pipelined kernel regions among four host
  stretches; their frames come from one run of the whole entry function stated at any float instance (every unscoped
  buffer ends at the contents a fold through the items computes, and no item writes an argument). At the ideal instance
  the fold's result buffer is, index by index, the specification's transformer layer of the ten argument arrays: region 0
  is the three projections; region 1 computes causal softmax attention with a running softmax over key tiles, equal to
  the plain softmax over all keys because exp(a − b) · exp(x − a) = exp(x − b) and a masked key contributes exp(−∞) = 0;
  region 2 is layer norm, feed-forward, residual, layer norm row by row. The reference's run ends at the same function,
  read stage by stage. The precondition (finite inputs) is used where the running softmax's rescaling and the
  normalisation by the row sum need real numbers.
-/
import proofs.«408005_j88158498718040_3_alg».proof.Defs
import proofs.«408005_j88158498718040_3_alg».proof.Proof.Gen.Kernel
import proofs.«408005_j88158498718040_3_alg».proof.Proof.Gen.KernelIdeal
import proofs.«408005_j88158498718040_3_alg».proof.Proof.Gen.ReferenceIdeal
import proofs.«408005_j88158498718040_3_alg».proof.Proof.Gen.Pre_finite_inputs
import proofs.«408005_j88158498718040_3_alg».proof.Proof.K.Run
import proofs.«408005_j88158498718040_3_alg».proof.Proof.K.Chain
import proofs.«408005_j88158498718040_3_alg».proof.Proof.KI.Run
import proofs.«408005_j88158498718040_3_alg».proof.Proof.KI.Chain
import proofs.«408005_j88158498718040_3_alg».proof.Proof.KI.Glue
import proofs.«408005_j88158498718040_3_alg».proof.Proof.RefRun
import proofs.«408005_j88158498718040_3_alg».proof.Proof.RefRead
import proofs.«408005_j88158498718040_3_alg».proof.Proof.Ref1
import proofs.«408005_j88158498718040_3_alg».proof.Proof.Ref2
import proofs.«408005_j88158498718040_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

section Claims

variable [hKernel : Cert.Kernel.Facts] [hKernelIdeal : Cert.KernelIdeal.Facts] [hReferenceIdeal : Cert.ReferenceIdeal.Facts]
  [hPre : Cert.Pre_finite_inputs.Facts]

/-- The word-level kernel program runs and leaves its arguments as launched. -/
theorem frame_k : Cert.frame_Kernel := fun m ρ _ =>
  Cert.Kernel.Hand.run_all (F := Bits) m ρ (hQ := fun s h c =>
    ⟨(h c _ (Cert.Kernel.Hand.mem_uc Cert.Kernel.main_arg0 (by decide))).trans (Cert.Kernel.Hand.W7_main_arg0 m ρ c),
     (h c _ (Cert.Kernel.Hand.mem_uc Cert.Kernel.main_arg1 (by decide))).trans (Cert.Kernel.Hand.W7_main_arg1 m ρ c),
     (h c _ (Cert.Kernel.Hand.mem_uc Cert.Kernel.main_arg2 (by decide))).trans (Cert.Kernel.Hand.W7_main_arg2 m ρ c),
     (h c _ (Cert.Kernel.Hand.mem_uc Cert.Kernel.main_arg3 (by decide))).trans (Cert.Kernel.Hand.W7_main_arg3 m ρ c),
     (h c _ (Cert.Kernel.Hand.mem_uc Cert.Kernel.main_arg4 (by decide))).trans (Cert.Kernel.Hand.W7_main_arg4 m ρ c),
     (h c _ (Cert.Kernel.Hand.mem_uc Cert.Kernel.main_arg5 (by decide))).trans (Cert.Kernel.Hand.W7_main_arg5 m ρ c),
     (h c _ (Cert.Kernel.Hand.mem_uc Cert.Kernel.main_arg6 (by decide))).trans (Cert.Kernel.Hand.W7_main_arg6 m ρ c),
     (h c _ (Cert.Kernel.Hand.mem_uc Cert.Kernel.main_arg7 (by decide))).trans (Cert.Kernel.Hand.W7_main_arg7 m ρ c),
     (h c _ (Cert.Kernel.Hand.mem_uc Cert.Kernel.main_arg8 (by decide))).trans (Cert.Kernel.Hand.W7_main_arg8 m ρ c),
     (h c _ (Cert.Kernel.Hand.mem_uc Cert.Kernel.main_arg9 (by decide))).trans (Cert.Kernel.Hand.W7_main_arg9 m ρ c)⟩)

/-- What the idealized kernel program's run reads at the end: the result buffer at the fold's contents, each argument
    as launched. -/
theorem ki_reads (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v19)
            = Cert.KernelIdeal.Hand.W7 (F := Ideal) m ρ c (Proc.devRef .tc Cert.KernelIdeal.main_v19)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  Cert.KernelIdeal.Hand.run_all (F := Ideal) m ρ (hQ := fun s h c =>
    ⟨h c _ (Cert.KernelIdeal.Hand.mem_uc Cert.KernelIdeal.main_v19 (by decide)),
     (h c _ (Cert.KernelIdeal.Hand.mem_uc Cert.KernelIdeal.main_arg0 (by decide))).trans (Cert.KernelIdeal.Hand.W7_main_arg0 m ρ c),
     (h c _ (Cert.KernelIdeal.Hand.mem_uc Cert.KernelIdeal.main_arg1 (by decide))).trans (Cert.KernelIdeal.Hand.W7_main_arg1 m ρ c),
     (h c _ (Cert.KernelIdeal.Hand.mem_uc Cert.KernelIdeal.main_arg2 (by decide))).trans (Cert.KernelIdeal.Hand.W7_main_arg2 m ρ c),
     (h c _ (Cert.KernelIdeal.Hand.mem_uc Cert.KernelIdeal.main_arg3 (by decide))).trans (Cert.KernelIdeal.Hand.W7_main_arg3 m ρ c),
     (h c _ (Cert.KernelIdeal.Hand.mem_uc Cert.KernelIdeal.main_arg4 (by decide))).trans (Cert.KernelIdeal.Hand.W7_main_arg4 m ρ c),
     (h c _ (Cert.KernelIdeal.Hand.mem_uc Cert.KernelIdeal.main_arg5 (by decide))).trans (Cert.KernelIdeal.Hand.W7_main_arg5 m ρ c),
     (h c _ (Cert.KernelIdeal.Hand.mem_uc Cert.KernelIdeal.main_arg6 (by decide))).trans (Cert.KernelIdeal.Hand.W7_main_arg6 m ρ c),
     (h c _ (Cert.KernelIdeal.Hand.mem_uc Cert.KernelIdeal.main_arg7 (by decide))).trans (Cert.KernelIdeal.Hand.W7_main_arg7 m ρ c),
     (h c _ (Cert.KernelIdeal.Hand.mem_uc Cert.KernelIdeal.main_arg8 (by decide))).trans (Cert.KernelIdeal.Hand.W7_main_arg8 m ρ c),
     (h c _ (Cert.KernelIdeal.Hand.mem_uc Cert.KernelIdeal.main_arg9 (by decide))).trans (Cert.KernelIdeal.Hand.W7_main_arg9 m ρ c)⟩)

/-- The idealized kernel program runs and leaves its arguments as launched. -/
theorem frame_ki : Cert.frame_KernelIdeal := fun m ρ _ =>
  (θ_run (Cert.KernelIdeal.defs (F := Ideal)) _ _).mono (fun _ h c => (h c).2) (ki_reads m ρ)

/-- The idealized reference runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The one ideal-pass rewrite: the finite stand-in for −∞ that the attention mask fills with is named −∞. -/
theorem preserves : Cert.preserves_Kernel_KernelIdeal :=
  IdealRules.named_const.statement Cert.KernelIdeal.κ "neg_big" .f32 0xFF333332#32 ⊥ rfl

/-- The reference's result term, index by index, is the specification's layer of its argument arrays. -/
theorem ref_layer (m' : (ℓ : Loc Cert.ReferenceIdeal.nD Cert.ReferenceIdeal.τ Cert.ReferenceIdeal.sig) → Buf (Elt Ideal) ℓ)
    (c : Dev Cert.ReferenceIdeal.nD) (b : Fin 4) (s : Fin 2048) (d : Fin 1024) :
    (Cert.ReferenceIdeal.Value.res_main_v81 (F := Ideal) m' c (ix3 b s d) : EReal)
      = Cert.Spec.layer
          (Cert.Spec.rowsOf (m' ((c.tc : Thread Cert.ReferenceIdeal.nD Cert.ReferenceIdeal.τ).loc Cert.ReferenceIdeal.main_arg0)))
          (Cert.Spec.matOf (m' ((c.tc : Thread Cert.ReferenceIdeal.nD Cert.ReferenceIdeal.τ).loc Cert.ReferenceIdeal.main_arg1)))
          (Cert.Spec.matOf (m' ((c.tc : Thread Cert.ReferenceIdeal.nD Cert.ReferenceIdeal.τ).loc Cert.ReferenceIdeal.main_arg2)))
          (Cert.Spec.matOf (m' ((c.tc : Thread Cert.ReferenceIdeal.nD Cert.ReferenceIdeal.τ).loc Cert.ReferenceIdeal.main_arg3)))
          (Cert.Spec.matOf (m' ((c.tc : Thread Cert.ReferenceIdeal.nD Cert.ReferenceIdeal.τ).loc Cert.ReferenceIdeal.main_arg4)))
          (Cert.Spec.vecOf (m' ((c.tc : Thread Cert.ReferenceIdeal.nD Cert.ReferenceIdeal.τ).loc Cert.ReferenceIdeal.main_arg5)))
          (Cert.Spec.matOf (m' ((c.tc : Thread Cert.ReferenceIdeal.nD Cert.ReferenceIdeal.τ).loc Cert.ReferenceIdeal.main_arg6)))
          (Cert.Spec.vecOf (m' ((c.tc : Thread Cert.ReferenceIdeal.nD Cert.ReferenceIdeal.τ).loc Cert.ReferenceIdeal.main_arg7)))
          (Cert.Spec.vecOf (m' ((c.tc : Thread Cert.ReferenceIdeal.nD Cert.ReferenceIdeal.τ).loc Cert.ReferenceIdeal.main_arg8)))
          (Cert.Spec.vecOf (m' ((c.tc : Thread Cert.ReferenceIdeal.nD Cert.ReferenceIdeal.τ).loc Cert.ReferenceIdeal.main_arg9)))
          b s d := by
  rw [Cert.ReferenceIdeal.Read.val_main_v81_eq]
  refine (Cert.ReferenceIdeal.RefValue.ref_block _ _ _ _ _ _ _ _ _ _ b s d).trans ?_
  unfold Cert.Spec.layer
  congr 1
  funext d'
  exact Cert.ReferenceIdeal.RefValue.ref_attn _ _ _ _ b s d'

/-- The two idealized programs, run from memories that agree on the arguments, end with equal results. -/
theorem algebraic : Cert.algebraic_KernelIdeal_ReferenceIdeal := by
  intro m ρ m' ρ' hpre hagree
  refine ⟨fun c => Cert.KernelIdeal.Hand.W7 (F := Ideal) m ρ c (Proc.devRef .tc Cert.KernelIdeal.main_v19), ki_reads m ρ, ?_⟩
  refine (θ_run Cert.ReferenceIdeal.defs _ _).mono (fun _ h c => ⟨(h c).1.trans ?_, (h c).2⟩)
    (Cert.ReferenceIdeal.Value.run (F := Ideal) m' ρ')
  obtain ⟨hx, hq, hk, hv⟩ := Cert.Proof.Finite.real_of_pre m hpre c
  funext i
  obtain ⟨b, s, d, rfl⟩ : ∃ (b : Fin 4) (s : Fin 2048) (d : Fin 1024), i = ix3 b s d := ⟨i 0, i 1, i 2, eq_ix3 i⟩
  refine (ref_layer m' c b s d).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  exact (Cert.KernelIdeal.Hand.result_eq m ρ c hx hq hk hv b s d).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
